-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048 : Shape := ⟨2, ![128, 2048]⟩
abbrev S128x1 : Shape := ⟨2, ![128, 1]⟩
abbrev S512x15 : Shape := ⟨2, ![512, 15]⟩
abbrev S512x128 : Shape := ⟨2, ![512, 128]⟩
abbrev S512 : Shape := ⟨1, ![512]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S128x2048 : S_.BroadcastsInDim S128x2048 (![] : Fin 0 → Fin S128x2048.rank)
  reducesTo_S128x2048_S_d0_1 : S128x2048.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S512x15 : S_.BroadcastsInDim S512x15 (![] : Fin 0 → Fin S512x15.rank)
  reducesTo_S512x15_S_d0_1 : S512x15.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg20 : FVec F S1x128 .f32) (main_arg21 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S1x128 .f32 := Host.absf main_arg20
  let main_cst_34 : FVec F S_ .f32 := constant S_ .f32 0x7F800000#32
  let main_v90 : FVec F S1x128 .f32 := broadcastInDim S1x128 ![] bcast_S_S1x128 main_cst_34
  let main_v91 : IVec S1x128 1 := cmpf .olt main_v89 main_v90
  let main_c_35 : IVec S_ 1 := constantI S_ 1 1#1
  let main_v92 : IVec S_ 1 := (fun x v => Host.reduce IntOp.andi x v reducesTo_S1x128_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg16 : FVec F S512 .f32) (main_arg17 : FVec F S512 .f32) (main_arg18 : FVec F S128x128 .f32) (main_arg19 : FVec F S128 .f32) (main_arg20 : FVec F S1x128 .f32) (main_arg21 : FVec F S1 .f32) (main_v63 : IVec S_ 1) (main_v67 : IVec S_ 1) : IVec S_ 1 :=
  let main_v68 : IVec S_ 1 := andi main_v63 main_v67
  let main_v69 : FVec F S512 .f32 := Host.absf main_arg16
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg17
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg11 : FVec F S128x2048 .f32) (main_arg14 : FVec F S512x15 .f32) (main_arg15 : FVec F S512x128 .f32) (main_arg16 : FVec F S512 .f32) (main_arg17 : FVec F S512 .f32) (main_arg18 : FVec F S128x128 .f32) (main_arg19 : FVec F S128 .f32) (main_arg20 : FVec F S1x128 .f32) (main_arg21 : FVec F S1 .f32) (main_v48 : IVec S_ 1) (main_v49 : FVec F S128x2048 .f32) (main_v50 : FVec F S128x2048 .f32) : IVec S_ 1 :=
  let main_v51 : IVec S128x2048 1 := cmpf .olt main_v49 main_v50
  let main_c_19 : IVec S_ 1 := constantI S_ 1 1#1
  let main_v52 : IVec S_ 1 := (fun x v => Host.reduce IntOp.andi x v reducesTo_S128x2048_S_d0_1 h_S_) main_v51 main_c_19
  let main_v53 : IVec S_ 1 := andi main_v48 main_v52
  let main_v54 : FVec F S128x2048 .f32 := Host.absf main_arg11
  let main_cst_20 : FVec F S_ .f32 := constant S_ .f32 0x7F800000#32
  let main_v55 : FVec F S128x2048 .f32 := broadcastInDim S128x2048 ![] bcast_S_S128x2048 main_cst_20
  let main_v56 : IVec S128x2048 1 := cmpf .olt main_v54 main_v55
  let main_c_21 : IVec S_ 1 := constantI S_ 1 1#1
  let main_v57 : IVec S_ 1 := (fun x v => Host.reduce IntOp.andi x v reducesTo_S128x2048_S_d0_1 h_S_) main_v56 main_c_21
  let main_v58 : IVec S_ 1 := andi main_v53 main_v57
  let main_v59 : FVec F S512x15 .f32 := Host.absf main_arg14
  let main_cst_22 : FVec F S_ .f32 := constant S_ .f32 0x7F800000#32
  let main_v60 : FVec F S512x15 .f32 := broadcastInDim S512x15 ![] bcast_S_S512x15 main_cst_22
  let main_v61 : IVec S512x15 1 := cmpf .olt main_v59 main_v60
  let main_c_23 : IVec S_ 1 := constantI S_ 1 1#1
  let main_v62 : IVec S_ 1 := (fun x v => Host.reduce IntOp.andi x v reducesTo_S512x15_S_d0_1 h_S_) main_v61 main_c_23
  let main_v63 : IVec S_ 1 := andi main_v58 main_v62
  let main_v64 : FVec F S512x128 .f32 := Host.absf main_arg15
  let main_cst_24 : FVec F S_ .f32 := constant S_ .f32 0x7F800000#32
  let main_v65 : FVec F S512x128 .f32 := broadcastInDim S512x128 ![] bcast_S_S512x128 main_cst_24
  let main_v66 : IVec S512x128 1 := cmpf .olt main_v64 main_v65
  let main_c_25 : IVec S_ 1 := constantI S_ 1 1#1
  let main_v67 : IVec S_ 1 := (fun x v => Host.reduce IntOp.andi x v reducesTo_S512x128_S_d0_1 h_S_) main_v66 main_c_25
  fn_part4 (F := F) main_arg16 main_arg17 main_arg18 main_arg19 main_arg20 main_arg21 main_v63 main_v67

def fn_part2 {F : FTy → Type} [FloatOps F] (main_arg7 : FVec F S128x2048 .f32) (main_arg8 : FVec F S128x2048 .f32) (main_arg9 : FVec F S128x1 .f32) (main_arg10 : FVec F S128x2048 .f32) (main_arg11 : FVec F S128x2048 .f32) (main_arg14 : FVec F S512x15 .f32) (main_arg15 : FVec F S512x128 .f32) (main_arg16 : FVec F S512 .f32) (main_arg17 : FVec F S512 .f32) (main_arg18 : FVec F S128x128 .f32) (main_arg19 : FVec F S128 .f32) (main_arg20 : FVec F S1x128 .f32) (main_arg21 : FVec F S1 .f32) (main_v33 : IVec S_ 1) : IVec S_ 1 :=
  let main_v34 : FVec F S128x2048 .f32 := Host.absf main_arg7
  let main_cst_12 : FVec F S_ .f32 := constant S_ .f32 0x7F800000#32
  let main_v35 : FVec F S128x2048 .f32 := broadcastInDim S128x2048 ![] bcast_S_S128x2048 main_cst_12
  let main_v36 : IVec S128x2048 1 := cmpf .olt main_v34 main_v35
  let main_c_13 : IVec S_ 1 := constantI S_ 1 1#1
  let main_v37 : IVec S_ 1 := (fun x v => Host.reduce IntOp.andi x v reducesTo_S128x2048_S_d0_1 h_S_) main_v36 main_c_13
  let main_v38 : IVec S_ 1 := andi main_v33 main_v37
  let main_v39 : FVec F S128x2048 .f32 := Host.absf main_arg8
  let main_cst_14 : FVec F S_ .f32 := constant S_ .f32 0x7F800000#32
  let main_v40 : FVec F S128x2048 .f32 := broadcastInDim S128x2048 ![] bcast_S_S128x2048 main_cst_14
  let main_v41 : IVec S128x2048 1 := cmpf .olt main_v39 main_v40
  let main_c_15 : IVec S_ 1 := constantI S_ 1 1#1
  let main_v42 : IVec S_ 1 := (fun x v => Host.reduce IntOp.andi x v reducesTo_S128x2048_S_d0_1 h_S_) main_v41 main_c_15
  let main_v43 : IVec S_ 1 := andi main_v38 main_v42
  let main_v44 : FVec F S128x1 .f32 := Host.absf main_arg9
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S128x2048 .f32 := Host.absf main_arg10
  let main_cst_18 : FVec F S_ .f32 := constant S_ .f32 0x7F800000#32
  let main_v50 : FVec F S128x2048 .f32 := broadcastInDim S128x2048 ![] bcast_S_S128x2048 main_cst_18
  fn_part3 (F := F) main_arg11 main_arg14 main_arg15 main_arg16 main_arg17 main_arg18 main_arg19 main_arg20 main_arg21 main_v48 main_v49 main_v50

def fn_part1 {F : FTy → Type} [FloatOps F] (main_arg4 : FVec F S128x2048 .f32) (main_arg5 : FVec F S128x2048 .f32) (main_arg6 : FVec F S128x2048 .f32) (main_arg7 : FVec F S128x2048 .f32) (main_arg8 : FVec F S128x2048 .f32) (main_arg9 : FVec F S128x1 .f32) (main_arg10 : FVec F S128x2048 .f32) (main_arg11 : FVec F S128x2048 .f32) (main_arg14 : FVec F S512x15 .f32) (main_arg15 : FVec F S512x128 .f32) (main_arg16 : FVec F S512 .f32) (main_arg17 : FVec F S512 .f32) (main_arg18 : FVec F S128x128 .f32) (main_arg19 : FVec F S128 .f32) (main_arg20 : FVec F S1x128 .f32) (main_arg21 : FVec F S1 .f32) (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  let main_v19 : FVec F S128x2048 .f32 := Host.absf main_arg4
  let main_cst_6 : FVec F S_ .f32 := constant S_ .f32 0x7F800000#32
  let main_v20 : FVec F S128x2048 .f32 := broadcastInDim S128x2048 ![] bcast_S_S128x2048 main_cst_6
  let main_v21 : IVec S128x2048 1 := cmpf .olt main_v19 main_v20
  let main_c_7 : IVec S_ 1 := constantI S_ 1 1#1
  let main_v22 : IVec S_ 1 := (fun x v => Host.reduce IntOp.andi x v reducesTo_S128x2048_S_d0_1 h_S_) main_v21 main_c_7
  let main_v23 : IVec S_ 1 := andi main_v18 main_v22
  let main_v24 : FVec F S128x2048 .f32 := Host.absf main_arg5
  let main_cst_8 : FVec F S_ .f32 := constant S_ .f32 0x7F800000#32
  let main_v25 : FVec F S128x2048 .f32 := broadcastInDim S128x2048 ![] bcast_S_S128x2048 main_cst_8
  let main_v26 : IVec S128x2048 1 := cmpf .olt main_v24 main_v25
  let main_c_9 : IVec S_ 1 := constantI S_ 1 1#1
  let main_v27 : IVec S_ 1 := (fun x v => Host.reduce IntOp.andi x v reducesTo_S128x2048_S_d0_1 h_S_) main_v26 main_c_9
  let main_v28 : IVec S_ 1 := andi main_v23 main_v27
  let main_v29 : FVec F S128x2048 .f32 := Host.absf main_arg6
  let main_cst_10 : FVec F S_ .f32 := constant S_ .f32 0x7F800000#32
  let main_v30 : FVec F S128x2048 .f32 := broadcastInDim S128x2048 ![] bcast_S_S128x2048 main_cst_10
  let main_v31 : IVec S128x2048 1 := cmpf .olt main_v29 main_v30
  let main_c_11 : IVec S_ 1 := constantI S_ 1 1#1
  let main_v32 : IVec S_ 1 := (fun x v => Host.reduce IntOp.andi x v reducesTo_S128x2048_S_d0_1 h_S_) main_v31 main_c_11
  let main_v33 : IVec S_ 1 := andi main_v28 main_v32
  fn_part2 (F := F) main_arg7 main_arg8 main_arg9 main_arg10 main_arg11 main_arg14 main_arg15 main_arg16 main_arg17 main_arg18 main_arg19 main_arg20 main_arg21 main_v33

def fn {F : FTy → Type} [FloatOps F] (main_arg0 : FVec F S128x2048 .f32) (main_arg1 : FVec F S128x2048 .f32) (main_arg2 : FVec F S128x2048 .f32) (main_arg3 : FVec F S128x2048 .f32) (main_arg4 : FVec F S128x2048 .f32) (main_arg5 : FVec F S128x2048 .f32) (main_arg6 : FVec F S128x2048 .f32) (main_arg7 : FVec F S128x2048 .f32) (main_arg8 : FVec F S128x2048 .f32) (main_arg9 : FVec F S128x1 .f32) (main_arg10 : FVec F S128x2048 .f32) (main_arg11 : FVec F S128x2048 .f32) (main_arg12 : IVec S128x2048 1) (main_arg13 : IVec S128x2048 1) (main_arg14 : FVec F S512x15 .f32) (main_arg15 : FVec F S512x128 .f32) (main_arg16 : FVec F S512 .f32) (main_arg17 : FVec F S512 .f32) (main_arg18 : FVec F S128x128 .f32) (main_arg19 : FVec F S128 .f32) (main_arg20 : FVec F S1x128 .f32) (main_arg21 : FVec F S1 .f32) : IVec S_ 1 :=
  let main_v0 : FVec F S128x2048 .f32 := Host.absf main_arg0
  let main_cst : FVec F S_ .f32 := constant S_ .f32 0x7F800000#32
  let main_v1 : FVec F S128x2048 .f32 := broadcastInDim S128x2048 ![] bcast_S_S128x2048 main_cst
  let main_v2 : IVec S128x2048 1 := cmpf .olt main_v0 main_v1
  let main_c : IVec S_ 1 := constantI S_ 1 1#1
  let main_v3 : IVec S_ 1 := (fun x v => Host.reduce IntOp.andi x v reducesTo_S128x2048_S_d0_1 h_S_) main_v2 main_c
  let main_v4 : FVec F S128x2048 .f32 := Host.absf main_arg1
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S128x2048 .f32 := Host.absf main_arg3
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_arg4 main_arg5 main_arg6 main_arg7 main_arg8 main_arg9 main_arg10 main_arg11 main_arg14 main_arg15 main_arg16 main_arg17 main_arg18 main_arg19 main_arg20 main_arg21 main_v13 main_v16
-- ==== Kernel.lean ====
abbrev S128x2048 : Shape := ⟨2, ![128, 2048]⟩
abbrev S128x1 : Shape := ⟨2, ![128, 1]⟩
abbrev S512x15 : Shape := ⟨2, ![512, 15]⟩
abbrev S512x128 : Shape := ⟨2, ![512, 128]⟩
abbrev S512 : Shape := ⟨1, ![512]⟩
abbrev S128x128 : Shape := ⟨2, ![128, 128]⟩
abbrev S128 : Shape := ⟨1, ![128]⟩
abbrev S1x128 : Shape := ⟨2, ![1, 128]⟩
abbrev S1 : Shape := ⟨1, ![1]⟩
abbrev S128x15 : Shape := ⟨2, ![128, 15]⟩
abbrev S15x128 : Shape := ⟨2, ![15, 128]⟩
abbrev S1x1 : Shape := ⟨2, ![1, 1]⟩
abbrev S128x5x2048 : Shape := ⟨3, ![128, 5, 2048]⟩
abbrev S32x128 : Shape := ⟨2, ![32, 128]⟩
abbrev S32x1 : Shape := ⟨2, ![32, 1]⟩
abbrev S32x5x128 : Shape := ⟨3, ![32, 5, 128]⟩
abbrev S32x128x1 : Shape := ⟨3, ![32, 128, 1]⟩
abbrev S32x128x15 : Shape := ⟨3, ![32, 128, 15]⟩
abbrev S4096x15 : Shape := ⟨2, ![4096, 15]⟩
abbrev S4096x128 : Shape := ⟨2, ![4096, 128]⟩
abbrev S4096x1 : Shape := ⟨2, ![4096, 1]⟩
abbrev S32x1x128 : Shape := ⟨3, ![32, 1, 128]⟩
abbrev S128x10240 : Shape := ⟨2, ![128, 10240]⟩

abbrev nBuf : Space → Nat
  | .hbm => 48
  | .vmem => 40
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S128x2048, .f32⟩
  | .hbm, ⟨3, _⟩ => ⟨S128x2048, .f32⟩
  | .hbm, ⟨4, _⟩ => ⟨S128x2048, .f32⟩
  | .hbm, ⟨5, _⟩ => ⟨S128x2048, .f32⟩
  | .hbm, ⟨6, _⟩ => ⟨S128x2048, .f32⟩
  | .hbm, ⟨7, _⟩ => ⟨S128x2048, .f32⟩
  | .hbm, ⟨8, _⟩ => ⟨S128x2048, .f32⟩
  | .hbm, ⟨9, _⟩ => ⟨S128x1, .f32⟩
  | .hbm, ⟨10, _⟩ => ⟨S128x2048, .f32⟩
  | .hbm, ⟨11, _⟩ => ⟨S128x2048, .f32⟩
  | .hbm, ⟨12, _⟩ => ⟨S128x2048, .i1⟩
  | .hbm, ⟨13, _⟩ => ⟨S128x2048, .i1⟩
  | .hbm, ⟨14, _⟩ => ⟨S512x15, .f32⟩
  | .hbm, ⟨15, _⟩ => ⟨S512x128, .f32⟩
  | .hbm, ⟨16, _⟩ => ⟨S512, .f32⟩
  | .hbm, ⟨17, _⟩ => ⟨S512, .f32⟩
  | .hbm, ⟨18, _⟩ => ⟨S128x128, .f32⟩
  | .hbm, ⟨19, _⟩ => ⟨S128, .f32⟩
  | .hbm, ⟨20, _⟩ => ⟨S1x128, .f32⟩
  | .hbm, ⟨21, _⟩ => ⟨S1, .f32⟩
  | .hbm, ⟨22, _⟩ => ⟨S128x15, .f32⟩
  | .hbm, ⟨23, _⟩ => ⟨S128x15, .f32⟩
  | .hbm, ⟨24, _⟩ => ⟨S128x15, .f32⟩
  | .hbm, ⟨25, _⟩ => ⟨S15x128, .f32⟩
  | .hbm, ⟨26, _⟩ => ⟨S15x128, .f32⟩
  | .hbm, ⟨27, _⟩ => ⟨S15x128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S1x128, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S1x128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S128x128, .f32⟩
  | .hbm, ⟨41, _⟩ => ⟨S1x128, .f32⟩
  | .hbm, ⟨42, _⟩ => ⟨S128x1, .f32⟩
  | .hbm, ⟨43, _⟩ => ⟨S1x1, .f32⟩
  | .hbm, ⟨44, _⟩ => ⟨S128x2048, .i32⟩
  | .hbm, ⟨45, _⟩ => ⟨S128x2048, .i32⟩
  | .hbm, ⟨46, _⟩ => ⟨S128x5x2048, .f32⟩
  | .hbm, ⟨47, _⟩ => ⟨S128x10240, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | .local _ .vmem, ⟨15, _⟩ => ⟨S32x128, .f32⟩
  | .local _ .vmem, ⟨16, _⟩ => ⟨S32x128, .f32⟩
  | .local _ .vmem, ⟨17, _⟩ => ⟨S32x128, .f32⟩
  | .local _ .vmem, ⟨18, _⟩ => ⟨S32x1, .f32⟩
  | .local _ .vmem, ⟨19, _⟩ => ⟨S32x1, .f32⟩
  | .local _ .vmem, ⟨20, _⟩ => ⟨S32x128, .f32⟩
  | .local _ .vmem, ⟨21, _⟩ => ⟨S32x128, .f32⟩
  | .local _ .vmem, ⟨22, _⟩ => ⟨S32x128, .f32⟩
  | .local _ .vmem, ⟨23, _⟩ => ⟨S32x128, .f32⟩
  | .local _ .vmem, ⟨24, _⟩ => ⟨S32x128, .i32⟩
  | .local _ .vmem, ⟨25, _⟩ => ⟨S32x128, .i32⟩
  | .local _ .vmem, ⟨26, _⟩ => ⟨S32x128, .i32⟩
  | .local _ .vmem, ⟨27, _⟩ => ⟨S32x128, .i32⟩
  | .local _ .vmem, ⟨28, _⟩ => ⟨S15x128, .f32⟩
  | .local _ .vmem, ⟨29, _⟩ => ⟨S15x128, .f32⟩
  | .local _ .vmem, ⟨30, _⟩ => ⟨S15x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S128x1, .f32⟩
  | .local _ .vmem, ⟨37, _⟩ => ⟨S1x1, .f32⟩
  | .local _ .vmem, ⟨38, _⟩ => ⟨S32x5x128, .f32⟩
  | .local _ .vmem, ⟨39, _⟩ => ⟨S32x5x128, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg24_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem23_0 : DmaSem sig := 37
abbrev cc0_sem24_0 : DmaSem sig := 38
abbrev cc0_sem24_1 : DmaSem sig := 39

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S15x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S15x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S15x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S128x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 2 → Memref sig .tc .vmem S32x5x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

class Facts₀ : Prop where
  slices_S512x15_S128x15_0_0 : S512x15.Slices ![0, 0] S128x15
  slices_S512x15_S128x15_256_0 : S512x15.Slices ![256, 0] S128x15
  slices_S512x15_S128x15_384_0 : S512x15.Slices ![384, 0] S128x15
  transposes_S128x15_S15x128_1_0 : S128x15.Transposes [1, 0] S15x128
  slices_S512_S128_0 : S512.Slices ![0] S128
  shapeCasts_S128_S1x128 : S128.ShapeCasts S1x128
  slices_S512_S128_256 : S512.Slices ![256] S128
  slices_S512_S128_384 : S512.Slices ![384] S128
  transposes_S128x128_S128x128_1_0 : S128x128.Transposes [1, 0] S128x128
  transposes_S1x128_S128x1_1_0 : S1x128.Transposes [1, 0] S128x1
  shapeCasts_S1_S1x1 : S1.ShapeCasts S1x1
  natLt_1_32 : 1 < 32
  inb_S32x128_S32x128_0_0 : ∀ a, (![0, 0] : Fin 2 → Nat) a + S32x128.size a ≤ S32x128.size a
  h_S32x128 : 0 < S32x128.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x128 : S32x1.Broadcasts S32x128
  shapeCasts_S32x128_S32x128x1 : S32x128.ShapeCasts S32x128x1
  concatenates_S32x128x1_S32x128x1_S32x128x1_S32x128x1_S32x128x1_S32x128x1_S32x128x1_S32x128x1_S32x128x1_S32x128x1_S32x128x1_S32x128x1_S32x128x1_S32x128x1_S32x128x1_S32x128x15_d2 : Shape.Concatenates [S32x128x1, S32x128x1, S32x128x1, S32x128x1, S32x128x1, S32x128x1, S32x128x1, S32x128x1, S32x128x1, S32x128x1, S32x128x1, S32x128x1, S32x128x1, S32x128x1, S32x128x1] S32x128x15 2
  shapeCasts_S32x128x15_S4096x15 : S32x128x15.ShapeCasts S4096x15
  bitsLt_bf16_f32 : FTy.bits .bf16 < FTy.bits .f32
  inb_S15x128_S15x128_0_0 : ∀ a, (![0, 0] : Fin 2 → Nat) a + S15x128.size a ≤ S15x128.size a
  h_S15x128 : 0 < S15x128.numel
  shapeCasts_S15x128_S15x128 : S15x128.ShapeCasts S15x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x1_S32x128 : S4096x1.ShapeCasts S32x128
  shapeCasts_S32x128_S32x1x128 : S32x128.ShapeCasts S32x1x128
  concatenates_S32x1x128_S32x1x128_S32x1x128_S32x1x128_S32x1x128_S32x5x128_d1 : Shape.Concatenates [S32x1x128, S32x1x128, S32x1x128, S32x1x128, S32x1x128] S32x5x128 1
  inb_S32x5x128_S32x5x128_0_0_0 : ∀ a, (![0, 0, 0] : Fin 3 → Nat) a + S32x5x128.size a ≤ S32x5x128.size a
  h_S32x5x128 : 0 < S32x5x128.numel
  shapeCasts_S128x5x2048_S128x10240 : S128x5x2048.ShapeCasts S128x10240
  dot_S4096x15_S15x128_S4096x128_1_0_0_1_n_n_wf : DotDims.WF S4096x15 S15x128 S4096x128 [1] [0] [0] [1] [] []
  dot_S4096x128_S128x128_S4096x128_1_0_0_1_n_n_wf : DotDims.WF S4096x128 S128x128 S4096x128 [1] [0] [0] [1] [] []
  dot_S4096x128_S128x1_S4096x1_1_0_0_1_n_n_wf : DotDims.WF S4096x128 S128x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S128x2048.size a
  hwx0_0 : ∀ i : grid0.Coords, EltTy.bits .f32 = 32 ∨ (Rect.block (s := S128x2048) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S128x2048.size a
  hwx0_1 : ∀ i : grid0.Coords, EltTy.bits .f32 = 32 ∨ (Rect.block (s := S128x2048) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S128x2048.size a
  hwx0_2 : ∀ i : grid0.Coords, EltTy.bits .f32 = 32 ∨ (Rect.block (s := S128x2048) S32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S128x2048.size a
  hwx0_3 : ∀ i : grid0.Coords, EltTy.bits .f32 = 32 ∨ (Rect.block (s := S128x2048) S32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S128x2048.size a
  hwx0_4 : ∀ i : grid0.Coords, EltTy.bits .f32 = 32 ∨ (Rect.block (s := S128x2048) S32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S128x2048.size a
  hwx0_5 : ∀ i : grid0.Coords, EltTy.bits .f32 = 32 ∨ (Rect.block (s := S128x2048) S32x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S128x2048.size a
  hwx0_6 : ∀ i : grid0.Coords, EltTy.bits .f32 = 32 ∨ (Rect.block (s := S128x2048) S32x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S128x2048.size a
  hwx0_7 : ∀ i : grid0.Coords, EltTy.bits .f32 = 32 ∨ (Rect.block (s := S128x2048) S32x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x128.size a ≤ S128x2048.size a
  hwx0_8 : ∀ i : grid0.Coords, EltTy.bits .f32 = 32 ∨ (Rect.block (s := S128x2048) S32x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x1.size a ≤ S128x1.size a
  hwx0_9 : ∀ i : grid0.Coords, EltTy.bits .f32 = 32 ∨ (Rect.block (s := S128x1) S32x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x128.size a ≤ S128x2048.size a
  hwx0_10 : ∀ i : grid0.Coords, EltTy.bits .f32 = 32 ∨ (Rect.block (s := S128x2048) S32x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x128.size a ≤ S128x2048.size a
  hwx0_11 : ∀ i : grid0.Coords, EltTy.bits .f32 = 32 ∨ (Rect.block (s := S128x2048) S32x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S32x128.size a ≤ S128x2048.size a
  hwx0_12 : ∀ i : grid0.Coords, EltTy.bits .i32 = 32 ∨ (Rect.block (s := S128x2048) S32x128.size (cc0_transform_12 i) (hinb0_12 i)).WholeWords (EltTy.packing .i32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S32x128.size a ≤ S128x2048.size a
  hwx0_13 : ∀ i : grid0.Coords, EltTy.bits .i32 = 32 ∨ (Rect.block (s := S128x2048) S32x128.size (cc0_transform_13 i) (hinb0_13 i)).WholeWords (EltTy.packing .i32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S15x128.size a ≤ S15x128.size a
  hwx0_14 : ∀ i : grid0.Coords, EltTy.bits .f32 = 32 ∨ (Rect.block (s := S15x128) S15x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S15x128.size a ≤ S15x128.size a
  hwx0_15 : ∀ i : grid0.Coords, EltTy.bits .f32 = 32 ∨ (Rect.block (s := S15x128) S15x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S15x128.size a ≤ S15x128.size a
  hwx0_16 : ∀ i : grid0.Coords, EltTy.bits .f32 = 32 ∨ (Rect.block (s := S15x128) S15x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x128.size a ≤ S1x128.size a
  hwx0_19 : ∀ i : grid0.Coords, EltTy.bits .f32 = 32 ∨ (Rect.block (s := S1x128) S1x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x128.size a ≤ S128x128.size a
  hwx0_20 : ∀ i : grid0.Coords, EltTy.bits .f32 = 32 ∨ (Rect.block (s := S128x128) S128x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x128.size a ≤ S1x128.size a
  hwx0_21 : ∀ i : grid0.Coords, EltTy.bits .f32 = 32 ∨ (Rect.block (s := S1x128) S1x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128x1.size a ≤ S128x1.size a
  hwx0_22 : ∀ i : grid0.Coords, EltTy.bits .f32 = 32 ∨ (Rect.block (s := S128x1) S128x1.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x1.size a ≤ S1x1.size a
  hwx0_23 : ∀ i : grid0.Coords, EltTy.bits .f32 = 32 ∨ (Rect.block (s := S1x1) S1x1.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S32x5x128.size a ≤ S128x5x2048.size a
  hwx0_24 : ∀ i : grid0.Coords, EltTy.bits .f32 = 32 ∨ (Rect.block (s := S128x5x2048) S32x5x128.size (cc0_transform_24 i) (hinb0_24 i)).WholeWords (EltTy.packing .f32)

variable [Facts₀]

def dot_S4096x15_S15x128_S4096x128_1_0_0_1_n_n : DotDims S4096x15 S15x128 S4096x128 where
  lhsContracting := [1]
  rhsContracting := [0]
  lhsNonContracting := [0]
  rhsNonContracting := [1]
  lhsBatch := []
  rhsBatch := []
  wf := dot_S4096x15_S15x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

abbrev win0_0 : Pipeline.Window sig grid0 :=
  Pipeline.Window.ofSpec (Memref.whole main_arg0) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S32x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S32x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S32x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v22) S32x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v23) S32x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v3) S15x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v4) S15x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v5) S15x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v9) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v13) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v17) S1x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v18) S128x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v19) S1x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v20) S128x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v21) S1x1.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v24) S32x5x128.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S128x2048 : Shape := ⟨2, ![128, 2048]⟩
abbrev S128x1 : Shape := ⟨2, ![128, 1]⟩
abbrev S512x15 : Shape := ⟨2, ![512, 15]⟩
abbrev S512x128 : Shape := ⟨2, ![512, 128]⟩
abbrev S512 : Shape := ⟨1, ![512]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S128x2048x1 : Shape := ⟨3, ![128, 2048, 1]⟩
abbrev S128x2048x15 : Shape := ⟨3, ![128, 2048, 15]⟩
abbrev S262144x15 : Shape := ⟨2, ![262144, 15]⟩
abbrev S15x512 : Shape := ⟨2, ![15, 512]⟩
abbrev S262144x512 : Shape := ⟨2, ![262144, 512]⟩
abbrev S1x512 : Shape := ⟨2, ![1, 512]⟩
abbrev S262144x128 : Shape := ⟨2, ![262144, 128]⟩
abbrev S262144x1 : Shape := ⟨2, ![262144, 1]⟩
abbrev S1x1 : Shape := ⟨2, ![1, 1]⟩
abbrev S128x10240 : Shape := ⟨2, ![128, 10240]⟩

abbrev nBuf : Space → Nat
  | .hbm => 160
  | .vmem => 0
  | .smem => 0
  | _ => 0

abbrev hbmTy0_0 (i : Nat) : BufTy := match i % 128 with
  | 0 => ⟨S128x2048, .f32⟩
  | 1 => ⟨S128x2048, .f32⟩
  | 2 => ⟨S128x2048, .f32⟩
  | 3 => ⟨S128x2048, .f32⟩
  | 4 => ⟨S128x2048, .f32⟩
  | 5 => ⟨S128x2048, .f32⟩
  | 6 => ⟨S128x2048, .f32⟩
  | 7 => ⟨S128x2048, .f32⟩
  | 8 => ⟨S128x2048, .f32⟩
  | 9 => ⟨S128x1, .f32⟩
  | 10 => ⟨S128x2048, .f32⟩
  | 11 => ⟨S128x2048, .f32⟩
  | 12 => ⟨S128x2048, .i1⟩
  | 13 => ⟨S128x2048, .i1⟩
  | 14 => ⟨S512x15, .f32⟩
  | 15 => ⟨S512x128, .f32⟩
  | 16 => ⟨S512, .f32⟩
  | 17 => ⟨S512, .f32⟩
  | 18 => ⟨S128x128, .f32⟩
  | 19 => ⟨S128, .f32⟩
  | 20 => ⟨S1x128, .f32⟩
  | 21 => ⟨S1, .f32⟩
  | 22 => ⟨S128x2048, .f32⟩
  | 23 => ⟨S128x2048, .f32⟩
  | 24 => ⟨S_, .f32⟩
  | 25 => ⟨S128x2048, .f32⟩
  | 26 => ⟨S128x2048, .i1⟩
  | 27 => ⟨S_, .f32⟩
  | 28 => ⟨S_, .f32⟩
  | 29 => ⟨S128x2048, .f32⟩
  | 30 => ⟨S128x2048, .f32⟩
  | 31 => ⟨S128x2048, .f32⟩
  | 32 => ⟨S128x2048, .f32⟩
  | 33 => ⟨S_, .f32⟩
  | 34 => ⟨S128x2048, .f32⟩
  | 35 => ⟨S128x2048, .i1⟩
  | 36 => ⟨S_, .f32⟩
  | 37 => ⟨S_, .f32⟩
  | 38 => ⟨S128x2048, .f32⟩
  | 39 => ⟨S128x2048, .f32⟩
  | 40 => ⟨S128x2048, .f32⟩
  | 41 => ⟨S128x2048, .f32⟩
  | 42 => ⟨S128x2048, .f32⟩
  | 43 => ⟨S128x2048, .f32⟩
  | 44 => ⟨S_, .f32⟩
  | 45 => ⟨S128x2048, .f32⟩
  | 46 => ⟨S128x2048, .f32⟩
  | 47 => ⟨S128x2048, .f32⟩
  | 48 => ⟨S_, .f32⟩
  | 49 => ⟨S_, .f32⟩
  | 50 => ⟨S_, .f32⟩
  | 51 => ⟨S128x2048, .f32⟩
  | 52 => ⟨S128x2048, .f32⟩
  | 53 => ⟨S_, .f32⟩
  | 54 => ⟨S128x2048, .f32⟩
  | 55 => ⟨S128x2048, .f32⟩
  | 56 => ⟨S128x2048, .f32⟩
  | 57 => ⟨S128x2048, .f32⟩
  | 58 => ⟨S128x2048, .f32⟩
  | 59 => ⟨S128x2048, .f32⟩
  | 60 => ⟨S_, .f32⟩
  | 61 => ⟨S128x2048, .f32⟩
  | 62 => ⟨S128x2048, .f32⟩
  | 63 => ⟨S128x2048, .f32⟩
  | 64 => ⟨S_, .f32⟩
  | 65 => ⟨S_, .f32⟩
  | 66 => ⟨S_, .f32⟩
  | 67 => ⟨S128x2048, .f32⟩
  | 68 => ⟨S128x2048, .f32⟩
  | 69 => ⟨S_, .f32⟩
  | 70 => ⟨S128x2048, .f32⟩
  | 71 => ⟨S128x2048, .f32⟩
  | 72 => ⟨S128x2048, .f32⟩
  | 73 => ⟨S128x2048x1, .f32⟩
  | 74 => ⟨S128x2048x1, .f32⟩
  | 75 => ⟨S128x2048x1, .f32⟩
  | 76 => ⟨S128x2048x1, .f32⟩
  | 77 => ⟨S128x2048x1, .f32⟩
  | 78 => ⟨S128x2048x1, .f32⟩
  | 79 => ⟨S128x2048x1, .f32⟩
  | 80 => ⟨S128x2048x1, .f32⟩
  | 81 => ⟨S128x2048x1, .f32⟩
  | 82 => ⟨S128x2048x1, .f32⟩
  | 83 => ⟨S128x2048x1, .f32⟩
  | 84 => ⟨S128x2048x1, .f32⟩
  | 85 => ⟨S128x2048x1, .f32⟩
  | 86 => ⟨S128x2048x1, .f32⟩
  | 87 => ⟨S128x2048x1, .f32⟩
  | 88 => ⟨S128x2048x15, .f32⟩
  | 89 => ⟨S262144x15, .f32⟩
  | 90 => ⟨S15x512, .f32⟩
  | 91 => ⟨S262144x512, .f32⟩
  | 92 => ⟨S1x512, .f32⟩
  | 93 => ⟨S262144x512, .f32⟩
  | 94 => ⟨S262144x512, .f32⟩
  | 95 => ⟨S1x512, .f32⟩
  | 96 => ⟨S262144x512, .f32⟩
  | 97 => ⟨S262144x512, .f32⟩
  | 98 => ⟨S262144x128, .f32⟩
  | 99 => ⟨S262144x128, .f32⟩
  | 100 => ⟨S262144x128, .f32⟩
  | 101 => ⟨S262144x128, .f32⟩
  | 102 => ⟨S262144x128, .f32⟩
  | 103 => ⟨S262144x128, .f32⟩
  | 104 => ⟨S_, .f32⟩
  | 105 => ⟨S262144x128, .f32⟩
  | 106 => ⟨S262144x128, .f32⟩
  | 107 => ⟨S_, .f32⟩
  | 108 => ⟨S262144x128, .f32⟩
  | 109 => ⟨S262144x128, .f32⟩
  | 110 => ⟨S262144x128, .f32⟩
  | 111 => ⟨S262144x128, .f32⟩
  | 112 => ⟨S262144x128, .f32⟩
  | 113 => ⟨S262144x128, .f32⟩
  | 114 => ⟨S_, .f32⟩
  | 115 => ⟨S262144x128, .f32⟩
  | 116 => ⟨S262144x128, .f32⟩
  | 117 => ⟨S_, .f32⟩
  | 118 => ⟨S262144x128, .f32⟩
  | 119 => ⟨S262144x128, .f32⟩
  | 120 => ⟨S262144x128, .f32⟩
  | 121 => ⟨S262144x128, .f32⟩
  | 122 => ⟨S128x128, .f32⟩
  | 123 => ⟨S262144x128, .f32⟩
  | 124 => ⟨S1x128, .f32⟩
  | 125 => ⟨S262144x128, .f32⟩
  | 126 => ⟨S262144x128, .f32⟩
  | 127 => ⟨S_, .f32⟩
  | _ => ⟨S128x2048, .f32⟩

abbrev hbmTy0_1 (i : Nat) : BufTy := match i % 128 with
  | 0 => ⟨S262144x128, .f32⟩
  | 1 => ⟨S262144x128, .f32⟩
  | 2 => ⟨S128x1, .f32⟩
  | 3 => ⟨S262144x1, .f32⟩
  | 4 => ⟨S1x1, .f32⟩
  | 5 => ⟨S262144x1, .f32⟩
  | 6 => ⟨S262144x1, .f32⟩
  | 7 => ⟨S262144x1, .f32⟩
  | 8 => ⟨S128x2048, .f32⟩
  | 9 => ⟨S128x2048, .f32⟩
  | 10 => ⟨S128x2048, .f32⟩
  | 11 => ⟨S128x2048, .f32⟩
  | 12 => ⟨S128x2048, .f32⟩
  | 13 => ⟨S128x2048, .f32⟩
  | 14 => ⟨S128x2048, .f32⟩
  | 15 => ⟨S128x2048, .f32⟩
  | 16 => ⟨S128x2048, .f32⟩
  | 17 => ⟨S128x2048, .f32⟩
  | 18 => ⟨S128x2048, .f32⟩
  | 19 => ⟨S128x2048, .f32⟩
  | 20 => ⟨S128x2048, .f32⟩
  | 21 => ⟨S128x2048, .f32⟩
  | 22 => ⟨S_, .f32⟩
  | 23 => ⟨S_, .f32⟩
  | 24 => ⟨S128x2048, .f32⟩
  | 25 => ⟨S128x2048, .f32⟩
  | 26 => ⟨S128x2048, .f32⟩
  | 27 => ⟨S_, .f32⟩
  | 28 => ⟨S_, .f32⟩
  | 29 => ⟨S128x2048, .f32⟩
  | 30 => ⟨S128x2048, .f32⟩
  | 31 => ⟨S128x10240, .f32⟩
  | _ => ⟨S128x2048, .f32⟩

abbrev hbmTy (i : Nat) : BufTy := match i / 128 with
  | 0 => hbmTy0_0 i
  | 1 => hbmTy0_1 i
  | _ => ⟨S128x2048, .f32⟩

abbrev bufTy : (tb : Table) → Fin (tcTables nBuf tb) → BufTy
  | .hbm, ⟨i, _⟩ => hbmTy i
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_v3 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst_1 : Ref sig .tc := ⟨.hbm, 33, rfl⟩
abbrev main_v7 : Ref sig .tc := ⟨.hbm, 34, rfl⟩
abbrev main_v8 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_3 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_4 : Ref sig .tc := ⟨.hbm, 48, rfl⟩
abbrev main_cst_5 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_6 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_7 : Ref sig .tc := ⟨.hbm, 64, rfl⟩
abbrev main_cst_8 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_9 : Ref sig .tc := ⟨.hbm, 104, rfl⟩
abbrev main_v58 : Ref sig .tc := ⟨.hbm, 105, rfl⟩
abbrev main_v59 : Ref sig .tc := ⟨.hbm, 106, rfl⟩
abbrev main_cst_10 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_11 : Ref sig .tc := ⟨.hbm, 114, rfl⟩
abbrev main_v66 : Ref sig .tc := ⟨.hbm, 115, rfl⟩
abbrev main_v67 : Ref sig .tc := ⟨.hbm, 116, rfl⟩
abbrev main_cst_12 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_call4_cst : Ref sig .tc := ⟨.hbm, 127, rfl⟩
abbrev main_call4_v0 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_13 : Ref sig .tc := ⟨.hbm, 150, rfl⟩
abbrev main_call5_v0 : Ref sig .tc := ⟨.hbm, 151, rfl⟩
abbrev main_call5_v1 : Ref sig .tc := ⟨.hbm, 152, rfl⟩
abbrev main_v98 : Ref sig .tc := ⟨.hbm, 153, rfl⟩
abbrev main_v99 : Ref sig .tc := ⟨.hbm, 154, rfl⟩
abbrev main_cst_14 : Ref sig .tc := ⟨.hbm, 155, rfl⟩
abbrev main_call6_v0 : Ref sig .tc := ⟨.hbm, 156, rfl⟩
abbrev main_call6_v1 : Ref sig .tc := ⟨.hbm, 157, rfl⟩
abbrev main_v100 : Ref sig .tc := ⟨.hbm, 158, rfl⟩
abbrev main_v101 : Ref sig .tc := ⟨.hbm, 159, rfl⟩

abbrev nD : Nat := 1
abbrev τ : Topo := Topo.v7x

variable {F : FTy → Type} [FloatOps F]

class Facts₀ : Prop where
  bcast_S128x1_S128x2048_0_1 : S128x1.BroadcastsInDim S128x2048 (![0, 1] : Fin 2 → Fin S128x2048.rank)
  bcast_S_S128x2048 : S_.BroadcastsInDim S128x2048 (![] : Fin 0 → Fin S128x2048.rank)
  bcast_S128x2048_S128x2048x1_0_1 : S128x2048.BroadcastsInDim S128x2048x1 (![0, 1] : Fin 2 → Fin S128x2048x1.rank)
  concatenates_S128x2048x1_S128x2048x1_S128x2048x1_S128x2048x1_S128x2048x1_S128x2048x1_S128x2048x1_S128x2048x1_S128x2048x1_S128x2048x1_S128x2048x1_S128x2048x1_S128x2048x1_S128x2048x1_S128x2048x1_S128x2048x15_d2 : Shape.Concatenates [S128x2048x1, S128x2048x1, S128x2048x1, S128x2048x1, S128x2048x1, S128x2048x1, S128x2048x1, S128x2048x1, S128x2048x1, S128x2048x1, S128x2048x1, S128x2048x1, S128x2048x1, S128x2048x1, S128x2048x1] S128x2048x15 2
  shapeCasts_S128x2048x15_S262144x15 : S128x2048x15.ShapeCasts S262144x15
  transposes_S512x15_S15x512_1_0 : S512x15.Transposes [1, 0] S15x512
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  slices_S262144x512_S262144x128_0_0 : S262144x512.Slices ![0, 0] S262144x128
  slices_S262144x512_S262144x128_0_128 : S262144x512.Slices ![0, 128] S262144x128
  slices_S262144x512_S262144x128_0_256 : S262144x512.Slices ![0, 256] S262144x128
  slices_S262144x512_S262144x128_0_384 : S262144x512.Slices ![0, 384] S262144x128
  bcast_S_S262144x128 : S_.BroadcastsInDim S262144x128 (![] : Fin 0 → Fin S262144x128.rank)
  transposes_S128x128_S128x128_1_0 : S128x128.Transposes [1, 0] S128x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  transposes_S1x128_S128x1_1_0 : S1x128.Transposes [1, 0] S128x1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S128x2048 : S262144x1.ShapeCasts S128x2048
  concatenates_S128x2048_S128x2048_S128x2048_S128x2048_S128x2048_S128x10240_d1 : Shape.Concatenates [S128x2048, S128x2048, S128x2048, S128x2048, S128x2048] S128x10240 1
  dot_S262144x15_S15x512_S262144x512_1_0_0_1_n_n_wf : DotDims.WF S262144x15 S15x512 S262144x512 [1] [0] [0] [1] [] []
  dot_S262144x128_S128x128_S262144x128_1_0_0_1_n_n_wf : DotDims.WF S262144x128 S128x128 S262144x128 [1] [0] [0] [1] [] []
  dot_S262144x128_S128x1_S262144x1_1_0_0_1_n_n_wf : DotDims.WF S262144x128 S128x1 S262144x1 [1] [0] [0] [1] [] []

variable [Facts₀]

def dot_S262144x15_S15x512_S262144x512_1_0_0_1_n_n : DotDims S262144x15 S15x512 S262144x512 where
  lhsContracting := [1]
  rhsContracting := [0]
  lhsNonContracting := [0]
  rhsNonContracting := [1]
  lhsBatch := []
  rhsBatch := []
  wf := dot_S262144x15_S15x512_S262144x512_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf

class Facts : Prop extends Facts₀ where

variable [Facts]
-- ==== Proof.StepSpec.lean ====
/-
  One learned interior-point step, coordinate by coordinate.

  Every coordinate (b, n) of the batch carries twelve reals (x, the two bound distances x1 x2, the two slacks
  z1 z2, four further inputs, the barrier weight mu of its row, the bounds lb ub) and two flags. The step:

    * a slack whose shifted value z + mu is not positive is reset to zero;
    * the two ratios (slack + mu) / (distance + mu + eps), kept inside [0, 100];
    * fifteen features (x, the distances, the reset slacks, x and the reset slacks again as the gradients of the
      quadratic merit, the four further inputs, mu, the two ratios);
    * a single LSTM cell from the zero state: the forget gate meets a zero cell state and is never used, so
      c = sigmoid(i) * tanh(g), h = sigmoid(o) * tanh(c), each gate the features against one row of the input
      weights plus the sum of the two biases;
    * a two-layer head, relu between, whose absolute value is the step size p;
    * x moves to x - p x, the slacks to  slack - ratio * (∓ p x + slack), and the two distances are recomputed from
      the moved x where the flag is set, zero elsewhere.

  Everything here is over the extended reals with the exact operations; the three float literals stay as their
  words, the same on the kernel's and on the reference's side.
-/
import Idealize.ShloMosaic.Lib.ValueIdx
import Idealize.ShloMosaic.PureOps.Ideal.Laws

noncomputable section

namespace Cert.Step

open Idealize.ShloMosaic Idealize.ShloMosaic.ValueIdx

/-- The literal 0.0. -/
abbrev zeroL : EReal := Ideal.ofBits .f32 0x00000000#32
/-- The literal added to the denominators (the f32 nearest 1e-12). -/
abbrev epsL : EReal := Ideal.ofBits .f32 0x2B8CBCCC#32
/-- The literal 100.0, the ratios' cap. -/
abbrev capL : EReal := Ideal.ofBits .f32 0x42C80000#32

/-- A slack whose shifted value is not positive is reset to zero. -/
def slack (z mu : EReal) : EReal := Scalar.select (Ideal.cmp .ole (z + mu) zeroL) zeroL z

/-- The ratio (slack + mu) / (distance + mu + eps), kept inside [0, 100]. -/
def ratio (s d mu : EReal) : EReal := min capL (max zeroL (Ideal.div (s + mu) ((d + mu) + epsL)))

/-- The fifteen features of a coordinate. -/
def feat (x x1 x2 z1 z2 x1E x2E z1E z2E mu : EReal) : Fin 15 → EReal :=
  ![x, x1, x2, slack z1 mu, slack z2 mu, x, slack z1 mu, slack z2 mu, x1E, x2E, z1E, z2E, mu,
    ratio (slack z1 mu) x1 mu, ratio (slack z2 mu) x2 mu]

/-- A gate before its nonlinearity: the features against column j of a [15, 128] weight, plus the bias. -/
def gate (f : Fin 15 → EReal) (W : Fin 15 → Fin 128 → EReal) (b : Fin 128 → EReal) (j : Fin 128) : EReal :=
  (∑ κ : Fin 15, f κ * W κ j) + b j

/-- The LSTM cell's output from the zero state. -/
def hidden (f : Fin 15 → EReal) (Wi Wg Wo : Fin 15 → Fin 128 → EReal) (bi bg bo : Fin 128 → EReal) (j : Fin 128) : EReal :=
  Ideal.logistic (gate f Wo bo j) * Ideal.tanh (Ideal.logistic (gate f Wi bi j) * Ideal.tanh (gate f Wg bg j))

/-- The head without its last bias: a [128, 128] layer, relu, a [128, 1] layer. -/
def headSum (h : Fin 128 → EReal) (W1 : Fin 128 → Fin 128 → EReal) (b1 : Fin 128 → EReal) (W2 : Fin 128 → EReal) : EReal :=
  ∑ j' : Fin 128, max ((∑ j : Fin 128, h j * W1 j j') + b1 j') zeroL * W2 j'

/-- The head before the absolute value. -/
def head (h : Fin 128 → EReal) (W1 : Fin 128 → Fin 128 → EReal) (b1 : Fin 128 → EReal) (W2 : Fin 128 → EReal) (b2 : EReal) : EReal :=
  headSum h W1 b1 W2 + b2

/-- The step size: the head's absolute value. -/
def stepSize (h : Fin 128 → EReal) (W1 : Fin 128 → Fin 128 → EReal) (b1 : Fin 128 → EReal) (W2 : Fin 128 → EReal) (b2 : EReal) : EReal :=
  max (head h W1 b1 W2 b2) (-(head h W1 b1 W2 b2))

/-- The five results of a coordinate from its step size p, its x, its reset slacks s1 s2 and ratios r1 r2, its
    bounds and flags: the moved x, the two recomputed distances, the two moved slacks. -/
def moved (p x s1 s2 r1 r2 lb ub : EReal) (hl hu : BitVec 1) : Fin 5 → EReal :=
  ![x + (zeroL - p) * x,
    Scalar.select hl ((x + (zeroL - p) * x) - lb) zeroL,
    Scalar.select hu (ub - (x + (zeroL - p) * x)) zeroL,
    s1 - r1 * ((zeroL - p) * x + s1),
    s2 - r2 * (p * x + s2)]

/-- One coordinate's five results from its scalars, its flags and the weights (the gates' weights as [15, 128],
    the first layer as [in, out], the second as a column). -/
def cell (x x1 x2 z1 z2 x1E x2E z1E z2E mu lb ub : EReal) (hl hu : BitVec 1)
    (Wi Wg Wo : Fin 15 → Fin 128 → EReal) (bi bg bo : Fin 128 → EReal)
    (W1 : Fin 128 → Fin 128 → EReal) (b1 : Fin 128 → EReal) (W2 : Fin 128 → EReal) (b2 : EReal) : Fin 5 → EReal :=
  moved (stepSize (hidden (feat x x1 x2 z1 z2 x1E x2E z1E z2E mu) Wi Wg Wo bi bg bo) W1 b1 W2 b2)
    x (slack z1 mu) (slack z2 mu) (ratio (slack z1 mu) x1 mu) (ratio (slack z2 mu) x2 mu) lb ub hl hu

/-- The program's twenty-two argument arrays (the recurrent weight W_hh meets the zero state and is not read). -/
structure Args where
  x : (⟨2, ![128, 2048]⟩ : Shape).Idx → EReal
  x1 : (⟨2, ![128, 2048]⟩ : Shape).Idx → EReal
  x2 : (⟨2, ![128, 2048]⟩ : Shape).Idx → EReal
  z1 : (⟨2, ![128, 2048]⟩ : Shape).Idx → EReal
  z2 : (⟨2, ![128, 2048]⟩ : Shape).Idx → EReal
  x1E : (⟨2, ![128, 2048]⟩ : Shape).Idx → EReal
  x2E : (⟨2, ![128, 2048]⟩ : Shape).Idx → EReal
  z1E : (⟨2, ![128, 2048]⟩ : Shape).Idx → EReal
  z2E : (⟨2, ![128, 2048]⟩ : Shape).Idx → EReal
  mu : (⟨2, ![128, 1]⟩ : Shape).Idx → EReal
  lb : (⟨2, ![128, 2048]⟩ : Shape).Idx → EReal
  ub : (⟨2, ![128, 2048]⟩ : Shape).Idx → EReal
  hasLb : (⟨2, ![128, 2048]⟩ : Shape).Idx → BitVec 1
  hasUb : (⟨2, ![128, 2048]⟩ : Shape).Idx → BitVec 1
  Wih : (⟨2, ![512, 15]⟩ : Shape).Idx → EReal
  bih : (⟨1, ![512]⟩ : Shape).Idx → EReal
  bhh : (⟨1, ![512]⟩ : Shape).Idx → EReal
  W1 : (⟨2, ![128, 128]⟩ : Shape).Idx → EReal
  b1 : (⟨1, ![128]⟩ : Shape).Idx → EReal
  W2 : (⟨2, ![1, 128]⟩ : Shape).Idx → EReal
  b2 : (⟨1, ![1]⟩ : Shape).Idx → EReal

/-- Row o + j of the 512 gate rows (o = 0 the input gate, 256 the cell gate, 384 the output gate). -/
abbrev gateRow (o : Nat) (ho : o + 128 ≤ 512) (j : Fin 128) : Fin 512 := ⟨o + j.val, by omega⟩

/-- Gate rows o … o + 127 of the input weights, as [15, 128]. -/
def gateW (Wih : (⟨2, ![512, 15]⟩ : Shape).Idx → EReal) (o : Nat) (ho : o + 128 ≤ 512) : Fin 15 → Fin 128 → EReal :=
  fun κ j => Wih (ix2 (gateRow o ho j) κ)

/-- Gate rows o … o + 127 of the two biases, summed. -/
def gateB (bih bhh : (⟨1, ![512]⟩ : Shape).Idx → EReal) (o : Nat) (ho : o + 128 ≤ 512) : Fin 128 → EReal :=
  fun j => bih (ix1 (gateRow o ho j)) + bhh (ix1 (gateRow o ho j))

/-- The five results of coordinate (b, n). -/
def coord (a : Args) (b : Fin 128) (n : Fin 2048) : Fin 5 → EReal :=
  cell (a.x (ix2 b n)) (a.x1 (ix2 b n)) (a.x2 (ix2 b n)) (a.z1 (ix2 b n)) (a.z2 (ix2 b n))
    (a.x1E (ix2 b n)) (a.x2E (ix2 b n)) (a.z1E (ix2 b n)) (a.z2E (ix2 b n)) (a.mu (ix2 b (0 : Fin 1)))
    (a.lb (ix2 b n)) (a.ub (ix2 b n)) (a.hasLb (ix2 b n)) (a.hasUb (ix2 b n))
    (gateW a.Wih 0 (by omega)) (gateW a.Wih 256 (by omega)) (gateW a.Wih 384 (by omega))
    (gateB a.bih a.bhh 0 (by omega)) (gateB a.bih a.bhh 256 (by omega)) (gateB a.bih a.bhh 384 (by omega))
    (fun j j' => a.W1 (ix2 j' j)) (fun j' => a.b1 (ix1 j')) (fun j' => a.W2 (ix2 (0 : Fin 1) j')) (a.b2 (ix1 (0 : Fin 1)))

/-- The results stacked as [128, 5, 2048]: what the kernel's region writes. -/
def stacked (a : Args) : (⟨3, ![128, 5, 2048]⟩ : Shape).Idx → EReal := fun i => Step.coord a (i 0) (i 2) (i 1)

/-- The results laid side by side as [128, 5 * 2048]: result k of coordinate (b, n) in column 2048 k + n. -/
def flat (a : Args) : (⟨2, ![128, 10240]⟩ : Shape).Idx → EReal :=
  fun i => Step.coord a (i 0) ⟨(i 1).val % 2048, Nat.mod_lt _ (by omega)⟩ ⟨(i 1).val / 2048, by have := idx2_lt1 i; omega⟩

theorem stacked_ix (a : Args) (b : Fin 128) (k : Fin 5) (n : Fin 2048) : stacked a (ix3 b k n) = Step.coord a b n k := rfl

theorem flat_ix (a : Args) (b : Fin 128) (k : Fin 5) (n : Fin 2048) (col : Fin 10240) (hc : col.val = 2048 * k.val + n.val) :
    flat a (ix2 b col) = Step.coord a b n k := by
  have h1 : (⟨col.val % 2048, Nat.mod_lt _ (by omega)⟩ : Fin 2048) = n := Fin.ext (by show col.val % 2048 = n.val; have := n.isLt; omega)
  have h2 : (⟨col.val / 2048, by have := col.isLt; omega⟩ : Fin 5) = k := Fin.ext (by show col.val / 2048 = k.val; have := n.isLt; omega)
  show Step.coord a b ⟨col.val % 2048, _⟩ ⟨col.val / 2048, _⟩ = _
  rw [h1, h2]

end Cert.Step

end
-- ==== Proof.BlockFeatures.lean ====
/-
  The kernel's block, entry by entry, up to its feature matrix.

  A grid point holds a [32, 128] tile of every per-coordinate input and the tile's 32 rows of mu as a column.
  At tile entry (p, q): mu's broadcast is the row's mu; each slack is reset where its shifted value is not
  positive; each ratio is the clipped quotient; and row 128 p + q of the [4096, 15] feature matrix (the tile's
  entries in row-major order) holds that entry's fifteen features.
-/
import proofs.«131924_j12919261626992_1_alg».proof.Proof.Gen.KernelIdeal.Skeleton
import proofs.«131924_j12919261626992_1_alg».proof.Proof.StepSpec

import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row's barrier weight, broadcast along the tile's lanes. -/
theorem mu_at (x9 : Vec Ideal S32x1 .f32) (p : Fin 32) (q : Fin 128) :
    k0_pay4 (F := Ideal) x9 (ix2 p q) = x9 (ix2 p (0 : Fin 1)) := by
  unfold k0_pay4
  show broadcastTo S32x128 (shapeCast S32x1 x9 _) _ (ix2 p q) = _
  refine (broadcastTo_a1_ab_apply _ _ p q).trans ?_
  exact congrFun (shapeCast_self x9 _) _

/-- The first slack, reset where z1 + mu is not positive. -/
theorem slack1_at (x3 : Vec Ideal S32x128 .f32) (x9 : Vec Ideal S32x1 .f32) (p : Fin 32) (q : Fin 128) :
    k0_pay5 (F := Ideal) x3 x9 (ix2 p q) = Step.slack (x3 (ix2 p q)) (x9 (ix2 p (0 : Fin 1))) := by
  unfold k0_pay5
  show Scalar.select (Ideal.cmp .ole (x3 (ix2 p q) + k0_pay4 (F := Ideal) x9 (ix2 p q)) Step.zeroL) Step.zeroL
      (x3 (ix2 p q)) = _
  rw [mu_at]
  rfl

/-- The second slack, reset where z2 + mu is not positive. -/
theorem slack2_at (x4 : Vec Ideal S32x128 .f32) (x9 : Vec Ideal S32x1 .f32) (p : Fin 32) (q : Fin 128) :
    k0_pay8 (F := Ideal) x4 (k0_pay6 (F := Ideal) x4 x9) (k0_pay7 (F := Ideal)) (ix2 p q)
      = Step.slack (x4 (ix2 p q)) (x9 (ix2 p (0 : Fin 1))) := by
  unfold k0_pay8 k0_pay6 k0_pay7
  show Scalar.select (Ideal.cmp .ole (x4 (ix2 p q) + k0_pay4 (F := Ideal) x9 (ix2 p q)) Step.zeroL) Step.zeroL
      (x4 (ix2 p q)) = _
  rw [mu_at]
  rfl

/-- The first ratio. -/
theorem ratio1_at (x1 x3 : Vec Ideal S32x128 .f32) (x9 : Vec Ideal S32x1 .f32) (p : Fin 32) (q : Fin 128) :
    k0_pay9 (F := Ideal) x1 (k0_pay4 (F := Ideal) x9) (k0_pay5 (F := Ideal) x3 x9) (ix2 p q)
      = Step.ratio (Step.slack (x3 (ix2 p q)) (x9 (ix2 p (0 : Fin 1)))) (x1 (ix2 p q)) (x9 (ix2 p (0 : Fin 1))) := by
  unfold k0_pay9
  show min Step.capL (max Step.zeroL (Ideal.div
      (k0_pay5 (F := Ideal) x3 x9 (ix2 p q) + k0_pay4 (F := Ideal) x9 (ix2 p q))
      ((x1 (ix2 p q) + k0_pay4 (F := Ideal) x9 (ix2 p q)) + Step.epsL))) = _
  rw [slack1_at, mu_at]
  rfl

/-- The second ratio. -/
theorem ratio2_at (x2 x4 : Vec Ideal S32x128 .f32) (x9 : Vec Ideal S32x1 .f32) (p : Fin 32) (q : Fin 128) :
    k0_pay10 (F := Ideal) x2 x4 (k0_pay4 (F := Ideal) x9) (k0_pay6 (F := Ideal) x4 x9) (k0_pay7 (F := Ideal)) (ix2 p q)
      = Step.ratio (Step.slack (x4 (ix2 p q)) (x9 (ix2 p (0 : Fin 1)))) (x2 (ix2 p q)) (x9 (ix2 p (0 : Fin 1))) := by
  unfold k0_pay10
  show min Step.capL (max Step.zeroL (Ideal.div
      (k0_pay8 (F := Ideal) x4 (k0_pay6 (F := Ideal) x4 x9) (k0_pay7 (F := Ideal)) (ix2 p q)
        + k0_pay4 (F := Ideal) x9 (ix2 p q))
      ((x2 (ix2 p q) + k0_pay4 (F := Ideal) x9 (ix2 p q)) + Step.epsL))) = _
  rw [slack2_at, mu_at]
  rfl

/-- Fifteen `[32, 128]` tiles, each read as a `[32, 128, 1]` block, set side by side along the last axis and the result
    read as a `[4096, 15]` matrix (the tile's entries in row-major order): row `128 p + q`, column `κ` is tile `κ` at
    `(p, q)`. -/
theorem stacked_at (c : Fin 15 → (S32x128.Idx → EReal)) (h1 : S32x128.ShapeCasts S32x128x1)
    (h2 : Shape.Concatenates ((List.ofFn fun n : Fin 15 =>
      (⟨S32x128x1, shapeCast S32x128x1 (c n) h1⟩ : (s : Shape) × (s.Idx → EReal))).map (·.1)) S32x128x15 2)
    (h3 : S32x128x15.ShapeCasts S4096x15)
    (p : Fin 32) (q : Fin 128) (r : Fin 4096) (hr : r.val = 128 * p.val + q.val) (κ : Fin 15) :
    shapeCast S4096x15 (concatenate S32x128x15 2 (List.ofFn fun n : Fin 15 =>
      (⟨S32x128x1, shapeCast S32x128x1 (c n) h1⟩ : (s : Shape) × (s.Idx → EReal))) h2) h3 (ix2 r κ)
      = c κ (ix2 p q) := by
  -- the matrix entry (r, κ) and the block entry (p, q, κ) have the same row-major position
  refine (shapeCast_apply _ h3 (ix2 r κ) (ix3 p q κ) ?_).trans ?_
  · rw [Shape.rowMajor_val_two, Shape.rowMajor_val_three]
    show (p.val * 128 + q.val) * 15 + κ.val = r.val * 15 + κ.val
    omega
  -- the block's last coordinate names the piece; the piece is read at (p, q, 0)
  · refine (concatenate_ofFn_unit_apply (2 : Fin S32x128x15.rank) (fun n : Fin 15 => shapeCast S32x128x1 (c n) h1) h2
      rfl rfl (ix3 p q κ) κ rfl (ix3 p q (0 : Fin 1)) ?_).trans ?_
    · intro b hb
      match b with
      | ⟨0, _⟩ => rfl
      | ⟨1, _⟩ => rfl
      | ⟨2, _⟩ => exact absurd rfl hb
    -- and (p, q, 0) of the block is (p, q) of the tile
    · refine shapeCast_apply (c κ) h1 (ix3 p q (0 : Fin 1)) (ix2 p q) ?_
      rw [Shape.rowMajor_val_two, Shape.rowMajor_val_three]
      show p.val * 128 + q.val = (p.val * 128 + q.val) * 1 + 0
      omega

/-- Row 128 p + q of the feature matrix is tile entry (p, q)'s fifteen features. -/
theorem feat_at (x0 x1 x2 x3 x4 x5 x6 x7 x8 : Vec Ideal S32x128 .f32) (x9 : Vec Ideal S32x1 .f32)
    (p : Fin 32) (q : Fin 128) (r : Fin 4096) (hr : r.val = 128 * p.val + q.val) (κ : Fin 15) :
    k0_pay11 (F := Ideal) x0 x1 x2 x4 x5 x6 x7 x8 (k0_pay4 (F := Ideal) x9) (k0_pay5 (F := Ideal) x3 x9)
        (k0_pay6 (F := Ideal) x4 x9) (k0_pay7 (F := Ideal)) (ix2 r κ)
      = Step.feat (x0 (ix2 p q)) (x1 (ix2 p q)) (x2 (ix2 p q)) (x3 (ix2 p q)) (x4 (ix2 p q)) (x5 (ix2 p q))
          (x6 (ix2 p q)) (x7 (ix2 p q)) (x8 (ix2 p q)) (x9 (ix2 p (0 : Fin 1))) κ := by
  unfold k0_pay11
  -- the change of format is the identity on extended reals
  refine (truncf_apply (φ := .f32) (ψ := .bf16) _ _ (ix2 r κ)).trans ?_
  -- the fifteen tiles, in the order they are set side by side
  refine (stacked_at
    ![x0, x1, x2, k0_pay5 (F := Ideal) x3 x9,
      k0_pay8 (F := Ideal) x4 (k0_pay6 (F := Ideal) x4 x9) (k0_pay7 (F := Ideal)), x0, k0_pay5 (F := Ideal) x3 x9,
      k0_pay8 (F := Ideal) x4 (k0_pay6 (F := Ideal) x4 x9) (k0_pay7 (F := Ideal)), x5, x6, x7, x8,
      k0_pay4 (F := Ideal) x9,
      k0_pay9 (F := Ideal) x1 (k0_pay4 (F := Ideal) x9) (k0_pay5 (F := Ideal) x3 x9),
      k0_pay10 (F := Ideal) x2 x4 (k0_pay4 (F := Ideal) x9) (k0_pay6 (F := Ideal) x4 x9) (k0_pay7 (F := Ideal))]
    _ _ _ p q r hr κ).trans ?_
  -- column by column against the specification's list
  match κ with
  | ⟨0, _⟩ => rfl
  | ⟨1, _⟩ => rfl
  | ⟨2, _⟩ => rfl
  | ⟨3, _⟩ => exact slack1_at x3 x9 p q
  | ⟨4, _⟩ => exact slack2_at x4 x9 p q
  | ⟨5, _⟩ => rfl
  | ⟨6, _⟩ => exact slack1_at x3 x9 p q
  | ⟨7, _⟩ => exact slack2_at x4 x9 p q
  | ⟨8, _⟩ => rfl
  | ⟨9, _⟩ => rfl
  | ⟨10, _⟩ => rfl
  | ⟨11, _⟩ => rfl
  | ⟨12, _⟩ => exact mu_at x9 p q
  | ⟨13, _⟩ => exact ratio1_at x1 x3 x9 p q
  | ⟨14, _⟩ => exact ratio2_at x2 x4 x9 p q

end Cert.KernelIdeal.Block

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.BlockHead.lean ====
/-
  The kernel's LSTM cell and head on the [4096, 15] feature matrix, row by row.

  Three [4096, 15] x [15, 128] products into zero accumulators give the gates' linear parts; with the biases, the
  sigmoids and tanhs they give the cell's output h; a [4096, 128] x [128, 128] product, bias and relu, then a
  [4096, 128] x [128, 1] product give the head without its last bias. Every product is the exact sum over the
  contracted index, and a change of float format is the identity, so row r of the result depends on row r of the
  features only.
-/
import proofs.«131924_j12919261626992_1_alg».proof.Proof.Gen.KernelIdeal.Skeleton
import proofs.«131924_j12919261626992_1_alg».proof.Proof.StepSpec
import proofs.«131924_j12919261626992_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The three products' dimension numbers are those of a plain matrix product. -/
theorem plainGate : Cert.PlainDot.Plain dot_S4096x15_S15x128_S4096x128_1_0_0_1_n_n := ⟨rfl, rfl, rfl, rfl, rfl, rfl⟩
/-- The same for the head's first layer. -/
theorem plainLayer1 : Cert.PlainDot.Plain dot_S4096x128_S128x128_S4096x128_1_0_0_1_n_n := ⟨rfl, rfl, rfl, rfl, rfl, rfl⟩
/-- The same for the head's second layer. -/
theorem plainLayer2 : Cert.PlainDot.Plain dot_S4096x128_S128x1_S4096x1_1_0_0_1_n_n := ⟨rfl, rfl, rfl, rfl, rfl, rfl⟩

/-- A gate's linear part at (r, j): row r of the features against column j of the weight, plus entry j of the
    bias row, which every row of the broadcast repeats. -/
theorem gate_at (f : FVec Ideal S4096x15 .bf16) (W : FVec Ideal S15x128 .bf16) (bias : Vec Ideal S1x128 .f32)
    (hc : S1x128.ShapeCasts S1x128) (hb : S1x128.Broadcasts S4096x128) (r : Fin 4096) (j : Fin 128) :
    addf (matmul dot_S4096x15_S15x128_S4096x128_1_0_0_1_n_n none f W (constant (F := Ideal) S4096x128 .f32 0x00000000#32))
        (broadcastTo S4096x128 (shapeCast S1x128 bias hc) hb) (ix2 r j)
      = Step.gate (fun κ => f (ix2 r κ)) (fun κ j => W (ix2 κ j)) (fun j => bias (ix2 (0 : Fin 1) j)) j := by
  show matmul dot_S4096x15_S15x128_S4096x128_1_0_0_1_n_n none f W (constant (F := Ideal) S4096x128 .f32 0x00000000#32) (ix2 r j)
      + broadcastTo S4096x128 (shapeCast S1x128 bias hc) hb (ix2 r j) = _
  rw [Cert.PlainDot.matmul_zero_apply plainGate rfl rfl none f W r j, broadcastTo_1b_ab_apply, shapeCast_self]
  rfl

/-- The cell's output at (r, j): the output gate's sigmoid times the tanh of the new cell state, itself the input
    gate's sigmoid times the tanh of the cell gate. -/
theorem hidden_at (f : FVec Ideal S4096x15 .bf16) (Wi Wg Wo : FVec Ideal S15x128 .bf16) (bi bg bo : Vec Ideal S1x128 .f32)
    (hc : S1x128.ShapeCasts S1x128) (hb : S1x128.Broadcasts S4096x128) (r : Fin 4096) (j : Fin 128) :
    mulf
        (logistic (addf (matmul dot_S4096x15_S15x128_S4096x128_1_0_0_1_n_n none f Wo (constant (F := Ideal) S4096x128 .f32 0x00000000#32))
          (broadcastTo S4096x128 (shapeCast S1x128 bo hc) hb)))
        (tanh (mulf
          (logistic (addf (matmul dot_S4096x15_S15x128_S4096x128_1_0_0_1_n_n none f Wi (constant (F := Ideal) S4096x128 .f32 0x00000000#32))
            (broadcastTo S4096x128 (shapeCast S1x128 bi hc) hb)))
          (tanh (addf (matmul dot_S4096x15_S15x128_S4096x128_1_0_0_1_n_n none f Wg (constant (F := Ideal) S4096x128 .f32 0x00000000#32))
            (broadcastTo S4096x128 (shapeCast S1x128 bg hc) hb))))) (ix2 r j)
      = Step.hidden (fun κ => f (ix2 r κ)) (fun κ j => Wi (ix2 κ j)) (fun κ j => Wg (ix2 κ j)) (fun κ j => Wo (ix2 κ j))
          (fun j => bi (ix2 (0 : Fin 1) j)) (fun j => bg (ix2 (0 : Fin 1) j)) (fun j => bo (ix2 (0 : Fin 1) j)) j := by
  show Ideal.logistic (addf (matmul dot_S4096x15_S15x128_S4096x128_1_0_0_1_n_n none f Wo (constant (F := Ideal) S4096x128 .f32 0x00000000#32))
          (broadcastTo S4096x128 (shapeCast S1x128 bo hc) hb) (ix2 r j))
      * Ideal.tanh (Ideal.logistic (addf (matmul dot_S4096x15_S15x128_S4096x128_1_0_0_1_n_n none f Wi (constant (F := Ideal) S4096x128 .f32 0x00000000#32))
            (broadcastTo S4096x128 (shapeCast S1x128 bi hc) hb) (ix2 r j))
          * Ideal.tanh (addf (matmul dot_S4096x15_S15x128_S4096x128_1_0_0_1_n_n none f Wg (constant (F := Ideal) S4096x128 .f32 0x00000000#32))
            (broadcastTo S4096x128 (shapeCast S1x128 bg hc) hb) (ix2 r j))) = _
  rw [gate_at f Wo bo hc hb r j, gate_at f Wi bi hc hb r j, gate_at f Wg bg hc hb r j]
  rfl

/-- The head's first layer at (r, j'): row r of the hidden values against column j' of the weight, plus the bias,
    cut below at zero. A change of float format is the identity. -/
theorem layer1_at (h : FVec Ideal S4096x128 .f32) (W : Vec Ideal S128x128 .f32) (b : Vec Ideal S1x128 .f32)
    (hlt : FTy.bf16.bits < FTy.f32.bits) (hw : S128x128.ShapeCasts S128x128)
    (hc : S1x128.ShapeCasts S1x128) (hb : S1x128.Broadcasts S4096x128) (r : Fin 4096) (j' : Fin 128) :
    truncf .bf16
        (maximumf
          (addf (matmul dot_S4096x128_S128x128_S4096x128_1_0_0_1_n_n none (truncf .bf16 h hlt) (truncf .bf16 (shapeCast S128x128 W hw) hlt)
              (constant (F := Ideal) S4096x128 .f32 0x00000000#32))
            (broadcastTo S4096x128 (shapeCast S1x128 b hc) hb))
          (broadcast S4096x128 (Scalar.ofBits (F := Ideal) .f32 0x00000000#32))) hlt (ix2 r j')
      = max ((∑ j : Fin 128, h (ix2 r j) * W (ix2 j j')) + b (ix2 (0 : Fin 1) j')) Step.zeroL := by
  show max (matmul dot_S4096x128_S128x128_S4096x128_1_0_0_1_n_n none (truncf .bf16 h hlt) (truncf .bf16 (shapeCast S128x128 W hw) hlt)
              (constant (F := Ideal) S4096x128 .f32 0x00000000#32) (ix2 r j')
            + broadcastTo S4096x128 (shapeCast S1x128 b hc) hb (ix2 r j')) Step.zeroL = _
  rw [Cert.PlainDot.matmul_zero_apply plainLayer1 rfl rfl none _ _ r j', broadcastTo_1b_ab_apply, shapeCast_self b hc,
    shapeCast_self W hw]
  rfl

/-- A cast of a shape to itself followed by a change of float format is the identity (the input gate's weight). -/
theorem pay12_eq (x : Vec Ideal S15x128 .f32) : k0_pay12 (F := Ideal) x = x := by
  unfold k0_pay12
  exact shapeCast_self x _

/-- The same for the cell gate's weight. -/
theorem pay13_eq (x : Vec Ideal S15x128 .f32) : k0_pay13 (F := Ideal) x = x := by
  unfold k0_pay13
  exact shapeCast_self x _

/-- A cast of a shape to itself is the identity (the output gate's weight). -/
theorem pay14_eq (x : Vec Ideal S15x128 .f32) : k0_pay14 (F := Ideal) x = x := by
  unfold k0_pay14
  exact shapeCast_self x _

/-- Row r of the head (before its last bias) from row r of the feature matrix and the weight blocks. -/
theorem headSum_at (f : FVec Ideal S4096x15 .bf16) (x14 x15 x16 : Vec Ideal S15x128 .f32) (x17 x18 x19 : Vec Ideal S1x128 .f32)
    (x20 : Vec Ideal S128x128 .f32) (x21 : Vec Ideal S1x128 .f32) (x22 : Vec Ideal S128x1 .f32) (r : Fin 4096) :
    k0_pay15 (F := Ideal) f (k0_pay12 (F := Ideal) x14) (k0_pay13 (F := Ideal) x15) (k0_pay14 (F := Ideal) x16)
        x17 x18 x19 x20 x21 x22 (ix2 r (0 : Fin 1))
      = Step.headSum
          (Step.hidden (fun κ => f (ix2 r κ)) (fun κ j => x14 (ix2 κ j)) (fun κ j => x15 (ix2 κ j)) (fun κ j => x16 (ix2 κ j))
            (fun j => x17 (ix2 (0 : Fin 1) j)) (fun j => x18 (ix2 (0 : Fin 1) j)) (fun j => x19 (ix2 (0 : Fin 1) j)))
          (fun j j' => x20 (ix2 j j')) (fun j' => x21 (ix2 (0 : Fin 1) j')) (fun j' => x22 (ix2 j' (0 : Fin 1))) := by
  rw [pay12_eq, pay13_eq, pay14_eq]
  unfold k0_pay15
  show matmul dot_S4096x128_S128x1_S4096x1_1_0_0_1_n_n none _ _ (constant (F := Ideal) S4096x1 .f32 0x00000000#32) (ix2 r (0 : Fin 1)) = _
  refine (Cert.PlainDot.matmul_zero_apply plainLayer2 rfl rfl none _ _ r (0 : Fin 1)).trans ?_
  unfold Step.headSum
  refine Finset.sum_congr rfl fun j' _ => ?_
  refine congrArg₂ (fun a b : EReal => a * b) ?_ ?_
  · refine (layer1_at _ x20 x21 _ _ _ _ r j').trans ?_
    refine congrArg (fun s => max (s + x21 (ix2 (0 : Fin 1) j')) Step.zeroL) (Finset.sum_congr rfl fun j _ => ?_)
    refine congrArg (fun a : EReal => a * x20 (ix2 j j')) ?_
    exact hidden_at f x14 x15 (truncf .bf16 x16 _) x17 x18 x19 _ _ r j
  · exact congrFun (shapeCast_self x22 _) _

/-- The last bias, as loaded. -/
theorem bias2_at (x23 : Vec Ideal S1x1 .f32) : k0_pay16 (F := Ideal) x23 (ix2 (0 : Fin 1) (0 : Fin 1)) = x23 (ix2 (0 : Fin 1) (0 : Fin 1)) := by
  unfold k0_pay16
  exact congrFun (shapeCast_self x23 _) _

end Cert.KernelIdeal.Block

end
-- ==== Proof.BlockMoved.lean ====
/-
  The kernel's last stretch: from the head's column to the stored [32, 5, 128] block.

  The head's [4096, 1] column plus the last bias, in absolute value, is reshaped to the tile; entry (p, q) takes
  row 128 p + q. The five results of an entry are then computed pointwise and stacked along the middle axis.
  A flag reaches the kernel as a 32-bit word and is read as "the word is not zero".
-/
import proofs.«131924_j12919261626992_1_alg».proof.Proof.Gen.KernelIdeal.Skeleton
import proofs.«131924_j12919261626992_1_alg».proof.Proof.StepSpec

import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- A flag as the kernel reads it: the widened word is not zero. -/
def flag (w : BitVec 32) : BitVec 1 := IntOp.cmpi .ne w 0#32

/-- The widened flags compared with zero, entry by entry. -/
theorem flag1_at (x12 : Vec Ideal S32x128 .i32) (p : Fin 32) (q : Fin 128) :
    k0_pay2 (F := Ideal) x12 (ix2 p q) = flag (x12 (ix2 p q)) := by
  rfl
theorem flag2_at (x13 : Vec Ideal S32x128 .i32) (p : Fin 32) (q : Fin 128) :
    k0_pay3 (F := Ideal) x13 (ix2 p q) = flag (x13 (ix2 p q)) := by
  rfl

/-- Widening a one-bit flag and asking whether the word is not zero gives the flag back. -/
theorem flag_setWidth (b : BitVec 1) : flag (b.setWidth 32) = b := by
  revert b; decide

/-! ### The step size on the tile -/

/-- The head's column plus the last bias, in absolute value, as a [32, 128] tile. -/
private def tileStep (v109 : FVec Ideal S4096x1 .f32) (v111 : FVec Ideal S1x1 .f32) : FVec Ideal S32x128 .f32 :=
  shapeCast S32x128 (absf (addf v109 (broadcastTo S4096x1 v111 broadcasts_S1x1_S4096x1))) shapeCasts_S4096x1_S32x128

/-- The single bias read at any row of the column. -/
private theorem bias_at (v111 : FVec Ideal S1x1 .f32) (r : Fin 4096) :
    broadcastTo S4096x1 v111 broadcasts_S1x1_S4096x1 (ix2 r (0 : Fin 1)) = v111 (ix2 (0 : Fin 1) (0 : Fin 1)) :=
  broadcastTo_apply v111 broadcasts_S1x1_S4096x1 (ix2 r (0 : Fin 1)) (ix2 (0 : Fin 1) (0 : Fin 1)) (fun a => by
    match a with
    | ⟨0, _⟩ => rfl
    | ⟨1, _⟩ => rfl)

/-- Tile entry (p, q) of the step size is row 128 p + q of the column: both sit at the same row-major position. -/
private theorem tileStep_at (v109 : FVec Ideal S4096x1 .f32) (v111 : FVec Ideal S1x1 .f32)
    (p : Fin 32) (q : Fin 128) (r : Fin 4096) (hr : r.val = 128 * p.val + q.val) :
    tileStep v109 v111 (ix2 p q)
      = max (v109 (ix2 r (0 : Fin 1)) + v111 (ix2 (0 : Fin 1) (0 : Fin 1))) (-(v109 (ix2 r (0 : Fin 1)) + v111 (ix2 (0 : Fin 1) (0 : Fin 1)))) := by
  refine (shapeCast_apply _ shapeCasts_S4096x1_S32x128 (ix2 p q) (ix2 r (0 : Fin 1)) ?_).trans ?_
  · rw [Shape.rowMajor_val_two, Shape.rowMajor_val_two]
    show r.val * 1 + 0 = p.val * 128 + q.val
    omega
  · show max (v109 (ix2 r (0 : Fin 1)) + broadcastTo S4096x1 v111 broadcasts_S1x1_S4096x1 (ix2 r (0 : Fin 1)))
        (-(v109 (ix2 r (0 : Fin 1)) + broadcastTo S4096x1 v111 broadcasts_S1x1_S4096x1 (ix2 r (0 : Fin 1)))) = _
    rw [bias_at]

/-! ### The five results on the tile -/

/-- The zero tile. -/
private abbrev zeroT : FVec Ideal S32x128 .f32 := broadcast S32x128 (Scalar.ofBits .f32 0x00000000#32)

/-- The five [32, 128] tiles the kernel stacks, from the step size's tile s. -/
private def tileRes (v0 v10 v11 : Vec Ideal S32x128 .f32) (v13 v15 : IVec S32x128 1) (v22 v27 v36 v45 : FVec Ideal S32x128 .f32)
    (s : FVec Ideal S32x128 .f32) : Fin 5 → FVec Ideal S32x128 .f32 :=
  ![addf v0 (mulf (subf zeroT s) v0),
    select v13 (subf (addf v0 (mulf (subf zeroT s) v0)) v10) zeroT,
    select v15 (subf v11 (addf v0 (mulf (subf zeroT s) v0))) zeroT,
    subf v22 (mulf v36 (addf (mulf (subf zeroT s) v0) v22)),
    subf v27 (mulf v45 (addf (mulf s v0) v27))]

/-- Entry (p, q) of tile k is result k of the entry's scalars: every operation is pointwise. -/
private theorem tileRes_at (v0 v10 v11 : Vec Ideal S32x128 .f32) (v13 v15 : IVec S32x128 1) (v22 v27 v36 v45 : FVec Ideal S32x128 .f32)
    (s : FVec Ideal S32x128 .f32) (p : Fin 32) (q : Fin 128) (k : Fin 5) :
    tileRes v0 v10 v11 v13 v15 v22 v27 v36 v45 s k (ix2 p q)
      = Step.moved (s (ix2 p q)) (v0 (ix2 p q)) (v22 (ix2 p q)) (v27 (ix2 p q)) (v36 (ix2 p q)) (v45 (ix2 p q))
          (v10 (ix2 p q)) (v11 (ix2 p q)) (v13 (ix2 p q)) (v15 (ix2 p q)) k := by
  match k with
  | ⟨0, _⟩ => rfl
  | ⟨1, _⟩ => rfl
  | ⟨2, _⟩ => rfl
  | ⟨3, _⟩ => rfl
  | ⟨4, _⟩ => rfl

/-- A [32, 128] tile given a unit middle axis reads the same entry. -/
private theorem cast_mid (v : FVec Ideal S32x128 .f32) (p : Fin 32) (u : Fin 1) (q : Fin 128) :
    shapeCast S32x1x128 v shapeCasts_S32x128_S32x1x128 (ix3 p u q) = v (ix2 p q) :=
  shapeCast_apply v shapeCasts_S32x128_S32x1x128 (ix3 p u q) (ix2 p q) (by
    have hu : u.val = 0 := by omega
    rw [Shape.rowMajor_val_three, Shape.rowMajor_val_two]
    show p.val * 128 + q.val = (p.val * 1 + u.val) * 128 + q.val
    rw [hu]; omega)

/-- The stored block is the five tiles stacked along the middle axis. -/
private theorem pay1_eq (v0 v10 v11 : Vec Ideal S32x128 .f32) (v13 v15 : IVec S32x128 1) (v22 v27 v36 v45 : FVec Ideal S32x128 .f32)
    (v109 : FVec Ideal S4096x1 .f32) (v111 : FVec Ideal S1x1 .f32) :
    k0_pay1 (F := Ideal) v0 v10 v11 v13 v15 v22 v27 v36 v45 v109 v111
      = concatenate S32x5x128 1
          (List.ofFn fun n : Fin 5 => (⟨S32x1x128, shapeCast S32x1x128 (tileRes v0 v10 v11 v13 v15 v22 v27 v36 v45 (tileStep v109 v111) n)
              shapeCasts_S32x128_S32x1x128⟩ : (s : Shape) × (s.Idx → Ideal .f32)))
          concatenates_S32x1x128_S32x1x128_S32x1x128_S32x1x128_S32x1x128_S32x5x128_d1 := rfl

/-- Entry (p, k, q) of the stored block: result k of tile entry (p, q), its step size the absolute value of row
    128 p + q of the head's column plus the last bias. -/
theorem moved_at (v0 v10 v11 : Vec Ideal S32x128 .f32) (v13 v15 : IVec S32x128 1) (v22 v27 v36 v45 : FVec Ideal S32x128 .f32)
    (v109 : FVec Ideal S4096x1 .f32) (v111 : FVec Ideal S1x1 .f32)
    (p : Fin 32) (k : Fin 5) (q : Fin 128) (r : Fin 4096) (hr : r.val = 128 * p.val + q.val) :
    k0_pay1 (F := Ideal) v0 v10 v11 v13 v15 v22 v27 v36 v45 v109 v111 (ix3 p k q)
      = Step.moved
          (max (v109 (ix2 r (0 : Fin 1)) + v111 (ix2 (0 : Fin 1) (0 : Fin 1))) (-(v109 (ix2 r (0 : Fin 1)) + v111 (ix2 (0 : Fin 1) (0 : Fin 1)))))
          (v0 (ix2 p q)) (v22 (ix2 p q)) (v27 (ix2 p q)) (v36 (ix2 p q)) (v45 (ix2 p q)) (v10 (ix2 p q)) (v11 (ix2 p q))
          (v13 (ix2 p q)) (v15 (ix2 p q)) k := by
  rw [pay1_eq]
  refine (concatenate_ofFn_unit_apply (t := S32x5x128) (s₁ := S32x1x128) (1 : Fin 3)
    (fun n : Fin 5 => shapeCast S32x1x128 (tileRes v0 v10 v11 v13 v15 v22 v27 v36 v45 (tileStep v109 v111) n) shapeCasts_S32x128_S32x1x128)
    concatenates_S32x1x128_S32x1x128_S32x1x128_S32x1x128_S32x1x128_S32x5x128_d1 rfl rfl (ix3 p k q) k rfl (ix3 p (0 : Fin 1) q) ?_).trans ?_
  · intro b hb
    match b with
    | ⟨0, _⟩ => rfl
    | ⟨1, _⟩ => exact absurd rfl hb
    | ⟨2, _⟩ => rfl
  · refine (cast_mid _ p (0 : Fin 1) q).trans ?_
    rw [tileRes_at, tileStep_at v109 v111 p q r hr]

end Cert.KernelIdeal.Block

end
-- ==== Proof.BlockCell.lean ====
/-
  The kernel's stored block is the step's cell, entry by entry.

  What a grid point leaves in its [32, 5, 128] output block is one store of one value; read at (p, k, q) it is
  result k of the coordinate at tile entry (p, q), computed from the tile's scalars at (p, q), the row's mu, the
  two flags and the weight blocks: the feature row 128 p + q, the cell, the head, the moved values.
-/
import proofs.«131924_j12919261626992_1_alg».proof.Proof.Gen.KernelIdeal.Frame
import proofs.«131924_j12919261626992_1_alg».proof.Proof.StepSpec
import proofs.«131924_j12919261626992_1_alg».proof.Proof.BlockFeatures
import proofs.«131924_j12919261626992_1_alg».proof.Proof.BlockHead
import proofs.«131924_j12919261626992_1_alg».proof.Proof.BlockMoved
import Idealize.ShloMosaic.Lib.ValueIdx

noncomputable section

namespace Cert.KernelIdeal.Block

open Cert.KernelIdeal Cert.KernelIdeal.Gen Idealize.ShloMosaic Idealize.ShloMosaic.ValueIdx

/-- A block's rectangle starts at the origin: its offsets are all zero (rank two and rank three). -/
private theorem origin2 : (![0, 0] : Fin 2 → Nat) = fun _ => 0 := funext fun a => by fin_cases a <;> rfl
private theorem origin3 : (![0, 0, 0] : Fin 3 → Nat) = fun _ => 0 := funext fun a => by fin_cases a <;> rfl

/-- Entry (p, k, q) of the block a grid point stores, from the blocks it loaded. -/
theorem out_block (x0 x1 x2 x3 x4 x5 x6 x7 x8 : Vec Ideal S32x128 .f32) (x9 : Vec Ideal S32x1 .f32) (x10 x11 : Vec Ideal S32x128 .f32)
    (x12 x13 : Vec Ideal S32x128 .i32) (x14 x15 x16 : Vec Ideal S15x128 .f32) (x17 x18 x19 : Vec Ideal S1x128 .f32)
    (x20 : Vec Ideal S128x128 .f32) (x21 : Vec Ideal S1x128 .f32) (x22 : Vec Ideal S128x1 .f32) (x23 : Vec Ideal S1x1 .f32)
    (p : Fin 32) (k : Fin 5) (q : Fin 128) :
    out0_24 (F := Ideal) x0 x1 x2 x3 x4 x5 x6 x7 x8 x9 x10 x11 x12 x13 x14 x15 x16 x17 x18 x19 x20 x21 x22 x23 (ix3 p k q)
      = Step.cell (x0 (ix2 p q)) (x1 (ix2 p q)) (x2 (ix2 p q)) (x3 (ix2 p q)) (x4 (ix2 p q)) (x5 (ix2 p q)) (x6 (ix2 p q))
          (x7 (ix2 p q)) (x8 (ix2 p q)) (x9 (ix2 p (0 : Fin 1))) (x10 (ix2 p q)) (x11 (ix2 p q))
          (flag (x12 (ix2 p q))) (flag (x13 (ix2 p q)))
          (fun κ j => x14 (ix2 κ j)) (fun κ j => x15 (ix2 κ j)) (fun κ j => x16 (ix2 κ j))
          (fun j => x17 (ix2 (0 : Fin 1) j)) (fun j => x18 (ix2 (0 : Fin 1) j)) (fun j => x19 (ix2 (0 : Fin 1) j))
          (fun j j' => x20 (ix2 j j')) (fun j' => x21 (ix2 (0 : Fin 1) j')) (fun j' => x22 (ix2 j' (0 : Fin 1)))
          (x23 (ix2 (0 : Fin 1) (0 : Fin 1))) k := by
  -- the one store spans the whole block, and every load reads a whole block
  unfold out0_24
  rw [View.canon_unit_zero origin3]
  simp only [View.ld_unit_zero (S := S32x128) origin2, View.ld_unit_zero (S := S32x1) origin2,
    View.ld_unit_zero (S := S15x128) origin2, View.ld_unit_zero (S := S1x128) origin2,
    View.ld_unit_zero (S := S128x128) origin2, View.ld_unit_zero (S := S128x1) origin2,
    View.ld_unit_zero (S := S1x1) origin2]
  -- the row of the feature matrix that tile entry (p, q) occupies
  obtain ⟨r, hr⟩ : ∃ r : Fin 4096, r.val = 128 * p.val + q.val :=
    ⟨⟨128 * p.val + q.val, by have := p.isLt; have := q.isLt; omega⟩, rfl⟩
  refine (moved_at _ _ _ _ _ _ _ _ _ _ _ p k q r hr).trans ?_
  -- that row's features, as a function of the feature's number
  have hf : (fun κ : Fin 15 => k0_pay11 (F := Ideal) x0 x1 x2 x4 x5 x6 x7 x8 (k0_pay4 (F := Ideal) x9) (k0_pay5 (F := Ideal) x3 x9)
        (k0_pay6 (F := Ideal) x4 x9) (k0_pay7 (F := Ideal)) (ix2 r κ))
      = Step.feat (x0 (ix2 p q)) (x1 (ix2 p q)) (x2 (ix2 p q)) (x3 (ix2 p q)) (x4 (ix2 p q)) (x5 (ix2 p q))
          (x6 (ix2 p q)) (x7 (ix2 p q)) (x8 (ix2 p q)) (x9 (ix2 p (0 : Fin 1))) :=
    funext fun κ => feat_at x0 x1 x2 x3 x4 x5 x6 x7 x8 x9 p q r hr κ
  rw [headSum_at, bias2_at, hf, slack1_at, slack2_at, ratio1_at, ratio2_at, flag1_at, flag2_at]
  unfold Step.cell Step.stepSize Step.head
  rfl

end Cert.KernelIdeal.Block

end
-- ==== Proof.BlockPlace.lean ====
/-
  Where a grid point's output block sits in the result array.

  The grid is 4 x 16. Point (i, j) writes block (i, 0, j) of the [128, 5, 2048] result in blocks of [32, 5, 128]:
  rows 32 i …, all five results, columns 128 j …. Decided once over the 64 grid points.
-/
import proofs.«131924_j12919261626992_1_alg».proof.Proof.Gen.KernelIdeal.Frame

noncomputable section

namespace Cert.KernelIdeal.RegionValue

open Cert.KernelIdeal Cert.KernelIdeal.Gen Idealize.ShloMosaic

/-- The output's block of grid point t: block row below 4, middle block 0, block column below 16. -/
theorem idx_out : ∀ t : Fin cfg0.N, win0_24.index t (1 : Fin 3) = 0 ∧ win0_24.index t (0 : Fin 3) ≤ 3 ∧ win0_24.index t (2 : Fin 3) ≤ 15 :=
  (by decide +kernel : ∀ t : Fin grid0.N, _)

/-- Every block position is some grid point's. -/
theorem idx_onto : ∀ (q0 : Fin 4) (q2 : Fin 16), ∃ t : Fin cfg0.N, win0_24.index t = ![q0.val, 0, q2.val] :=
  (by decide +kernel : ∀ (q0 : Fin 4) (q2 : Fin 16), ∃ t : Fin grid0.N, win0_24.index t = ![q0.val, 0, q2.val])

/-- The array row of entry p of the block row point t holds. -/
def row (t : Fin cfg0.N) (p : Fin 32) : Fin 128 := ⟨win0_24.index t (0 : Fin 3) * 32 + p.val, by have := idx_out t; omega⟩

/-- The array column of entry q of the block column point t holds. -/
def col (t : Fin cfg0.N) (q : Fin 128) : Fin 2048 := ⟨win0_24.index t (2 : Fin 3) * 128 + q.val, by have := idx_out t; omega⟩

end Cert.KernelIdeal.RegionValue

end
-- ==== Proof.BlockReads.lean ====
/-
  The blocks a grid point holds, entry by entry: a table, one row per input window.

  Each per-coordinate window moves with the output window (block row i, block column j), so entry (p, q) of its
  tile is entry (32 i + p, 128 j + q) of its array; mu's window keeps the block row; every weight window has one
  block, the whole array. The index maps are decided once over the 64 grid points; a block's coordinate on an
  axis is always index x size + the coordinate inside the block.
-/
import proofs.«131924_j12919261626992_1_alg».proof.Proof.Gen.KernelIdeal.Frame
import proofs.«131924_j12919261626992_1_alg».proof.Proof.BlockPlace
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## The index maps over the 4 x 16 grid -/

theorem idx_c0 : ∀ t : Fin cfg0.N, win0_0.index t (0 : Fin 2) = win0_24.index t (0 : Fin 3) ∧ win0_0.index t (1 : Fin 2) = win0_24.index t (2 : Fin 3) :=
  (by decide +kernel : ∀ t : Fin grid0.N, _)
theorem idx_c1 : ∀ t : Fin cfg0.N, win0_1.index t (0 : Fin 2) = win0_24.index t (0 : Fin 3) ∧ win0_1.index t (1 : Fin 2) = win0_24.index t (2 : Fin 3) :=
  (by decide +kernel : ∀ t : Fin grid0.N, _)
theorem idx_c2 : ∀ t : Fin cfg0.N, win0_2.index t (0 : Fin 2) = win0_24.index t (0 : Fin 3) ∧ win0_2.index t (1 : Fin 2) = win0_24.index t (2 : Fin 3) :=
  (by decide +kernel : ∀ t : Fin grid0.N, _)
theorem idx_c3 : ∀ t : Fin cfg0.N, win0_3.index t (0 : Fin 2) = win0_24.index t (0 : Fin 3) ∧ win0_3.index t (1 : Fin 2) = win0_24.index t (2 : Fin 3) :=
  (by decide +kernel : ∀ t : Fin grid0.N, _)
theorem idx_c4 : ∀ t : Fin cfg0.N, win0_4.index t (0 : Fin 2) = win0_24.index t (0 : Fin 3) ∧ win0_4.index t (1 : Fin 2) = win0_24.index t (2 : Fin 3) :=
  (by decide +kernel : ∀ t : Fin grid0.N, _)
theorem idx_c5 : ∀ t : Fin cfg0.N, win0_5.index t (0 : Fin 2) = win0_24.index t (0 : Fin 3) ∧ win0_5.index t (1 : Fin 2) = win0_24.index t (2 : Fin 3) :=
  (by decide +kernel : ∀ t : Fin grid0.N, _)
theorem idx_c6 : ∀ t : Fin cfg0.N, win0_6.index t (0 : Fin 2) = win0_24.index t (0 : Fin 3) ∧ win0_6.index t (1 : Fin 2) = win0_24.index t (2 : Fin 3) :=
  (by decide +kernel : ∀ t : Fin grid0.N, _)
theorem idx_c7 : ∀ t : Fin cfg0.N, win0_7.index t (0 : Fin 2) = win0_24.index t (0 : Fin 3) ∧ win0_7.index t (1 : Fin 2) = win0_24.index t (2 : Fin 3) :=
  (by decide +kernel : ∀ t : Fin grid0.N, _)
theorem idx_c8 : ∀ t : Fin cfg0.N, win0_8.index t (0 : Fin 2) = win0_24.index t (0 : Fin 3) ∧ win0_8.index t (1 : Fin 2) = win0_24.index t (2 : Fin 3) :=
  (by decide +kernel : ∀ t : Fin grid0.N, _)
theorem idx_c10 : ∀ t : Fin cfg0.N, win0_10.index t (0 : Fin 2) = win0_24.index t (0 : Fin 3) ∧ win0_10.index t (1 : Fin 2) = win0_24.index t (2 : Fin 3) :=
  (by decide +kernel : ∀ t : Fin grid0.N, _)
theorem idx_c11 : ∀ t : Fin cfg0.N, win0_11.index t (0 : Fin 2) = win0_24.index t (0 : Fin 3) ∧ win0_11.index t (1 : Fin 2) = win0_24.index t (2 : Fin 3) :=
  (by decide +kernel : ∀ t : Fin grid0.N, _)
theorem idx_c12 : ∀ t : Fin cfg0.N, win0_12.index t (0 : Fin 2) = win0_24.index t (0 : Fin 3) ∧ win0_12.index t (1 : Fin 2) = win0_24.index t (2 : Fin 3) :=
  (by decide +kernel : ∀ t : Fin grid0.N, _)
theorem idx_c13 : ∀ t : Fin cfg0.N, win0_13.index t (0 : Fin 2) = win0_24.index t (0 : Fin 3) ∧ win0_13.index t (1 : Fin 2) = win0_24.index t (2 : Fin 3) :=
  (by decide +kernel : ∀ t : Fin grid0.N, _)
theorem idx_mu : ∀ t : Fin cfg0.N, win0_9.index t (0 : Fin 2) = win0_24.index t (0 : Fin 3) ∧ win0_9.index t (1 : Fin 2) = 0 :=
  (by decide +kernel : ∀ t : Fin grid0.N, _)
theorem idx_w14 : ∀ t : Fin cfg0.N, win0_14.index t (0 : Fin 2) = 0 ∧ win0_14.index t (1 : Fin 2) = 0 :=
  (by decide +kernel : ∀ t : Fin grid0.N, _)
theorem idx_w15 : ∀ t : Fin cfg0.N, win0_15.index t (0 : Fin 2) = 0 ∧ win0_15.index t (1 : Fin 2) = 0 :=
  (by decide +kernel : ∀ t : Fin grid0.N, _)
theorem idx_w16 : ∀ t : Fin cfg0.N, win0_16.index t (0 : Fin 2) = 0 ∧ win0_16.index t (1 : Fin 2) = 0 :=
  (by decide +kernel : ∀ t : Fin grid0.N, _)
theorem idx_w17 : ∀ t : Fin cfg0.N, win0_17.index t (0 : Fin 2) = 0 ∧ win0_17.index t (1 : Fin 2) = 0 :=
  (by decide +kernel : ∀ t : Fin grid0.N, _)
theorem idx_w18 : ∀ t : Fin cfg0.N, win0_18.index t (0 : Fin 2) = 0 ∧ win0_18.index t (1 : Fin 2) = 0 :=
  (by decide +kernel : ∀ t : Fin grid0.N, _)
theorem idx_w19 : ∀ t : Fin cfg0.N, win0_19.index t (0 : Fin 2) = 0 ∧ win0_19.index t (1 : Fin 2) = 0 :=
  (by decide +kernel : ∀ t : Fin grid0.N, _)
theorem idx_w20 : ∀ t : Fin cfg0.N, win0_20.index t (0 : Fin 2) = 0 ∧ win0_20.index t (1 : Fin 2) = 0 :=
  (by decide +kernel : ∀ t : Fin grid0.N, _)
theorem idx_w21 : ∀ t : Fin cfg0.N, win0_21.index t (0 : Fin 2) = 0 ∧ win0_21.index t (1 : Fin 2) = 0 :=
  (by decide +kernel : ∀ t : Fin grid0.N, _)
theorem idx_w22 : ∀ t : Fin cfg0.N, win0_22.index t (0 : Fin 2) = 0 ∧ win0_22.index t (1 : Fin 2) = 0 :=
  (by decide +kernel : ∀ t : Fin grid0.N, _)
theorem idx_w23 : ∀ t : Fin cfg0.N, win0_23.index t (0 : Fin 2) = 0 ∧ win0_23.index t (1 : Fin 2) = 0 :=
  (by decide +kernel : ∀ t : Fin grid0.N, _)

/-! ## The per-coordinate tiles -/

/-- X's tile at a point, entry by entry. -/
theorem read0 (c : Dev nD) (t : Fin cfg0.N) (p : Fin 32) (q : Fin 128) :
    iblk m c 0 t (ix2 p q) = (m ((c.tc : Thread nD τ).loc main_arg0) : S128x2048.Idx → EReal) (ix2 (row t p) (col t q)) := by
  show V m c main_arg0 (((cfg0.win 0).blk t).view.emb (ix2 p q)) = _
  rw [V_main_arg0]
  refine congrArg _ ?_
  funext a; apply Fin.ext
  have h := idx_c0 t
  match a with
  | ⟨0, _⟩ => show win0_0.index t (0 : Fin 2) * 32 + 1 * p.val = win0_24.index t (0 : Fin 3) * 32 + p.val; omega
  | ⟨1, _⟩ => show win0_0.index t (1 : Fin 2) * 128 + 1 * q.val = win0_24.index t (2 : Fin 3) * 128 + q.val; omega
/-- The first distance's tile at a point, entry by entry. -/
theorem read1 (c : Dev nD) (t : Fin cfg0.N) (p : Fin 32) (q : Fin 128) :
    iblk m c 1 t (ix2 p q) = (m ((c.tc : Thread nD τ).loc main_arg1) : S128x2048.Idx → EReal) (ix2 (row t p) (col t q)) := by
  show V m c main_arg1 (((cfg0.win 1).blk t).view.emb (ix2 p q)) = _
  rw [V_main_arg1]
  refine congrArg _ ?_
  funext a; apply Fin.ext
  have h := idx_c1 t
  match a with
  | ⟨0, _⟩ => show win0_1.index t (0 : Fin 2) * 32 + 1 * p.val = win0_24.index t (0 : Fin 3) * 32 + p.val; omega
  | ⟨1, _⟩ => show win0_1.index t (1 : Fin 2) * 128 + 1 * q.val = win0_24.index t (2 : Fin 3) * 128 + q.val; omega
/-- The second distance's tile at a point, entry by entry. -/
theorem read2 (c : Dev nD) (t : Fin cfg0.N) (p : Fin 32) (q : Fin 128) :
    iblk m c 2 t (ix2 p q) = (m ((c.tc : Thread nD τ).loc main_arg2) : S128x2048.Idx → EReal) (ix2 (row t p) (col t q)) := by
  show V m c main_arg2 (((cfg0.win 2).blk t).view.emb (ix2 p q)) = _
  rw [V_main_arg2]
  refine congrArg _ ?_
  funext a; apply Fin.ext
  have h := idx_c2 t
  match a with
  | ⟨0, _⟩ => show win0_2.index t (0 : Fin 2) * 32 + 1 * p.val = win0_24.index t (0 : Fin 3) * 32 + p.val; omega
  | ⟨1, _⟩ => show win0_2.index t (1 : Fin 2) * 128 + 1 * q.val = win0_24.index t (2 : Fin 3) * 128 + q.val; omega
/-- The first slack's tile at a point, entry by entry. -/
theorem read3 (c : Dev nD) (t : Fin cfg0.N) (p : Fin 32) (q : Fin 128) :
    iblk m c 3 t (ix2 p q) = (m ((c.tc : Thread nD τ).loc main_arg3) : S128x2048.Idx → EReal) (ix2 (row t p) (col t q)) := by
  show V m c main_arg3 (((cfg0.win 3).blk t).view.emb (ix2 p q)) = _
  rw [V_main_arg3]
  refine congrArg _ ?_
  funext a; apply Fin.ext
  have h := idx_c3 t
  match a with
  | ⟨0, _⟩ => show win0_3.index t (0 : Fin 2) * 32 + 1 * p.val = win0_24.index t (0 : Fin 3) * 32 + p.val; omega
  | ⟨1, _⟩ => show win0_3.index t (1 : Fin 2) * 128 + 1 * q.val = win0_24.index t (2 : Fin 3) * 128 + q.val; omega
/-- The second slack's tile at a point, entry by entry. -/
theorem read4 (c : Dev nD) (t : Fin cfg0.N) (p : Fin 32) (q : Fin 128) :
    iblk m c 4 t (ix2 p q) = (m ((c.tc : Thread nD τ).loc main_arg4) : S128x2048.Idx → EReal) (ix2 (row t p) (col t q)) := by
  show V m c main_arg4 (((cfg0.win 4).blk t).view.emb (ix2 p q)) = _
  rw [V_main_arg4]
  refine congrArg _ ?_
  funext a; apply Fin.ext
  have h := idx_c4 t
  match a with
  | ⟨0, _⟩ => show win0_4.index t (0 : Fin 2) * 32 + 1 * p.val = win0_24.index t (0 : Fin 3) * 32 + p.val; omega
  | ⟨1, _⟩ => show win0_4.index t (1 : Fin 2) * 128 + 1 * q.val = win0_24.index t (2 : Fin 3) * 128 + q.val; omega
/-- The fifth input's tile at a point, entry by entry. -/
theorem read5 (c : Dev nD) (t : Fin cfg0.N) (p : Fin 32) (q : Fin 128) :
    iblk m c 5 t (ix2 p q) = (m ((c.tc : Thread nD τ).loc main_arg5) : S128x2048.Idx → EReal) (ix2 (row t p) (col t q)) := by
  show V m c main_arg5 (((cfg0.win 5).blk t).view.emb (ix2 p q)) = _
  rw [V_main_arg5]
  refine congrArg _ ?_
  funext a; apply Fin.ext
  have h := idx_c5 t
  match a with
  | ⟨0, _⟩ => show win0_5.index t (0 : Fin 2) * 32 + 1 * p.val = win0_24.index t (0 : Fin 3) * 32 + p.val; omega
  | ⟨1, _⟩ => show win0_5.index t (1 : Fin 2) * 128 + 1 * q.val = win0_24.index t (2 : Fin 3) * 128 + q.val; omega
/-- The sixth input's tile at a point, entry by entry. -/
theorem read6 (c : Dev nD) (t : Fin cfg0.N) (p : Fin 32) (q : Fin 128) :
    iblk m c 6 t (ix2 p q) = (m ((c.tc : Thread nD τ).loc main_arg6) : S128x2048.Idx → EReal) (ix2 (row t p) (col t q)) := by
  show V m c main_arg6 (((cfg0.win 6).blk t).view.emb (ix2 p q)) = _
  rw [V_main_arg6]
  refine congrArg _ ?_
  funext a; apply Fin.ext
  have h := idx_c6 t
  match a with
  | ⟨0, _⟩ => show win0_6.index t (0 : Fin 2) * 32 + 1 * p.val = win0_24.index t (0 : Fin 3) * 32 + p.val; omega
  | ⟨1, _⟩ => show win0_6.index t (1 : Fin 2) * 128 + 1 * q.val = win0_24.index t (2 : Fin 3) * 128 + q.val; omega
/-- The seventh input's tile at a point, entry by entry. -/
theorem read7 (c : Dev nD) (t : Fin cfg0.N) (p : Fin 32) (q : Fin 128) :
    iblk m c 7 t (ix2 p q) = (m ((c.tc : Thread nD τ).loc main_arg7) : S128x2048.Idx → EReal) (ix2 (row t p) (col t q)) := by
  show V m c main_arg7 (((cfg0.win 7).blk t).view.emb (ix2 p q)) = _
  rw [V_main_arg7]
  refine congrArg _ ?_
  funext a; apply Fin.ext
  have h := idx_c7 t
  match a with
  | ⟨0, _⟩ => show win0_7.index t (0 : Fin 2) * 32 + 1 * p.val = win0_24.index t (0 : Fin 3) * 32 + p.val; omega
  | ⟨1, _⟩ => show win0_7.index t (1 : Fin 2) * 128 + 1 * q.val = win0_24.index t (2 : Fin 3) * 128 + q.val; omega
/-- The eighth input's tile at a point, entry by entry. -/
theorem read8 (c : Dev nD) (t : Fin cfg0.N) (p : Fin 32) (q : Fin 128) :
    iblk m c 8 t (ix2 p q) = (m ((c.tc : Thread nD τ).loc main_arg8) : S128x2048.Idx → EReal) (ix2 (row t p) (col t q)) := by
  show V m c main_arg8 (((cfg0.win 8).blk t).view.emb (ix2 p q)) = _
  rw [V_main_arg8]
  refine congrArg _ ?_
  funext a; apply Fin.ext
  have h := idx_c8 t
  match a with
  | ⟨0, _⟩ => show win0_8.index t (0 : Fin 2) * 32 + 1 * p.val = win0_24.index t (0 : Fin 3) * 32 + p.val; omega
  | ⟨1, _⟩ => show win0_8.index t (1 : Fin 2) * 128 + 1 * q.val = win0_24.index t (2 : Fin 3) * 128 + q.val; omega
/-- The lower bound's tile at a point, entry by entry. -/
theorem read10 (c : Dev nD) (t : Fin cfg0.N) (p : Fin 32) (q : Fin 128) :
    iblk m c 10 t (ix2 p q) = (m ((c.tc : Thread nD τ).loc main_arg10) : S128x2048.Idx → EReal) (ix2 (row t p) (col t q)) := by
  show V m c main_arg10 (((cfg0.win 10).blk t).view.emb (ix2 p q)) = _
  rw [V_main_arg10]
  refine congrArg _ ?_
  funext a; apply Fin.ext
  have h := idx_c10 t
  match a with
  | ⟨0, _⟩ => show win0_10.index t (0 : Fin 2) * 32 + 1 * p.val = win0_24.index t (0 : Fin 3) * 32 + p.val; omega
  | ⟨1, _⟩ => show win0_10.index t (1 : Fin 2) * 128 + 1 * q.val = win0_24.index t (2 : Fin 3) * 128 + q.val; omega
/-- The upper bound's tile at a point, entry by entry. -/
theorem read11 (c : Dev nD) (t : Fin cfg0.N) (p : Fin 32) (q : Fin 128) :
    iblk m c 11 t (ix2 p q) = (m ((c.tc : Thread nD τ).loc main_arg11) : S128x2048.Idx → EReal) (ix2 (row t p) (col t q)) := by
  show V m c main_arg11 (((cfg0.win 11).blk t).view.emb (ix2 p q)) = _
  rw [V_main_arg11]
  refine congrArg _ ?_
  funext a; apply Fin.ext
  have h := idx_c11 t
  match a with
  | ⟨0, _⟩ => show win0_11.index t (0 : Fin 2) * 32 + 1 * p.val = win0_24.index t (0 : Fin 3) * 32 + p.val; omega
  | ⟨1, _⟩ => show win0_11.index t (1 : Fin 2) * 128 + 1 * q.val = win0_24.index t (2 : Fin 3) * 128 + q.val; omega
/-- The lower-bound flags' tile at a point, entry by entry: the widened array's entries. -/
theorem read12 (c : Dev nD) (t : Fin cfg0.N) (p : Fin 32) (q : Fin 128) :
    iblk m c 12 t (ix2 p q) = (V m c main_v22 : S128x2048.Idx → BitVec 32) (ix2 (row t p) (col t q)) := by
  show V m c main_v22 (((cfg0.win 12).blk t).view.emb (ix2 p q)) = _
  refine congrArg _ ?_
  funext a; apply Fin.ext
  have h := idx_c12 t
  match a with
  | ⟨0, _⟩ => show win0_12.index t (0 : Fin 2) * 32 + 1 * p.val = win0_24.index t (0 : Fin 3) * 32 + p.val; omega
  | ⟨1, _⟩ => show win0_12.index t (1 : Fin 2) * 128 + 1 * q.val = win0_24.index t (2 : Fin 3) * 128 + q.val; omega
/-- The upper-bound flags' tile at a point, entry by entry: the widened array's entries. -/
theorem read13 (c : Dev nD) (t : Fin cfg0.N) (p : Fin 32) (q : Fin 128) :
    iblk m c 13 t (ix2 p q) = (V m c main_v23 : S128x2048.Idx → BitVec 32) (ix2 (row t p) (col t q)) := by
  show V m c main_v23 (((cfg0.win 13).blk t).view.emb (ix2 p q)) = _
  refine congrArg _ ?_
  funext a; apply Fin.ext
  have h := idx_c13 t
  match a with
  | ⟨0, _⟩ => show win0_13.index t (0 : Fin 2) * 32 + 1 * p.val = win0_24.index t (0 : Fin 3) * 32 + p.val; omega
  | ⟨1, _⟩ => show win0_13.index t (1 : Fin 2) * 128 + 1 * q.val = win0_24.index t (2 : Fin 3) * 128 + q.val; omega
/-- mu's rows at a point. -/
theorem read9 (c : Dev nD) (t : Fin cfg0.N) (p : Fin 32) :
    iblk m c 9 t (ix2 p (0 : Fin 1)) = (m ((c.tc : Thread nD τ).loc main_arg9) : S128x1.Idx → EReal) (ix2 (row t p) (0 : Fin 1)) := by
  show V m c main_arg9 (((cfg0.win 9).blk t).view.emb (ix2 p (0 : Fin 1))) = _
  rw [V_main_arg9]
  refine congrArg _ ?_
  funext a; apply Fin.ext
  have h := idx_mu t
  match a with
  | ⟨0, _⟩ => show win0_9.index t (0 : Fin 2) * 32 + 1 * p.val = win0_24.index t (0 : Fin 3) * 32 + p.val; omega
  | ⟨1, _⟩ => show win0_9.index t (1 : Fin 2) * 1 + 1 * 0 = 0; omega

/-! ## The weight blocks -/

/-- The input gate's weights: the one block is the whole array. -/
theorem readw14 (c : Dev nD) (t : Fin cfg0.N) (u : Fin 15) (v : Fin 128) :
    iblk m c 14 t (ix2 u v) = (V m c main_v3 : S15x128.Idx → EReal) (ix2 u v) := by
  show V m c main_v3 (((cfg0.win 14).blk t).view.emb (ix2 u v)) = _
  refine congrArg _ ?_
  funext a; apply Fin.ext
  have h := idx_w14 t
  match a with
  | ⟨0, _⟩ => show win0_14.index t (0 : Fin 2) * 15 + 1 * u.val = u.val; omega
  | ⟨1, _⟩ => show win0_14.index t (1 : Fin 2) * 128 + 1 * v.val = v.val; omega
/-- The cell gate's weights: the one block is the whole array. -/
theorem readw15 (c : Dev nD) (t : Fin cfg0.N) (u : Fin 15) (v : Fin 128) :
    iblk m c 15 t (ix2 u v) = (V m c main_v4 : S15x128.Idx → EReal) (ix2 u v) := by
  show V m c main_v4 (((cfg0.win 15).blk t).view.emb (ix2 u v)) = _
  refine congrArg _ ?_
  funext a; apply Fin.ext
  have h := idx_w15 t
  match a with
  | ⟨0, _⟩ => show win0_15.index t (0 : Fin 2) * 15 + 1 * u.val = u.val; omega
  | ⟨1, _⟩ => show win0_15.index t (1 : Fin 2) * 128 + 1 * v.val = v.val; omega
/-- The output gate's weights: the one block is the whole array. -/
theorem readw16 (c : Dev nD) (t : Fin cfg0.N) (u : Fin 15) (v : Fin 128) :
    iblk m c 16 t (ix2 u v) = (V m c main_v5 : S15x128.Idx → EReal) (ix2 u v) := by
  show V m c main_v5 (((cfg0.win 16).blk t).view.emb (ix2 u v)) = _
  refine congrArg _ ?_
  funext a; apply Fin.ext
  have h := idx_w16 t
  match a with
  | ⟨0, _⟩ => show win0_16.index t (0 : Fin 2) * 15 + 1 * u.val = u.val; omega
  | ⟨1, _⟩ => show win0_16.index t (1 : Fin 2) * 128 + 1 * v.val = v.val; omega
/-- The input gate's bias: the one block is the whole array. -/
theorem readw17 (c : Dev nD) (t : Fin cfg0.N) (u : Fin 1) (v : Fin 128) :
    iblk m c 17 t (ix2 u v) = (V m c main_v9 : S1x128.Idx → EReal) (ix2 u v) := by
  show V m c main_v9 (((cfg0.win 17).blk t).view.emb (ix2 u v)) = _
  refine congrArg _ ?_
  funext a; apply Fin.ext
  have h := idx_w17 t
  match a with
  | ⟨0, _⟩ => show win0_17.index t (0 : Fin 2) * 1 + 1 * u.val = u.val; omega
  | ⟨1, _⟩ => show win0_17.index t (1 : Fin 2) * 128 + 1 * v.val = v.val; omega
/-- The cell gate's bias: the one block is the whole array. -/
theorem readw18 (c : Dev nD) (t : Fin cfg0.N) (u : Fin 1) (v : Fin 128) :
    iblk m c 18 t (ix2 u v) = (V m c main_v13 : S1x128.Idx → EReal) (ix2 u v) := by
  show V m c main_v13 (((cfg0.win 18).blk t).view.emb (ix2 u v)) = _
  refine congrArg _ ?_
  funext a; apply Fin.ext
  have h := idx_w18 t
  match a with
  | ⟨0, _⟩ => show win0_18.index t (0 : Fin 2) * 1 + 1 * u.val = u.val; omega
  | ⟨1, _⟩ => show win0_18.index t (1 : Fin 2) * 128 + 1 * v.val = v.val; omega
/-- The output gate's bias: the one block is the whole array. -/
theorem readw19 (c : Dev nD) (t : Fin cfg0.N) (u : Fin 1) (v : Fin 128) :
    iblk m c 19 t (ix2 u v) = (V m c main_v17 : S1x128.Idx → EReal) (ix2 u v) := by
  show V m c main_v17 (((cfg0.win 19).blk t).view.emb (ix2 u v)) = _
  refine congrArg _ ?_
  funext a; apply Fin.ext
  have h := idx_w19 t
  match a with
  | ⟨0, _⟩ => show win0_19.index t (0 : Fin 2) * 1 + 1 * u.val = u.val; omega
  | ⟨1, _⟩ => show win0_19.index t (1 : Fin 2) * 128 + 1 * v.val = v.val; omega
/-- The head's first layer: the one block is the whole array. -/
theorem readw20 (c : Dev nD) (t : Fin cfg0.N) (u : Fin 128) (v : Fin 128) :
    iblk m c 20 t (ix2 u v) = (V m c main_v18 : S128x128.Idx → EReal) (ix2 u v) := by
  show V m c main_v18 (((cfg0.win 20).blk t).view.emb (ix2 u v)) = _
  refine congrArg _ ?_
  funext a; apply Fin.ext
  have h := idx_w20 t
  match a with
  | ⟨0, _⟩ => show win0_20.index t (0 : Fin 2) * 128 + 1 * u.val = u.val; omega
  | ⟨1, _⟩ => show win0_20.index t (1 : Fin 2) * 128 + 1 * v.val = v.val; omega
/-- The first layer's bias: the one block is the whole array. -/
theorem readw21 (c : Dev nD) (t : Fin cfg0.N) (u : Fin 1) (v : Fin 128) :
    iblk m c 21 t (ix2 u v) = (V m c main_v19 : S1x128.Idx → EReal) (ix2 u v) := by
  show V m c main_v19 (((cfg0.win 21).blk t).view.emb (ix2 u v)) = _
  refine congrArg _ ?_
  funext a; apply Fin.ext
  have h := idx_w21 t
  match a with
  | ⟨0, _⟩ => show win0_21.index t (0 : Fin 2) * 1 + 1 * u.val = u.val; omega
  | ⟨1, _⟩ => show win0_21.index t (1 : Fin 2) * 128 + 1 * v.val = v.val; omega
/-- The head's second layer: the one block is the whole array. -/
theorem readw22 (c : Dev nD) (t : Fin cfg0.N) (u : Fin 128) (v : Fin 1) :
    iblk m c 22 t (ix2 u v) = (V m c main_v20 : S128x1.Idx → EReal) (ix2 u v) := by
  show V m c main_v20 (((cfg0.win 22).blk t).view.emb (ix2 u v)) = _
  refine congrArg _ ?_
  funext a; apply Fin.ext
  have h := idx_w22 t
  match a with
  | ⟨0, _⟩ => show win0_22.index t (0 : Fin 2) * 128 + 1 * u.val = u.val; omega
  | ⟨1, _⟩ => show win0_22.index t (1 : Fin 2) * 1 + 1 * v.val = v.val; omega
/-- The second layer's bias: the one block is the whole array. -/
theorem readw23 (c : Dev nD) (t : Fin cfg0.N) (u : Fin 1) (v : Fin 1) :
    iblk m c 23 t (ix2 u v) = (V m c main_v21 : S1x1.Idx → EReal) (ix2 u v) := by
  show V m c main_v21 (((cfg0.win 23).blk t).view.emb (ix2 u v)) = _
  refine congrArg _ ?_
  funext a; apply Fin.ext
  have h := idx_w23 t
  match a with
  | ⟨0, _⟩ => show win0_23.index t (0 : Fin 2) * 1 + 1 * u.val = u.val; omega
  | ⟨1, _⟩ => show win0_23.index t (1 : Fin 2) * 1 + 1 * v.val = v.val; omega

end Cert.KernelIdeal.RegionValue

end
-- ==== Proof.HostPrefix.lean ====
/-
  What the lines before the call make of the weights and the flags, entry by entry.

  Before the region the program cuts rows 0…127, 256…383 and 384…511 out of the [512, 15] input weights and
  transposes each to [15, 128]; cuts the same rows out of the two bias vectors, adds them and lays the sum out as
  a row; transposes the head's two layers; lays the head's biases out as rows; and widens the two flag arrays to
  32-bit words. Read at an entry, each is an entry of an argument array (or the sum of two).
-/
import proofs.«131924_j12919261626992_1_alg».proof.Proof.Gen.KernelIdeal.Frame
import proofs.«131924_j12919261626992_1_alg».proof.Proof.StepSpec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostPrefix

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- Rows o … o + 127 of a [512, 15] array, transposed to [15, 128], read at (κ, j): the array at (o + j, κ). -/
theorem gateW_read (X : S512x15.Idx → EReal) (o : Nat) (ho : o + 128 ≤ 512) (hs : S512x15.Slices ![o, 0] S128x15)
    (ht : S128x15.Transposes [1, 0] S15x128) (κ : Fin 15) (j : Fin 128) :
    transpose S15x128 [1, 0] (extractStridedSlice S128x15 ![o, 0] X hs) ht (ix2 κ j) = Step.gateW X o ho κ j := by
  rw [transpose_ix2_apply, slice2_axis0_apply o X hs j κ (Step.gateRow o ho j) rfl]
  rfl

/-- Entries o … o + 127 of a [512] vector, read at j: the vector at o + j. -/
theorem slice1_read (X : S512.Idx → EReal) (o : Nat) (ho : o + 128 ≤ 512) (hs : S512.Slices ![o] S128) (j : Fin 128) :
    extractStridedSlice S128 ![o] X hs (ix1 j) = X (ix1 (Step.gateRow o ho j)) :=
  extractStridedSlice_apply ![o] X hs (ix1 j) (ix1 (Step.gateRow o ho j)) fun a => match a with | ⟨0, _⟩ => rfl

/-- Entries o … o + 127 of two [512] vectors, added and laid out as a row, read at (0, j): the sum of the two at o + j. -/
theorem gateB_read (X Y : S512.Idx → EReal) (o : Nat) (ho : o + 128 ≤ 512) (hs : S512.Slices ![o] S128)
    (hc : S128.ShapeCasts S1x128) (j : Fin 128) :
    shapeCast S1x128 (addf (F := Ideal) (φ := .f32) (extractStridedSlice S128 ![o] X hs) (extractStridedSlice S128 ![o] Y hs)) hc
        (ix2 (0 : Fin 1) j) = Step.gateB X Y o ho j := by
  rw [shapeCast_a_1a_apply]
  show extractStridedSlice S128 ![o] X hs (ix1 j) + extractStridedSlice S128 ![o] Y hs (ix1 j) = _
  rw [slice1_read X o ho hs j, slice1_read Y o ho hs j]
  rfl

/-- The input gate's weights: rows 0…127 of the input weights, transposed. -/
theorem wi_at (c : Dev nD) (κ : Fin 15) (j : Fin 128) :
    (V m c main_v3 : S15x128.Idx → EReal) (ix2 κ j) = Step.gateW (m ((c.tc : Thread nD τ).loc main_arg14)) 0 (by omega) κ j := by
  show (StableHlo.after hostOps0 (fun b => m (c, b)) (Proc.devRef .tc main_v3) : S15x128.Idx → EReal) (ix2 κ j) = _
  after_results
  exact gateW_read _ 0 (by omega) _ _ κ j
/-- The cell gate's weights: rows 256…383, transposed. -/
theorem wg_at (c : Dev nD) (κ : Fin 15) (j : Fin 128) :
    (V m c main_v4 : S15x128.Idx → EReal) (ix2 κ j) = Step.gateW (m ((c.tc : Thread nD τ).loc main_arg14)) 256 (by omega) κ j := by
  show (StableHlo.after hostOps0 (fun b => m (c, b)) (Proc.devRef .tc main_v4) : S15x128.Idx → EReal) (ix2 κ j) = _
  after_results
  exact gateW_read _ 256 (by omega) _ _ κ j
/-- The output gate's weights: rows 384…511, transposed. -/
theorem wo_at (c : Dev nD) (κ : Fin 15) (j : Fin 128) :
    (V m c main_v5 : S15x128.Idx → EReal) (ix2 κ j) = Step.gateW (m ((c.tc : Thread nD τ).loc main_arg14)) 384 (by omega) κ j := by
  show (StableHlo.after hostOps0 (fun b => m (c, b)) (Proc.devRef .tc main_v5) : S15x128.Idx → EReal) (ix2 κ j) = _
  after_results
  exact gateW_read _ 384 (by omega) _ _ κ j

/-- The input gate's bias: entries 0…127 of the two biases, summed. -/
theorem bi_at (c : Dev nD) (j : Fin 128) :
    (V m c main_v9 : S1x128.Idx → EReal) (ix2 (0 : Fin 1) j)
      = Step.gateB (m ((c.tc : Thread nD τ).loc main_arg16)) (m ((c.tc : Thread nD τ).loc main_arg17)) 0 (by omega) j := by
  show (StableHlo.after hostOps0 (fun b => m (c, b)) (Proc.devRef .tc main_v9) : S1x128.Idx → EReal) (ix2 (0 : Fin 1) j) = _
  after_results
  exact gateB_read _ _ 0 (by omega) _ _ j
/-- The cell gate's bias: entries 256…383. -/
theorem bg_at (c : Dev nD) (j : Fin 128) :
    (V m c main_v13 : S1x128.Idx → EReal) (ix2 (0 : Fin 1) j)
      = Step.gateB (m ((c.tc : Thread nD τ).loc main_arg16)) (m ((c.tc : Thread nD τ).loc main_arg17)) 256 (by omega) j := by
  show (StableHlo.after hostOps0 (fun b => m (c, b)) (Proc.devRef .tc main_v13) : S1x128.Idx → EReal) (ix2 (0 : Fin 1) j) = _
  after_results
  exact gateB_read _ _ 256 (by omega) _ _ j
/-- The output gate's bias: entries 384…511. -/
theorem bo_at (c : Dev nD) (j : Fin 128) :
    (V m c main_v17 : S1x128.Idx → EReal) (ix2 (0 : Fin 1) j)
      = Step.gateB (m ((c.tc : Thread nD τ).loc main_arg16)) (m ((c.tc : Thread nD τ).loc main_arg17)) 384 (by omega) j := by
  show (StableHlo.after hostOps0 (fun b => m (c, b)) (Proc.devRef .tc main_v17) : S1x128.Idx → EReal) (ix2 (0 : Fin 1) j) = _
  after_results
  exact gateB_read _ _ 384 (by omega) _ _ j

/-- The head's first layer, transposed to [in, out]. -/
theorem w1_at (c : Dev nD) (j j' : Fin 128) :
    (V m c main_v18 : S128x128.Idx → EReal) (ix2 j j') = (m ((c.tc : Thread nD τ).loc main_arg18) : S128x128.Idx → EReal) (ix2 j' j) := by
  show (StableHlo.after hostOps0 (fun b => m (c, b)) (Proc.devRef .tc main_v18) : S128x128.Idx → EReal) (ix2 j j') = _
  after_results
  exact transpose_ix2_apply _ _ j j'
/-- Its bias, as a row. -/
theorem b1_at (c : Dev nD) (j' : Fin 128) :
    (V m c main_v19 : S1x128.Idx → EReal) (ix2 (0 : Fin 1) j') = (m ((c.tc : Thread nD τ).loc main_arg19) : S128.Idx → EReal) (ix1 j') := by
  show (StableHlo.after hostOps0 (fun b => m (c, b)) (Proc.devRef .tc main_v19) : S1x128.Idx → EReal) (ix2 (0 : Fin 1) j') = _
  after_results
  exact shapeCast_a_1a_apply _ _ (0 : Fin 1) j'
/-- The head's second layer, transposed to a column. -/
theorem w2_at (c : Dev nD) (j' : Fin 128) :
    (V m c main_v20 : S128x1.Idx → EReal) (ix2 j' (0 : Fin 1)) = (m ((c.tc : Thread nD τ).loc main_arg20) : S1x128.Idx → EReal) (ix2 (0 : Fin 1) j') := by
  show (StableHlo.after hostOps0 (fun b => m (c, b)) (Proc.devRef .tc main_v20) : S128x1.Idx → EReal) (ix2 j' (0 : Fin 1)) = _
  after_results
  exact transpose_ix2_apply _ _ j' (0 : Fin 1)
/-- Its bias, as a one-by-one array. -/
theorem b2_at (c : Dev nD) :
    (V m c main_v21 : S1x1.Idx → EReal) (ix2 (0 : Fin 1) (0 : Fin 1)) = (m ((c.tc : Thread nD τ).loc main_arg21) : S1.Idx → EReal) (ix1 (0 : Fin 1)) := by
  show (StableHlo.after hostOps0 (fun b => m (c, b)) (Proc.devRef .tc main_v21) : S1x1.Idx → EReal) (ix2 (0 : Fin 1) (0 : Fin 1)) = _
  after_results
  exact shapeCast_a_1a_apply _ _ (0 : Fin 1) (0 : Fin 1)

/-- The lower-bound flags, widened to words. -/
theorem hasLb_at (c : Dev nD) (b : Fin 128) (n : Fin 2048) :
    (V m c main_v22 : S128x2048.Idx → BitVec 32) (ix2 b n) = ((m ((c.tc : Thread nD τ).loc main_arg12) : S128x2048.Idx → BitVec 1) (ix2 b n)).setWidth 32 := by
  show (StableHlo.after hostOps0 (fun b => m (c, b)) (Proc.devRef .tc main_v22) : S128x2048.Idx → BitVec 32) (ix2 b n) = _
  after_results
  rfl
/-- The upper-bound flags, widened to words. -/
theorem hasUb_at (c : Dev nD) (b : Fin 128) (n : Fin 2048) :
    (V m c main_v23 : S128x2048.Idx → BitVec 32) (ix2 b n) = ((m ((c.tc : Thread nD τ).loc main_arg13) : S128x2048.Idx → BitVec 1) (ix2 b n)).setWidth 32 := by
  show (StableHlo.after hostOps0 (fun b => m (c, b)) (Proc.devRef .tc main_v23) : S128x2048.Idx → BitVec 32) (ix2 b n) = _
  after_results
  rfl

end Cert.KernelIdeal.HostPrefix

end
-- ==== Proof.RegionValue.lean ====
/-
  The kernel's run, with its result named.

  The grid is 4 x 16; point (i, j) reads tile (i, j) of every per-coordinate array (rows 32 i …, columns 128 j …),
  rows 32 i … of mu, and the whole of every weight block, and writes block (i, 0, j) of the [128, 5, 2048] result.
  The weight blocks are what the lines before the call make of the arguments: rows 0…, 256…, 384… of the input
  weights transposed, the matching biases summed, the head's weights transposed, the flags widened to words.
  So entry (32 i + p, k, 128 j + q) of the region's result is the step's result k at coordinate
  (32 i + p, 128 j + q); the 64 blocks cover the array; and the last line reshapes [128, 5, 2048] to [128, 10240],
  which puts result k of coordinate (b, n) in column 2048 k + n.
-/
import proofs.«131924_j12919261626992_1_alg».proof.Proof.Gen.KernelIdeal.Frame
import proofs.«131924_j12919261626992_1_alg».proof.Proof.StepSpec
import proofs.«131924_j12919261626992_1_alg».proof.Proof.BlockCell
import proofs.«131924_j12919261626992_1_alg».proof.Proof.BlockPlace
import proofs.«131924_j12919261626992_1_alg».proof.Proof.BlockReads
import proofs.«131924_j12919261626992_1_alg».proof.Proof.HostPrefix
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- Core c's argument arrays, as the step's arguments. -/
def argsOf (c : Dev nD) : Step.Args :=
  { x := m ((c.tc : Thread nD τ).loc main_arg0), x1 := m ((c.tc : Thread nD τ).loc main_arg1), x2 := m ((c.tc : Thread nD τ).loc main_arg2),
    z1 := m ((c.tc : Thread nD τ).loc main_arg3), z2 := m ((c.tc : Thread nD τ).loc main_arg4), x1E := m ((c.tc : Thread nD τ).loc main_arg5),
    x2E := m ((c.tc : Thread nD τ).loc main_arg6), z1E := m ((c.tc : Thread nD τ).loc main_arg7), z2E := m ((c.tc : Thread nD τ).loc main_arg8),
    mu := m ((c.tc : Thread nD τ).loc main_arg9), lb := m ((c.tc : Thread nD τ).loc main_arg10), ub := m ((c.tc : Thread nD τ).loc main_arg11),
    hasLb := m ((c.tc : Thread nD τ).loc main_arg12), hasUb := m ((c.tc : Thread nD τ).loc main_arg13),
    Wih := m ((c.tc : Thread nD τ).loc main_arg14), bih := m ((c.tc : Thread nD τ).loc main_arg16), bhh := m ((c.tc : Thread nD τ).loc main_arg17),
    W1 := m ((c.tc : Thread nD τ).loc main_arg18), b1 := m ((c.tc : Thread nD τ).loc main_arg19), W2 := m ((c.tc : Thread nD τ).loc main_arg20),
    b2 := m ((c.tc : Thread nD τ).loc main_arg21) }

/-! ## What a point stores is the step at its coordinates -/

/-- Entry (p, k, q) of the block a point stores is result k of the step at coordinate (row p, column q) of the
    point's tile: the stored block is the step's cell of the loaded blocks' entries, each loaded entry is an entry
    of an argument array, and the weight blocks are the gates' and the head's weights as the step arranges them. -/
theorem point_entry (c : Dev nD) (t : Fin cfg0.N) (p : Fin 32) (k : Fin 5) (q : Fin 128) :
    out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix3 p k q)
      = Step.coord (argsOf m c) (row t p) (col t q) k := by
  refine (Block.out_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) p k q).trans ?_
  have eWi : (fun κ j => iblk m c 14 t (ix2 κ j)) = Step.gateW (m ((c.tc : Thread nD τ).loc main_arg14)) 0 (by omega) :=
    funext fun κ => funext fun j => (readw14 m c t κ j).trans (HostPrefix.wi_at m c κ j)
  have eWg : (fun κ j => iblk m c 15 t (ix2 κ j)) = Step.gateW (m ((c.tc : Thread nD τ).loc main_arg14)) 256 (by omega) :=
    funext fun κ => funext fun j => (readw15 m c t κ j).trans (HostPrefix.wg_at m c κ j)
  have eWo : (fun κ j => iblk m c 16 t (ix2 κ j)) = Step.gateW (m ((c.tc : Thread nD τ).loc main_arg14)) 384 (by omega) :=
    funext fun κ => funext fun j => (readw16 m c t κ j).trans (HostPrefix.wo_at m c κ j)
  have ebi : (fun j => iblk m c 17 t (ix2 (0 : Fin 1) j)) = Step.gateB (m ((c.tc : Thread nD τ).loc main_arg16)) (m ((c.tc : Thread nD τ).loc main_arg17)) 0 (by omega) :=
    funext fun j => (readw17 m c t 0 j).trans (HostPrefix.bi_at m c j)
  have ebg : (fun j => iblk m c 18 t (ix2 (0 : Fin 1) j)) = Step.gateB (m ((c.tc : Thread nD τ).loc main_arg16)) (m ((c.tc : Thread nD τ).loc main_arg17)) 256 (by omega) :=
    funext fun j => (readw18 m c t 0 j).trans (HostPrefix.bg_at m c j)
  have ebo : (fun j => iblk m c 19 t (ix2 (0 : Fin 1) j)) = Step.gateB (m ((c.tc : Thread nD τ).loc main_arg16)) (m ((c.tc : Thread nD τ).loc main_arg17)) 384 (by omega) :=
    funext fun j => (readw19 m c t 0 j).trans (HostPrefix.bo_at m c j)
  have eW1 : (fun j j' => iblk m c 20 t (ix2 j j')) = fun j j' => ((m ((c.tc : Thread nD τ).loc main_arg18)) : S128x128.Idx → EReal) (ix2 j' j) :=
    funext fun j => funext fun j' => (readw20 m c t j j').trans (HostPrefix.w1_at m c j j')
  have eb1 : (fun j' => iblk m c 21 t (ix2 (0 : Fin 1) j')) = fun j' => ((m ((c.tc : Thread nD τ).loc main_arg19)) : S128.Idx → EReal) (ix1 j') :=
    funext fun j' => (readw21 m c t 0 j').trans (HostPrefix.b1_at m c j')
  have eW2 : (fun j' => iblk m c 22 t (ix2 j' (0 : Fin 1))) = fun j' => ((m ((c.tc : Thread nD τ).loc main_arg20)) : S1x128.Idx → EReal) (ix2 (0 : Fin 1) j') :=
    funext fun j' => (readw22 m c t j' 0).trans (HostPrefix.w2_at m c j')
  have eb2 : iblk m c 23 t (ix2 (0 : Fin 1) (0 : Fin 1)) = ((m ((c.tc : Thread nD τ).loc main_arg21)) : S1.Idx → EReal) (ix1 (0 : Fin 1)) :=
    (readw23 m c t 0 0).trans (HostPrefix.b2_at m c)
  have el : iblk m c 12 t (ix2 p q) = (((m ((c.tc : Thread nD τ).loc main_arg12)) : S128x2048.Idx → BitVec 1) (ix2 (row t p) (col t q))).setWidth 32 :=
    (read12 m c t p q).trans (HostPrefix.hasLb_at m c (row t p) (col t q))
  have eu : iblk m c 13 t (ix2 p q) = (((m ((c.tc : Thread nD τ).loc main_arg13)) : S128x2048.Idx → BitVec 1) (ix2 (row t p) (col t q))).setWidth 32 :=
    (read13 m c t p q).trans (HostPrefix.hasUb_at m c (row t p) (col t q))
  rw [read0 m c t p q, read1 m c t p q, read2 m c t p q, read3 m c t p q, read4 m c t p q, read5 m c t p q, read6 m c t p q, read7 m c t p q, read8 m c t p q, read10 m c t p q, read11 m c t p q, read9 m c t p, el, eu,
    Block.flag_setWidth, Block.flag_setWidth, eWi, eWg, eWo, ebi, ebg, ebo, eW1, eb1, eW2, eb2]
  rfl

/-! ## From blocks to the array -/

/-- Entry (p, k, q) of a point's output block sits at (row p, k, column q) of the result array. -/
theorem emb_out (t : Fin cfg0.N) (p : Fin 32) (k : Fin 5) (q : Fin 128) :
    ((cfg0.win 24).blk t).view.emb (ix3 p k q) = (ix3 (row t p) k (col t q) : S128x5x2048.Idx) := by
  funext a; apply Fin.ext
  have h := idx_out t
  match a with
  | ⟨0, _⟩ => show win0_24.index t (0 : Fin 3) * 32 + 1 * p.val = win0_24.index t (0 : Fin 3) * 32 + p.val; omega
  | ⟨1, _⟩ => show win0_24.index t (1 : Fin 3) * 5 + 1 * k.val = k.val; omega
  | ⟨2, _⟩ => show win0_24.index t (2 : Fin 3) * 128 + 1 * q.val = win0_24.index t (2 : Fin 3) * 128 + q.val; omega

/-- What point t writes back is block t of the step's stacked results. -/
theorem flushed_eq (c : Dev nD) (t : Fin cfg0.N) :
    (dats m 0 c).flushed 24 t = ((cfg0.win 24).blk t).view.read (Elt Ideal) (Step.stacked (argsOf m c)) := by
  show (cfg0.win 24).cut (grid0.coords t) ((dats m 0 c).after 24 t) = _
  rw [after0_24]
  have key : ∀ (p : Fin 32) (k : Fin 5) (q : Fin 128), out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix3 p k q)
      = Step.stacked (argsOf m c) (((cfg0.win 24).blk t).view.emb (ix3 p k q)) := fun p k q => by
    rw [emb_out, Step.stacked_ix]
    exact point_entry m c t p k q
  funext j
  obtain ⟨p, k, q, rfl⟩ : ∃ (p : Fin 32) (k : Fin 5) (q : Fin 128), j = ix3 p k q :=
    ⟨j 0, j 1, j 2, eq_ix3 (n0 := 32) (n1 := 5) (n2 := 128) j⟩
  exact key p k q

/-- An index of the result array is in point t's block iff each coordinate is in the block's range on its axis. -/
theorem mem_blk (t : Fin cfg0.N) (i : S128x5x2048.Idx) :
    i ∈ ((cfg0.win 24).blk t).view.set ↔ ∀ a : Fin 3, win0_24.index t a * S32x5x128.size a ≤ (i a).val ∧ (i a).val < win0_24.index t a * S32x5x128.size a + S32x5x128.size a := by
  show i ∈ ((View.whole main_v24).slice (win0_24.rect t)).set ↔ _
  rw [View.set_slice_whole, Rect.mem_set_unit]
  exact Iff.rfl

/-- The 64 blocks cover the result array: index (b, k, n) is in the block of the point at (b / 32, n / 128). -/
theorem cover (i : S128x5x2048.Idx) : ∃ t : Fin cfg0.N, (cfg0.win 24).flush t = true ∧ i ∈ ((cfg0.win 24).blk t).view.set := by
  have hi0 : (i 0).val < 128 := (i 0).isLt
  have hi1 : (i 1).val < 5 := (i 1).isLt
  have hi2 : (i 2).val < 2048 := (i 2).isLt
  obtain ⟨t, ht⟩ := idx_onto ⟨(i 0).val / 32, by omega⟩ ⟨(i 2).val / 128, by omega⟩
  have q0 : win0_24.index t (0 : Fin 3) = (i 0).val / 32 := congrFun ht 0
  have q1 : win0_24.index t (1 : Fin 3) = 0 := congrFun ht 1
  have q2 : win0_24.index t (2 : Fin 3) = (i 2).val / 128 := congrFun ht 2
  refine ⟨t, flush0_24 t, ?_⟩
  rw [mem_blk]
  intro a
  match a with
  | ⟨0, _⟩ => show win0_24.index t (0 : Fin 3) * 32 ≤ (i 0).val ∧ (i 0).val < win0_24.index t (0 : Fin 3) * 32 + 32; omega
  | ⟨1, _⟩ => show win0_24.index t (1 : Fin 3) * 5 ≤ (i 1).val ∧ (i 1).val < win0_24.index t (1 : Fin 3) * 5 + 5; omega
  | ⟨2, _⟩ => show win0_24.index t (2 : Fin 3) * 128 ≤ (i 2).val ∧ (i 2).val < win0_24.index t (2 : Fin 3) * 128 + 128; omega

/-- The region's result array after the run is the step's results stacked. -/
theorem final24 (c : Dev nD) :
    ((dats m 0 c).arrAt 24 cfg0.N : S128x5x2048.Idx → EReal) = Step.stacked (argsOf m c) :=
  (dats m 0 c).arrAt_eq_of_cover 24 (Step.stacked (argsOf m c)) (fun t _ => flushed_eq m c t) cover

/-! ## The line after the region, and the run -/

/-- Reshaping the stacked results [128, 5, 2048] to [128, 10240] lays them side by side: both index by the
    row-major position 10240 b + 2048 k + n. -/
theorem flat_of_stacked (a : Step.Args) (h : S128x5x2048.ShapeCasts S128x10240) :
    shapeCast S128x10240 (Step.stacked a) h = Step.flat a := by
  funext i
  obtain ⟨b, col, rfl⟩ : ∃ (b : Fin 128) (col : Fin 10240), i = ix2 b col := ⟨i 0, i 1, eq_ix2 i⟩
  have hc : col.val < 10240 := col.isLt
  have hb : b.val < 128 := b.isLt
  rw [shapeCast_apply (Step.stacked a) h (ix2 b col)
      (ix3 b (⟨col.val / 2048, by omega⟩ : Fin 5) (⟨col.val % 2048, Nat.mod_lt _ (by omega)⟩ : Fin 2048))
      (by rw [Shape.rowMajor_val_two, Shape.rowMajor_val_three]
          show (b.val * 5 + col.val / 2048) * 2048 + col.val % 2048 = b.val * 10240 + col.val
          omega),
    Step.stacked_ix,
    Step.flat_ix a b ⟨col.val / 2048, by omega⟩ ⟨col.val % 2048, Nat.mod_lt _ (by omega)⟩ col
      (by show col.val = 2048 * (col.val / 2048) + col.val % 2048; omega)]

/-- The result buffer after the line that follows the region. -/
theorem tail25 (c : Dev nD) :
    Pipeline.afterTail₀ cfgs (dats m) 0 (V0 m) [hostOps1] c main_v25 = Step.flat (argsOf m c) := by
  unfold Pipeline.afterTail₀
  show StableHlo.after hostOps1 _ (Proc.devRef .tc main_v25) = _
  after_results
  show shapeCast S128x10240 (Pipeline.withArrays (cfgs 0).spec c (V0 m c) (fun w => (dats m 0 c).arrAt w (cfgs 0).N)
      (Proc.devRef .tc main_v24)) shapeCasts_S128x5x2048_S128x10240 = _
  rw [show Pipeline.withArrays (cfgs 0).spec c (V0 m c) (fun w => (dats m 0 c).arrAt w (cfgs 0).N) (Proc.devRef .tc main_v24)
        = Step.stacked (argsOf m c) from (Pipeline.withArrays_arr spec0 launch0.win.arr_inj c _ _ 24).trans (final24 m c)]
  exact flat_of_stacked (argsOf m c) _

set_option maxHeartbeats 1500000 in
/-- The run's post, read: the result buffer is outside the pipeline, so it holds what the line after the region
    leaves; an argument a window stages holds what the pipeline leaves in it, its entry contents; an argument no
    window stages holds what the lines around the region leave, its entry contents again. -/
theorem post_of (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v25) = Step.flat (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  ⟨(((h c).2 main_v25 (Pipeline.mem_restRefs_of main_v25 (by decide) (by decide))).trans (tail25 m c)),
      ((h c).1 0).trans ((((dats m) 0 c).arrAt_in 0 rfl _).trans ((A_eq m c 0).trans (V_main_arg0 m c))),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      ((h c).1 3).trans ((((dats m) 0 c).arrAt_in 3 rfl _).trans ((A_eq m c 3).trans (V_main_arg3 m c))),
      ((h c).1 4).trans ((((dats m) 0 c).arrAt_in 4 rfl _).trans ((A_eq m c 4).trans (V_main_arg4 m c))),
      ((h c).1 5).trans ((((dats m) 0 c).arrAt_in 5 rfl _).trans ((A_eq m c 5).trans (V_main_arg5 m c))),
      ((h c).1 6).trans ((((dats m) 0 c).arrAt_in 6 rfl _).trans ((A_eq m c 6).trans (V_main_arg6 m c))),
      ((h c).1 7).trans ((((dats m) 0 c).arrAt_in 7 rfl _).trans ((A_eq m c 7).trans (V_main_arg7 m c))),
      ((h c).1 8).trans ((((dats m) 0 c).arrAt_in 8 rfl _).trans ((A_eq m c 8).trans (V_main_arg8 m c))),
      ((h c).1 9).trans ((((dats m) 0 c).arrAt_in 9 rfl _).trans ((A_eq m c 9).trans (V_main_arg9 m c))),
      ((h c).1 10).trans ((((dats m) 0 c).arrAt_in 10 rfl _).trans ((A_eq m c 10).trans (V_main_arg10 m c))),
      ((h c).1 11).trans ((((dats m) 0 c).arrAt_in 11 rfl _).trans ((A_eq m c 11).trans (V_main_arg11 m c))),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c))⟩

/-- The kernel's run: every weakly fair execution terminates with the result at the step's results laid side by
    side, and the arguments unchanged. -/
theorem run : θ_run (defs (F := Ideal)) (onTc (τ := τ) (main (F := Ideal))) ⟨m, fun _ => 0, ρ⟩ (fun r => ∀ c : Dev nD,
      r.2.mem ((c.tc : Thread nD τ).loc main_v25) = Step.flat (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => post_of m r h c) (run_main m ρ)

end Cert.KernelIdeal.RegionValue

end
-- ==== Proof.RefFeatures.lean ====
/-
  The reference, coordinate by coordinate, up to its feature matrix.

  The reference works on the whole [128, 2048] arrays. At coordinate (b, n): each slack is reset where its
  shifted value is not positive, each ratio is the clipped quotient (jnp.clip is a maximum with the lower bound,
  then a minimum with the upper), and row 2048 b + n of the [262144, 15] feature matrix (the coordinates in
  row-major order) holds the coordinate's fifteen features.
-/
import proofs.«131924_j12919261626992_1_alg».proof.Proof.Gen.ReferenceIdeal.Read
import proofs.«131924_j12919261626992_1_alg».proof.Proof.StepSpec

import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

set_option quotPrecheck false in
/-- A [128, 2048] per-coordinate array. -/
local notation "Coords" => (⟨S128x2048, .f32⟩ : BufTy).Contents (Elt Ideal)

variable (x0 x1 x2 x3 x4 x5 x6 x7 x8 : Coords) (x9 : (⟨S128x1, .f32⟩ : BufTy).Contents (Elt Ideal))

/-! ## Where the layout operations read

The barrier weight is a [128, 1] column; its broadcast along the second axis reads row b at every coordinate
(b, n). A [128, 2048] array given a unit third axis reads (b, n) at (b, n, 0). -/

/-- The row-wise broadcast of a [128, 1] column reads (b, 0) at (b, n). -/
private theorem rowIdx (b : Fin 128) (n : Fin 2048) : idx_main_v0 (ix2 b n) = ix2 b (0 : Fin 1) := by
  funext a
  match a with
  | ⟨0, _⟩ => rfl
  | ⟨1, _⟩ => rfl

/-- A [128, 2048] array with a unit third axis added reads (b, n) at (b, n, 0). -/
private theorem liftIdx (b : Fin 128) (n : Fin 2048) : idx_main_v27 (ix3 b n (0 : Fin 1)) = ix2 b n := by
  funext a
  match a with
  | ⟨0, _⟩ => rfl
  | ⟨1, _⟩ => rfl

/-! ## The barrier weight at a coordinate

Every use of the weight broadcasts the column afresh; each broadcast reads the same row. -/

/-- The weight's row-wise broadcast (operation 0) at (b, n) is row b's weight. -/
private theorem mu0_at (b : Fin 128) (n : Fin 2048) :
    val_main_v0 (F := Ideal) x9 (ix2 b n) = x9 (ix2 b (0 : Fin 1)) :=
  (val_main_v0_apply (F := Ideal) x9 (ix2 b n)).trans (congrArg x9 (rowIdx b n))

/-- The weight's row-wise broadcast (operation 5) at (b, n) is row b's weight. -/
private theorem mu5_at (b : Fin 128) (n : Fin 2048) :
    val_main_v5 (F := Ideal) x9 (ix2 b n) = x9 (ix2 b (0 : Fin 1)) :=
  (val_main_v5_apply (F := Ideal) x9 (ix2 b n)).trans (congrArg x9 (rowIdx b n))

/-- The weight's row-wise broadcast (operation 10) at (b, n) is row b's weight. -/
private theorem mu10_at (b : Fin 128) (n : Fin 2048) :
    val_main_v10 (F := Ideal) x9 (ix2 b n) = x9 (ix2 b (0 : Fin 1)) :=
  (val_main_v10_apply (F := Ideal) x9 (ix2 b n)).trans (congrArg x9 (rowIdx b n))

/-- The weight's row-wise broadcast (operation 12) at (b, n) is row b's weight. -/
private theorem mu12_at (b : Fin 128) (n : Fin 2048) :
    val_main_v12 (F := Ideal) x9 (ix2 b n) = x9 (ix2 b (0 : Fin 1)) :=
  (val_main_v12_apply (F := Ideal) x9 (ix2 b n)).trans (congrArg x9 (rowIdx b n))

/-- The weight's row-wise broadcast (operation 18) at (b, n) is row b's weight. -/
private theorem mu18_at (b : Fin 128) (n : Fin 2048) :
    val_main_v18 (F := Ideal) x9 (ix2 b n) = x9 (ix2 b (0 : Fin 1)) :=
  (val_main_v18_apply (F := Ideal) x9 (ix2 b n)).trans (congrArg x9 (rowIdx b n))

/-- The weight's row-wise broadcast (operation 20) at (b, n) is row b's weight. -/
private theorem mu20_at (b : Fin 128) (n : Fin 2048) :
    val_main_v20 (F := Ideal) x9 (ix2 b n) = x9 (ix2 b (0 : Fin 1)) :=
  (val_main_v20_apply (F := Ideal) x9 (ix2 b n)).trans (congrArg x9 (rowIdx b n))

/-- The weight's row-wise broadcast (operation 26) at (b, n) is row b's weight. -/
private theorem mu26_at (b : Fin 128) (n : Fin 2048) :
    val_main_v26 (F := Ideal) x9 (ix2 b n) = x9 (ix2 b (0 : Fin 1)) :=
  (val_main_v26_apply (F := Ideal) x9 (ix2 b n)).trans (congrArg x9 (rowIdx b n))

/-! ## The three literals at a coordinate

A scalar literal broadcast to the whole array reads the literal everywhere; a conversion from f32 to f32 on the
way is the identity. -/

/-- The zero the first shifted slack is compared with. -/
private theorem zero2_at (i : S128x2048.Idx) : val_main_v2 (F := Ideal) i = Step.zeroL :=
  (val_main_v2_apply (F := Ideal) i).trans rfl

/-- The zero the first slack is reset to. -/
private theorem zeroW0_at (i : S128x2048.Idx) : val_main_call0_v1 (F := Ideal) i = Step.zeroL :=
  (val_main_call0_v1_apply (F := Ideal) i).trans rfl

/-- The zero the second shifted slack is compared with. -/
private theorem zero7_at (i : S128x2048.Idx) : val_main_v7 (F := Ideal) i = Step.zeroL :=
  (val_main_v7_apply (F := Ideal) i).trans rfl

/-- The zero the second slack is reset to. -/
private theorem zeroW1_at (i : S128x2048.Idx) : val_main_call1_v1 (F := Ideal) i = Step.zeroL :=
  (val_main_call1_v1_apply (F := Ideal) i).trans rfl

/-- The literal added to the first denominator. -/
private theorem eps14_at (i : S128x2048.Idx) : val_main_v14 (F := Ideal) i = Step.epsL :=
  (val_main_v14_apply (F := Ideal) i).trans rfl

/-- The first ratio's lower bound. -/
private theorem zeroC2_at (i : S128x2048.Idx) : val_main_call2_v1 (F := Ideal) i = Step.zeroL :=
  (val_main_call2_v1_apply (F := Ideal) i).trans rfl

/-- The first ratio's upper bound. -/
private theorem capC2_at (i : S128x2048.Idx) : val_main_call2_v4 (F := Ideal) i = Step.capL :=
  (val_main_call2_v4_apply (F := Ideal) i).trans rfl

/-- The literal added to the second denominator. -/
private theorem eps22_at (i : S128x2048.Idx) : val_main_v22 (F := Ideal) i = Step.epsL :=
  (val_main_v22_apply (F := Ideal) i).trans rfl

/-- The second ratio's lower bound. -/
private theorem zeroC3_at (i : S128x2048.Idx) : val_main_call3_v1 (F := Ideal) i = Step.zeroL :=
  (val_main_call3_v1_apply (F := Ideal) i).trans rfl

/-- The second ratio's upper bound. -/
private theorem capC3_at (i : S128x2048.Idx) : val_main_call3_v4 (F := Ideal) i = Step.capL :=
  (val_main_call3_v4_apply (F := Ideal) i).trans rfl

/-! ## The slacks and the ratios -/

/-- The first slack, reset where z1 + mu is not positive. -/
theorem slack1_at (b : Fin 128) (n : Fin 2048) :
    val_main_v4 (F := Ideal) x3 x9 (ix2 b n) = Step.slack (x3 (ix2 b n)) (x9 (ix2 b (0 : Fin 1))) := by
  rewrite [val_main_v4_apply, val_main_v3_apply, val_main_v1_apply, mu0_at, zero2_at, zeroW0_at]
  rfl

/-- The second slack, reset where z2 + mu is not positive. -/
theorem slack2_at (b : Fin 128) (n : Fin 2048) :
    val_main_v9 (F := Ideal) x4 x9 (ix2 b n) = Step.slack (x4 (ix2 b n)) (x9 (ix2 b (0 : Fin 1))) := by
  rewrite [val_main_v9_apply, val_main_v8_apply, val_main_v6_apply, mu5_at, zero7_at, zeroW1_at]
  rfl

/-- The first ratio. -/
theorem ratio1_at (b : Fin 128) (n : Fin 2048) :
    val_main_v17 (F := Ideal) x1 x3 x9 (ix2 b n)
      = Step.ratio (Step.slack (x3 (ix2 b n)) (x9 (ix2 b (0 : Fin 1)))) (x1 (ix2 b n)) (x9 (ix2 b (0 : Fin 1))) := by
  rewrite [val_main_v17_apply, val_main_call2_v2_apply, val_main_v16_apply, val_main_v11_apply, val_main_v15_apply,
    val_main_v13_apply, slack1_at, mu10_at, mu12_at, eps14_at, zeroC2_at, capC2_at]
  rfl

/-- The second ratio. -/
theorem ratio2_at (b : Fin 128) (n : Fin 2048) :
    val_main_v25 (F := Ideal) x2 x4 x9 (ix2 b n)
      = Step.ratio (Step.slack (x4 (ix2 b n)) (x9 (ix2 b (0 : Fin 1)))) (x2 (ix2 b n)) (x9 (ix2 b (0 : Fin 1))) := by
  rewrite [val_main_v25_apply, val_main_call3_v2_apply, val_main_v24_apply, val_main_v19_apply, val_main_v23_apply,
    val_main_v21_apply, slack2_at, mu18_at, mu20_at, eps22_at, zeroC3_at, capC3_at]
  rfl

/-! ## The feature array

The [128, 2048, 15] feature array joins fifteen [128, 2048, 1] pieces along its last axis, so its element
(b, n, κ) is piece κ at (b, n, 0); the feature matrix is that array with its first two axes merged. -/

/-- The fifteen unit-extent pieces, in the order they are joined. -/
private def pieces : Fin 15 → (S128x2048x1.Idx → EReal) :=
  ![val_main_v27 (F := Ideal) x0, val_main_v28 (F := Ideal) x1, val_main_v29 (F := Ideal) x2,
    val_main_v30 (F := Ideal) x3 x9, val_main_v31 (F := Ideal) x4 x9, val_main_v32 (F := Ideal) x0,
    val_main_v33 (F := Ideal) x3 x9, val_main_v34 (F := Ideal) x4 x9, val_main_v35 (F := Ideal) x5,
    val_main_v36 (F := Ideal) x6, val_main_v37 (F := Ideal) x7, val_main_v38 (F := Ideal) x8,
    val_main_v39 (F := Ideal) x9, val_main_v40 (F := Ideal) x1 x3 x9, val_main_v41 (F := Ideal) x2 x4 x9]

/-- The feature array is the join of those pieces. -/
private theorem v42_ofFn :
    val_main_v42 (F := Ideal) x0 x1 x2 x3 x4 x5 x6 x7 x8 x9
      = concatenate S128x2048x15 2
          (List.ofFn fun k : Fin 15 => (⟨S128x2048x1, pieces x0 x1 x2 x3 x4 x5 x6 x7 x8 x9 k⟩ : (s : Shape) × (s.Idx → EReal)))
          concatenates_S128x2048x1_S128x2048x1_S128x2048x1_S128x2048x1_S128x2048x1_S128x2048x1_S128x2048x1_S128x2048x1_S128x2048x1_S128x2048x1_S128x2048x1_S128x2048x1_S128x2048x1_S128x2048x1_S128x2048x1_S128x2048x15_d2 := rfl

/-- Element (b, n, κ) of the feature array is piece κ at (b, n, 0). -/
private theorem v42_at (b : Fin 128) (n : Fin 2048) (κ : Fin 15) :
    val_main_v42 (F := Ideal) x0 x1 x2 x3 x4 x5 x6 x7 x8 x9 (ix3 b n κ) = pieces x0 x1 x2 x3 x4 x5 x6 x7 x8 x9 κ (ix3 b n (0 : Fin 1)) := by
  refine (congrFun (v42_ofFn x0 x1 x2 x3 x4 x5 x6 x7 x8 x9) (ix3 b n κ)).trans ?_
  exact concatenate_ofFn_unit_apply (2 : Fin S128x2048x15.rank) (pieces x0 x1 x2 x3 x4 x5 x6 x7 x8 x9) concatenates_S128x2048x1_S128x2048x1_S128x2048x1_S128x2048x1_S128x2048x1_S128x2048x1_S128x2048x1_S128x2048x1_S128x2048x1_S128x2048x1_S128x2048x1_S128x2048x1_S128x2048x1_S128x2048x1_S128x2048x1_S128x2048x15_d2 rfl rfl
    (ix3 b n κ) κ rfl (ix3 b n (0 : Fin 1))
    (fun c hc => match c, hc with
      | ⟨0, _⟩, _ => rfl
      | ⟨1, _⟩, _ => rfl
      | ⟨2, _⟩, hc => absurd rfl hc)

/-- Piece κ at (b, n, 0) is feature κ of coordinate (b, n). -/
private theorem pieces_at (b : Fin 128) (n : Fin 2048) (κ : Fin 15) :
    pieces x0 x1 x2 x3 x4 x5 x6 x7 x8 x9 κ (ix3 b n (0 : Fin 1))
      = Step.feat (x0 (ix2 b n)) (x1 (ix2 b n)) (x2 (ix2 b n)) (x3 (ix2 b n)) (x4 (ix2 b n)) (x5 (ix2 b n))
          (x6 (ix2 b n)) (x7 (ix2 b n)) (x8 (ix2 b n)) (x9 (ix2 b (0 : Fin 1))) κ := by
  rcases κ with ⟨k, hk⟩
  interval_cases k
  · show val_main_v27 (F := Ideal) x0 (ix3 b n (0 : Fin 1)) = x0 (ix2 b n)
    exact (val_main_v27_apply (F := Ideal) x0 (ix3 b n (0 : Fin 1))).trans (congrArg x0 (liftIdx b n))
  · show val_main_v28 (F := Ideal) x1 (ix3 b n (0 : Fin 1)) = x1 (ix2 b n)
    exact (val_main_v28_apply (F := Ideal) x1 (ix3 b n (0 : Fin 1))).trans (congrArg x1 (liftIdx b n))
  · show val_main_v29 (F := Ideal) x2 (ix3 b n (0 : Fin 1)) = x2 (ix2 b n)
    exact (val_main_v29_apply (F := Ideal) x2 (ix3 b n (0 : Fin 1))).trans (congrArg x2 (liftIdx b n))
  · show val_main_v30 (F := Ideal) x3 x9 (ix3 b n (0 : Fin 1)) = Step.slack (x3 (ix2 b n)) (x9 (ix2 b (0 : Fin 1)))
    exact (val_main_v30_apply (F := Ideal) x3 x9 (ix3 b n (0 : Fin 1))).trans
      ((congrArg (val_main_v4 (F := Ideal) x3 x9) (liftIdx b n)).trans (slack1_at x3 x9 b n))
  · show val_main_v31 (F := Ideal) x4 x9 (ix3 b n (0 : Fin 1)) = Step.slack (x4 (ix2 b n)) (x9 (ix2 b (0 : Fin 1)))
    exact (val_main_v31_apply (F := Ideal) x4 x9 (ix3 b n (0 : Fin 1))).trans
      ((congrArg (val_main_v9 (F := Ideal) x4 x9) (liftIdx b n)).trans (slack2_at x4 x9 b n))
  · show val_main_v32 (F := Ideal) x0 (ix3 b n (0 : Fin 1)) = x0 (ix2 b n)
    exact (val_main_v32_apply (F := Ideal) x0 (ix3 b n (0 : Fin 1))).trans (congrArg x0 (liftIdx b n))
  · show val_main_v33 (F := Ideal) x3 x9 (ix3 b n (0 : Fin 1)) = Step.slack (x3 (ix2 b n)) (x9 (ix2 b (0 : Fin 1)))
    exact (val_main_v33_apply (F := Ideal) x3 x9 (ix3 b n (0 : Fin 1))).trans
      ((congrArg (val_main_v4 (F := Ideal) x3 x9) (liftIdx b n)).trans (slack1_at x3 x9 b n))
  · show val_main_v34 (F := Ideal) x4 x9 (ix3 b n (0 : Fin 1)) = Step.slack (x4 (ix2 b n)) (x9 (ix2 b (0 : Fin 1)))
    exact (val_main_v34_apply (F := Ideal) x4 x9 (ix3 b n (0 : Fin 1))).trans
      ((congrArg (val_main_v9 (F := Ideal) x4 x9) (liftIdx b n)).trans (slack2_at x4 x9 b n))
  · show val_main_v35 (F := Ideal) x5 (ix3 b n (0 : Fin 1)) = x5 (ix2 b n)
    exact (val_main_v35_apply (F := Ideal) x5 (ix3 b n (0 : Fin 1))).trans (congrArg x5 (liftIdx b n))
  · show val_main_v36 (F := Ideal) x6 (ix3 b n (0 : Fin 1)) = x6 (ix2 b n)
    exact (val_main_v36_apply (F := Ideal) x6 (ix3 b n (0 : Fin 1))).trans (congrArg x6 (liftIdx b n))
  · show val_main_v37 (F := Ideal) x7 (ix3 b n (0 : Fin 1)) = x7 (ix2 b n)
    exact (val_main_v37_apply (F := Ideal) x7 (ix3 b n (0 : Fin 1))).trans (congrArg x7 (liftIdx b n))
  · show val_main_v38 (F := Ideal) x8 (ix3 b n (0 : Fin 1)) = x8 (ix2 b n)
    exact (val_main_v38_apply (F := Ideal) x8 (ix3 b n (0 : Fin 1))).trans (congrArg x8 (liftIdx b n))
  · show val_main_v39 (F := Ideal) x9 (ix3 b n (0 : Fin 1)) = x9 (ix2 b (0 : Fin 1))
    exact (val_main_v39_apply (F := Ideal) x9 (ix3 b n (0 : Fin 1))).trans
      ((congrArg (val_main_v26 (F := Ideal) x9) (liftIdx b n)).trans (mu26_at x9 b n))
  · show val_main_v40 (F := Ideal) x1 x3 x9 (ix3 b n (0 : Fin 1)) = Step.ratio (Step.slack (x3 (ix2 b n)) (x9 (ix2 b (0 : Fin 1)))) (x1 (ix2 b n)) (x9 (ix2 b (0 : Fin 1)))
    exact (val_main_v40_apply (F := Ideal) x1 x3 x9 (ix3 b n (0 : Fin 1))).trans
      ((congrArg (val_main_v17 (F := Ideal) x1 x3 x9) (liftIdx b n)).trans (ratio1_at x1 x3 x9 b n))
  · show val_main_v41 (F := Ideal) x2 x4 x9 (ix3 b n (0 : Fin 1)) = Step.ratio (Step.slack (x4 (ix2 b n)) (x9 (ix2 b (0 : Fin 1)))) (x2 (ix2 b n)) (x9 (ix2 b (0 : Fin 1)))
    exact (val_main_v41_apply (F := Ideal) x2 x4 x9 (ix3 b n (0 : Fin 1))).trans
      ((congrArg (val_main_v25 (F := Ideal) x2 x4 x9) (liftIdx b n)).trans (ratio2_at x2 x4 x9 b n))

/-- Row 2048 b + n of the feature matrix is coordinate (b, n)'s fifteen features. -/
theorem feat_at (b : Fin 128) (n : Fin 2048) (R : Fin 262144) (hR : R.val = 2048 * b.val + n.val) (κ : Fin 15) :
    val_main_v43 (F := Ideal) x0 x1 x2 x3 x4 x5 x6 x7 x8 x9 (ix2 R κ)
      = Step.feat (x0 (ix2 b n)) (x1 (ix2 b n)) (x2 (ix2 b n)) (x3 (ix2 b n)) (x4 (ix2 b n)) (x5 (ix2 b n))
          (x6 (ix2 b n)) (x7 (ix2 b n)) (x8 (ix2 b n)) (x9 (ix2 b (0 : Fin 1))) κ := by
  -- row-major position 15 R + κ = (2048 b + n) 15 + κ splits back into (b, n, κ)
  have hb := b.isLt
  have hn := n.isLt
  have hκ := κ.isLt
  have hidx : idx_main_v43 (ix2 R κ) = ix3 b n κ := by
    funext a
    match a with
    | ⟨0, _⟩ => exact Fin.ext (by show (R.val * 15 + κ.val) / 30720 = b.val; omega)
    | ⟨1, _⟩ => exact Fin.ext (by show (R.val * 15 + κ.val) / 15 % 2048 = n.val; omega)
    | ⟨2, _⟩ => exact Fin.ext (by show (R.val * 15 + κ.val) % 15 = κ.val; omega)
  rewrite [val_main_v43_apply, hidx, v42_at]
  exact pieces_at x0 x1 x2 x3 x4 x5 x6 x7 x8 x9 b n κ

end Cert.ReferenceIdeal.RefValue

end
-- ==== Proof.RefHidden.lean ====
/-
  The reference's LSTM cell on the [262144, 15] feature matrix, row by row.

  One [262144, 15] x [15, 512] product against the transposed input weights gives all four gates' linear parts
  at once; the two biases are added one after the other; columns 0…127, 256…383 and 384…511 are the input, cell
  and output gates (128…255, the forget gate, meets a zero cell state and is not read). Adding the biases one
  after the other is adding their sum: addition of extended reals is associative. The sigmoid is spelt
  1 / (1 + exp (-v)), which is what the logistic function is.
-/
import proofs.«131924_j12919261626992_1_alg».proof.Proof.Gen.ReferenceIdeal.Read
import proofs.«131924_j12919261626992_1_alg».proof.Proof.StepSpec
import proofs.«131924_j12919261626992_1_alg».proof.Proof.LibPlainDot
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

set_option quotPrecheck false in
/-- A [128, 2048] per-coordinate array. -/
local notation "Coords" => (⟨S128x2048, .f32⟩ : BufTy).Contents (Elt Ideal)

variable (x0 x1 x2 x3 x4 x5 x6 x7 x8 : Coords) (x9 : (⟨S128x1, .f32⟩ : BufTy).Contents (Elt Ideal))
variable (x14 : (⟨S512x15, .f32⟩ : BufTy).Contents (Elt Ideal)) (x16 x17 : (⟨S512, .f32⟩ : BufTy).Contents (Elt Ideal))

/-! ### The product against the transposed weights, and the two biases, at an entry -/

/-- Entry (R, c) of the product: row R of the features against row c of the input weights (the transpose only
    swaps the two coordinates of the weight that is read). -/
theorem dot_col (R : Fin 262144) (c : Fin 512) :
    val_main_v45 (F := Ideal) x0 x1 x2 x3 x4 x5 x6 x7 x8 x9 x14 (ix2 R c)
      = ∑ κ : Fin 15, val_main_v43 (F := Ideal) x0 x1 x2 x3 x4 x5 x6 x7 x8 x9 (ix2 R κ) * x14 (ix2 c κ) := by
  refine (val_main_v45_apply x0 x1 x2 x3 x4 x5 x6 x7 x8 x9 x14 (ix2 R c)).trans ?_
  refine Finset.sum_congr rfl fun κ _ => ?_
  have hl : lidx_main_v45 (ix2 R c) κ = ix2 R κ := by
    funext a
    match a with
    | ⟨0, _⟩ => rfl
    | ⟨1, _⟩ => rfl
  have hr : idx_main_v44 (ridx_main_v45 (ix2 R c) κ) = ix2 c κ := by
    funext a
    match a with
    | ⟨0, _⟩ => rfl
    | ⟨1, _⟩ => rfl
  exact congrArg₂ (· * ·) (congrArg (val_main_v43 (F := Ideal) x0 x1 x2 x3 x4 x5 x6 x7 x8 x9) hl)
    ((val_main_v44_apply x14 _).trans (congrArg x14 hr))

/-- The first bias, broadcast along the rows: entry (R, c) is its entry c. -/
theorem bias1_col (R : Fin 262144) (c : Fin 512) : val_main_v47 (F := Ideal) x16 (ix2 R c) = x16 (ix1 c) := by
  refine (val_main_v47_apply x16 (ix2 R c)).trans ?_
  refine (val_main_v46_apply x16 _).trans ?_
  refine congrArg x16 ?_
  funext a
  match a with
  | ⟨0, _⟩ => rfl

/-- The second bias, broadcast along the rows: entry (R, c) is its entry c. -/
theorem bias2_col (R : Fin 262144) (c : Fin 512) : val_main_v50 (F := Ideal) x17 (ix2 R c) = x17 (ix1 c) := by
  refine (val_main_v50_apply x17 (ix2 R c)).trans ?_
  refine (val_main_v49_apply x17 _).trans ?_
  refine congrArg x17 ?_
  funext a
  match a with
  | ⟨0, _⟩ => rfl

/-- Column c of the four gates' linear parts at row R: the features against row c of the weights, plus the sum of
    the two biases' entries c. The program adds the biases one after the other; addition is associative. -/
theorem gate_col (R : Fin 262144) (c : Fin 512) :
    val_main_v51 (F := Ideal) x0 x1 x2 x3 x4 x5 x6 x7 x8 x9 x14 x16 x17 (ix2 R c)
      = (∑ κ : Fin 15, val_main_v43 (F := Ideal) x0 x1 x2 x3 x4 x5 x6 x7 x8 x9 (ix2 R κ) * x14 (ix2 c κ)) + (x16 (ix1 c) + x17 (ix1 c)) := by
  show (val_main_v45 (F := Ideal) x0 x1 x2 x3 x4 x5 x6 x7 x8 x9 x14 (ix2 R c) + val_main_v47 (F := Ideal) x16 (ix2 R c))
      + val_main_v50 (F := Ideal) x17 (ix2 R c) = _
  rw [dot_col, bias1_col, bias2_col, add_assoc]

/-! ### The three column slices: the gates' linear parts -/

/-- Column j of the slice at 0 is column 0 + j. -/
theorem slice_in (R : Fin 262144) (j : Fin 128) : idx_main_v52 (ix2 R j) = ix2 R (Step.gateRow 0 (by omega) j) := by
  funext a
  match a with
  | ⟨0, _⟩ => rfl
  | ⟨1, _⟩ => exact Fin.ext (by show j.val = 0 + j.val; omega)

/-- Column j of the slice at 256 is column 256 + j. -/
theorem slice_cell (R : Fin 262144) (j : Fin 128) : idx_main_v54 (ix2 R j) = ix2 R (Step.gateRow 256 (by omega) j) := by
  funext a
  match a with
  | ⟨0, _⟩ => rfl
  | ⟨1, _⟩ => rfl

/-- Column j of the slice at 384 is column 384 + j. -/
theorem slice_out (R : Fin 262144) (j : Fin 128) : idx_main_v55 (ix2 R j) = ix2 R (Step.gateRow 384 (by omega) j) := by
  funext a
  match a with
  | ⟨0, _⟩ => rfl
  | ⟨1, _⟩ => rfl

/-- The input gate before its sigmoid. -/
theorem lin_in (R : Fin 262144) (j : Fin 128) :
    val_main_v52 (F := Ideal) x0 x1 x2 x3 x4 x5 x6 x7 x8 x9 x14 x16 x17 (ix2 R j)
      = Step.gate (fun κ => val_main_v43 (F := Ideal) x0 x1 x2 x3 x4 x5 x6 x7 x8 x9 (ix2 R κ)) (Step.gateW x14 0 (by omega)) (Step.gateB x16 x17 0 (by omega)) j := by
  refine (val_main_v52_apply x0 x1 x2 x3 x4 x5 x6 x7 x8 x9 x14 x16 x17 (ix2 R j)).trans ?_
  refine (congrArg (val_main_v51 (F := Ideal) x0 x1 x2 x3 x4 x5 x6 x7 x8 x9 x14 x16 x17) (slice_in R j)).trans ?_
  exact gate_col x0 x1 x2 x3 x4 x5 x6 x7 x8 x9 x14 x16 x17 R (Step.gateRow 0 (by omega) j)

/-- The cell gate before its hyperbolic tangent. -/
theorem lin_cell (R : Fin 262144) (j : Fin 128) :
    val_main_v54 (F := Ideal) x0 x1 x2 x3 x4 x5 x6 x7 x8 x9 x14 x16 x17 (ix2 R j)
      = Step.gate (fun κ => val_main_v43 (F := Ideal) x0 x1 x2 x3 x4 x5 x6 x7 x8 x9 (ix2 R κ)) (Step.gateW x14 256 (by omega)) (Step.gateB x16 x17 256 (by omega)) j := by
  refine (val_main_v54_apply x0 x1 x2 x3 x4 x5 x6 x7 x8 x9 x14 x16 x17 (ix2 R j)).trans ?_
  refine (congrArg (val_main_v51 (F := Ideal) x0 x1 x2 x3 x4 x5 x6 x7 x8 x9 x14 x16 x17) (slice_cell R j)).trans ?_
  exact gate_col x0 x1 x2 x3 x4 x5 x6 x7 x8 x9 x14 x16 x17 R (Step.gateRow 256 (by omega) j)

/-- The output gate before its sigmoid. -/
theorem lin_out (R : Fin 262144) (j : Fin 128) :
    val_main_v55 (F := Ideal) x0 x1 x2 x3 x4 x5 x6 x7 x8 x9 x14 x16 x17 (ix2 R j)
      = Step.gate (fun κ => val_main_v43 (F := Ideal) x0 x1 x2 x3 x4 x5 x6 x7 x8 x9 (ix2 R κ)) (Step.gateW x14 384 (by omega)) (Step.gateB x16 x17 384 (by omega)) j := by
  refine (val_main_v55_apply x0 x1 x2 x3 x4 x5 x6 x7 x8 x9 x14 x16 x17 (ix2 R j)).trans ?_
  refine (congrArg (val_main_v51 (F := Ideal) x0 x1 x2 x3 x4 x5 x6 x7 x8 x9 x14 x16 x17) (slice_out R j)).trans ?_
  exact gate_col x0 x1 x2 x3 x4 x5 x6 x7 x8 x9 x14 x16 x17 R (Step.gateRow 384 (by omega) j)

/-! ### The sigmoid as the program spells it -/

/-- 1 / (1 + exp (-v)), with the literal 1.0 as its word, is the logistic function of v. -/
theorem sigmoid_spelt (v : EReal) :
    Ideal.div (Ideal.ofBits .f32 0x3F800000#32) (Ideal.ofBits .f32 0x3F800000#32 + Ideal.exp (-v)) = Ideal.logistic v := by
  rw [Ideal.ofBits_one_f32]
  rfl

/-- The input gate's sigmoid. -/
theorem sig_in (R : Fin 262144) (j : Fin 128) :
    val_main_v61 (F := Ideal) x0 x1 x2 x3 x4 x5 x6 x7 x8 x9 x14 x16 x17 (ix2 R j) = Ideal.logistic (val_main_v52 (F := Ideal) x0 x1 x2 x3 x4 x5 x6 x7 x8 x9 x14 x16 x17 (ix2 R j)) :=
  sigmoid_spelt (val_main_v52 (F := Ideal) x0 x1 x2 x3 x4 x5 x6 x7 x8 x9 x14 x16 x17 (ix2 R j))

/-- The output gate's sigmoid. -/
theorem sig_out (R : Fin 262144) (j : Fin 128) :
    val_main_v69 (F := Ideal) x0 x1 x2 x3 x4 x5 x6 x7 x8 x9 x14 x16 x17 (ix2 R j) = Ideal.logistic (val_main_v55 (F := Ideal) x0 x1 x2 x3 x4 x5 x6 x7 x8 x9 x14 x16 x17 (ix2 R j)) :=
  sigmoid_spelt (val_main_v55 (F := Ideal) x0 x1 x2 x3 x4 x5 x6 x7 x8 x9 x14 x16 x17 (ix2 R j))

/-! ### The cell's output -/

/-- Entry (R, j) of the cell's output from row R of the feature matrix. -/
theorem hidden_at (R : Fin 262144) (j : Fin 128) :
    val_main_v71 (F := Ideal) x0 x1 x2 x3 x4 x5 x6 x7 x8 x9 x14 x16 x17 (ix2 R j)
      = Step.hidden (fun κ => val_main_v43 (F := Ideal) x0 x1 x2 x3 x4 x5 x6 x7 x8 x9 (ix2 R κ))
          (Step.gateW x14 0 (by omega)) (Step.gateW x14 256 (by omega)) (Step.gateW x14 384 (by omega))
          (Step.gateB x16 x17 0 (by omega)) (Step.gateB x16 x17 256 (by omega)) (Step.gateB x16 x17 384 (by omega)) j := by
  show val_main_v69 (F := Ideal) x0 x1 x2 x3 x4 x5 x6 x7 x8 x9 x14 x16 x17 (ix2 R j)
      * Ideal.tanh (val_main_v61 (F := Ideal) x0 x1 x2 x3 x4 x5 x6 x7 x8 x9 x14 x16 x17 (ix2 R j) * Ideal.tanh (val_main_v54 (F := Ideal) x0 x1 x2 x3 x4 x5 x6 x7 x8 x9 x14 x16 x17 (ix2 R j))) = _
  rw [sig_out, sig_in, lin_in, lin_cell, lin_out]
  rfl

end Cert.ReferenceIdeal.RefValue

end
-- ==== Proof.RefStep.lean ====
/-
  The reference's head and step size, coordinate by coordinate.

  A [262144, 128] x [128, 128] product against the transposed first layer, its bias, relu, a [262144, 128] x [128, 1]
  product against the transposed second layer, its bias, the absolute value; the [262144, 1] column reshaped to
  [128, 2048] puts row 2048 b + n at coordinate (b, n).
-/
import proofs.«131924_j12919261626992_1_alg».proof.Proof.Gen.ReferenceIdeal.Read
import proofs.«131924_j12919261626992_1_alg».proof.Proof.StepSpec
import proofs.«131924_j12919261626992_1_alg».proof.Proof.LibPlainDot
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

set_option quotPrecheck false in
/-- A [128, 2048] per-coordinate array. -/
local notation "Coords" => (⟨S128x2048, .f32⟩ : BufTy).Contents (Elt Ideal)

variable (x0 x1 x2 x3 x4 x5 x6 x7 x8 : Coords) (x9 : (⟨S128x1, .f32⟩ : BufTy).Contents (Elt Ideal))
variable (x14 : (⟨S512x15, .f32⟩ : BufTy).Contents (Elt Ideal)) (x16 x17 : (⟨S512, .f32⟩ : BufTy).Contents (Elt Ideal))
variable (x18 : (⟨S128x128, .f32⟩ : BufTy).Contents (Elt Ideal)) (x19 : (⟨S128, .f32⟩ : BufTy).Contents (Elt Ideal))
    (x20 : (⟨S1x128, .f32⟩ : BufTy).Contents (Elt Ideal)) (x21 : (⟨S1, .f32⟩ : BufTy).Contents (Elt Ideal))

/-- The reshape reads row 2048 b + n of the column. -/
theorem idx84_at (b : Fin 128) (n : Fin 2048) (R : Fin 262144) (hR : R.val = 2048 * b.val + n.val) :
    idx_main_v84 (ix2 b n) = ix2 R (0 : Fin 1) := by
  funext a
  match a with
  | ⟨0, _⟩ => exact Fin.ext (by show (b.val * 2048 + n.val) / 1 = R.val; omega)
  | ⟨1, _⟩ => rfl

/-- The first product's left operand at (R, c), summand k: row R, column k. -/
theorem lidx73_at (R : Fin 262144) (c k : Fin 128) : lidx_main_v73 (ix2 R c) k = ix2 R k := by
  funext a
  match a with
  | ⟨0, _⟩ => rfl
  | ⟨1, _⟩ => rfl

/-- The first layer, transposed and read at the first product's right index, is entry (c, k) of the layer. -/
theorem w1_at (R : Fin 262144) (c k : Fin 128) : idx_main_v72 (ridx_main_v73 (ix2 R c) k) = ix2 c k := by
  funext a
  match a with
  | ⟨0, _⟩ => rfl
  | ⟨1, _⟩ => rfl

/-- The first bias, broadcast twice, read at (R, c) is its entry c. -/
theorem b1_at (R : Fin 262144) (c : Fin 128) : idx_main_v74 (idx_main_v75 (ix2 R c)) = ix1 c := by
  funext a
  match a with
  | ⟨0, _⟩ => rfl

/-- The second product's left operand at (R, c), summand k: row R, column k. -/
theorem lidx79_at (R : Fin 262144) (c : Fin 1) (k : Fin 128) : lidx_main_v79 (ix2 R c) k = ix2 R k := by
  funext a
  match a with
  | ⟨0, _⟩ => rfl
  | ⟨1, _⟩ => rfl

/-- The second layer, transposed and read at the second product's right index, is entry (0, k) of the layer. -/
theorem w2_at (R : Fin 262144) (k : Fin 128) :
    idx_main_v78 (ridx_main_v79 (ix2 R (0 : Fin 1)) k) = ix2 (0 : Fin 1) k := by
  funext a
  match a with
  | ⟨0, _⟩ => rfl
  | ⟨1, _⟩ => rfl

/-- The second bias, broadcast twice, is its only entry. -/
theorem b2_at (R : Fin 262144) : idx_main_v80 (idx_main_v81 (ix2 R (0 : Fin 1))) = ix1 (0 : Fin 1) := by
  funext a
  match a with
  | ⟨0, _⟩ => rfl

/-- The first layer with its bias at (R, c): row R of the cell's output against row c of the layer, plus bias c. -/
theorem v76_at (R : Fin 262144) (c : Fin 128) :
    val_main_v76 (F := Ideal) x0 x1 x2 x3 x4 x5 x6 x7 x8 x9 x14 x16 x17 x18 x19 (ix2 R c)
      = (∑ k : Fin 128, val_main_v71 (F := Ideal) x0 x1 x2 x3 x4 x5 x6 x7 x8 x9 x14 x16 x17 (ix2 R k) * x18 (ix2 c k)) + x19 (ix1 c) := by
  show val_main_v73 (F := Ideal) x0 x1 x2 x3 x4 x5 x6 x7 x8 x9 x14 x16 x17 x18 (ix2 R c) + val_main_v75 (F := Ideal) x19 (ix2 R c) = _
  rw [val_main_v73_apply, val_main_v75_apply, val_main_v74_apply, b1_at]
  refine congrArg (· + x19 (ix1 c)) (Finset.sum_congr rfl fun k _ => ?_)
  rw [lidx73_at, val_main_v72_apply, w1_at]

/-- The relu at (R, c): the larger of the first layer's value and the literal zero. -/
theorem v77_at (R : Fin 262144) (c : Fin 128) :
    val_main_v77 (F := Ideal) x0 x1 x2 x3 x4 x5 x6 x7 x8 x9 x14 x16 x17 x18 x19 (ix2 R c)
      = max ((∑ k : Fin 128, val_main_v71 (F := Ideal) x0 x1 x2 x3 x4 x5 x6 x7 x8 x9 x14 x16 x17 (ix2 R k) * x18 (ix2 c k)) + x19 (ix1 c)) Step.zeroL := by
  show max (val_main_v76 (F := Ideal) x0 x1 x2 x3 x4 x5 x6 x7 x8 x9 x14 x16 x17 x18 x19 (ix2 R c)) (val_main_call4_v0 (F := Ideal) (ix2 R c)) = _
  rw [v76_at, val_main_call4_v0_apply]
  rfl

/-- The second layer with its bias at row R. -/
theorem v82_at (R : Fin 262144) :
    val_main_v82 (F := Ideal) x0 x1 x2 x3 x4 x5 x6 x7 x8 x9 x14 x16 x17 x18 x19 x20 x21 (ix2 R (0 : Fin 1))
      = (∑ k : Fin 128, max ((∑ j : Fin 128, val_main_v71 (F := Ideal) x0 x1 x2 x3 x4 x5 x6 x7 x8 x9 x14 x16 x17 (ix2 R j) * x18 (ix2 k j)) + x19 (ix1 k)) Step.zeroL
            * x20 (ix2 (0 : Fin 1) k)) + x21 (ix1 (0 : Fin 1)) := by
  show val_main_v79 (F := Ideal) x0 x1 x2 x3 x4 x5 x6 x7 x8 x9 x14 x16 x17 x18 x19 x20 (ix2 R (0 : Fin 1)) + val_main_v81 (F := Ideal) x21 (ix2 R (0 : Fin 1)) = _
  rw [val_main_v79_apply, val_main_v81_apply, val_main_v80_apply, b2_at]
  refine congrArg (· + x21 (ix1 (0 : Fin 1))) (Finset.sum_congr rfl fun k _ => ?_)
  rw [lidx79_at, v77_at, val_main_v78_apply, w2_at]

/-- The step size at coordinate (b, n) from row 2048 b + n of the cell's output. -/
theorem step_at (b : Fin 128) (n : Fin 2048) (R : Fin 262144) (hR : R.val = 2048 * b.val + n.val) :
    val_main_v84 (F := Ideal) x0 x1 x2 x3 x4 x5 x6 x7 x8 x9 x14 x16 x17 x18 x19 x20 x21 (ix2 b n)
      = Step.stepSize (fun j => val_main_v71 (F := Ideal) x0 x1 x2 x3 x4 x5 x6 x7 x8 x9 x14 x16 x17 (ix2 R j))
          (fun j j' => x18 (ix2 j' j)) (fun j' => x19 (ix1 j')) (fun j' => x20 (ix2 (0 : Fin 1) j')) (x21 (ix1 (0 : Fin 1))) := by
  rw [val_main_v84_apply, idx84_at b n R hR]
  show max (val_main_v82 (F := Ideal) x0 x1 x2 x3 x4 x5 x6 x7 x8 x9 x14 x16 x17 x18 x19 x20 x21 (ix2 R (0 : Fin 1)))
      (-(val_main_v82 (F := Ideal) x0 x1 x2 x3 x4 x5 x6 x7 x8 x9 x14 x16 x17 x18 x19 x20 x21 (ix2 R (0 : Fin 1)))) = _
  rw [v82_at]
  rfl

end Cert.ReferenceIdeal.RefValue

end
-- ==== Proof.RefMoved.lean ====
/-
  The reference's five results at a coordinate, from its step size, reset slacks and ratios.

  The reference negates the step size where the kernel subtracts it from zero: the same extended real.
-/
import proofs.«131924_j12919261626992_1_alg».proof.Proof.Gen.ReferenceIdeal.Read
import proofs.«131924_j12919261626992_1_alg».proof.Proof.StepSpec

import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

set_option quotPrecheck false in
/-- A [128, 2048] per-coordinate array. -/
local notation "Coords" => (⟨S128x2048, .f32⟩ : BufTy).Contents (Elt Ideal)

variable (x0 x1 x2 x3 x4 x5 x6 x7 x8 : Coords) (x9 : (⟨S128x1, .f32⟩ : BufTy).Contents (Elt Ideal)) (x10 x11 : Coords)
variable (x12 x13 : (⟨S128x2048, .i1⟩ : BufTy).Contents (Elt Ideal))
variable (x14 : (⟨S512x15, .f32⟩ : BufTy).Contents (Elt Ideal)) (x16 x17 : (⟨S512, .f32⟩ : BufTy).Contents (Elt Ideal))
variable (x18 : (⟨S128x128, .f32⟩ : BufTy).Contents (Elt Ideal)) (x19 : (⟨S128, .f32⟩ : BufTy).Contents (Elt Ideal))
    (x20 : (⟨S1x128, .f32⟩ : BufTy).Contents (Elt Ideal)) (x21 : (⟨S1, .f32⟩ : BufTy).Contents (Elt Ideal))

/-- Zero minus p is the negation of p: the literal 0.0 is the extended reals' zero. -/
private theorem zeroL_sub (p : EReal) : Step.zeroL - p = -p := by
  rw [show Step.zeroL = (0 : EReal) from Ideal.ofBits_zero_f32, zero_sub]

/-- The five results with the step size negated instead of subtracted from zero. -/
private theorem moved_neg (p x s1 s2 r1 r2 lb ub : EReal) (hl hu : BitVec 1) :
    Step.moved p x s1 s2 r1 r2 lb ub hl hu =
      ![x + (-p) * x,
        Scalar.select hl ((x + (-p) * x) - lb) Step.zeroL,
        Scalar.select hu (ub - (x + (-p) * x)) Step.zeroL,
        s1 - r1 * ((-p) * x + s1),
        s2 - r2 * (p * x + s2)] := by
  unfold Step.moved
  rw [zeroL_sub]

/-- The constant zero spread over the coordinates reads the literal 0.0 everywhere (the first distance's fill). -/
private theorem zeros1_at (i : S128x2048.Idx) : val_main_call5_v1 (F := Ideal) i = Step.zeroL :=
  (val_main_call5_v1_apply (F := Ideal) i).trans rfl

/-- The same for the second distance's fill. -/
private theorem zeros2_at (i : S128x2048.Idx) : val_main_call6_v1 (F := Ideal) i = Step.zeroL :=
  (val_main_call6_v1_apply (F := Ideal) i).trans rfl

/-- The moved x. -/
theorem moved0_at (b : Fin 128) (n : Fin 2048) :
    val_main_v87 (F := Ideal) x0 x1 x2 x3 x4 x5 x6 x7 x8 x9 x14 x16 x17 x18 x19 x20 x21 (ix2 b n) = Step.moved (val_main_v84 (F := Ideal) x0 x1 x2 x3 x4 x5 x6 x7 x8 x9 x14 x16 x17 x18 x19 x20 x21 (ix2 b n)) (x0 (ix2 b n))
          (val_main_v4 (F := Ideal) x3 x9 (ix2 b n)) (val_main_v9 (F := Ideal) x4 x9 (ix2 b n))
          (val_main_v17 (F := Ideal) x1 x3 x9 (ix2 b n)) (val_main_v25 (F := Ideal) x2 x4 x9 (ix2 b n))
          (x10 (ix2 b n)) (x11 (ix2 b n)) (x12 (ix2 b n)) (x13 (ix2 b n)) 0 := by
  rw [moved_neg]
  rfl
/-- The first distance, recomputed from the moved x where its flag is set. -/
theorem moved1_at (b : Fin 128) (n : Fin 2048) :
    val_main_v98 (F := Ideal) x0 x1 x2 x3 x4 x5 x6 x7 x8 x9 x10 x12 x14 x16 x17 x18 x19 x20 x21 (ix2 b n) = Step.moved (val_main_v84 (F := Ideal) x0 x1 x2 x3 x4 x5 x6 x7 x8 x9 x14 x16 x17 x18 x19 x20 x21 (ix2 b n)) (x0 (ix2 b n))
          (val_main_v4 (F := Ideal) x3 x9 (ix2 b n)) (val_main_v9 (F := Ideal) x4 x9 (ix2 b n))
          (val_main_v17 (F := Ideal) x1 x3 x9 (ix2 b n)) (val_main_v25 (F := Ideal) x2 x4 x9 (ix2 b n))
          (x10 (ix2 b n)) (x11 (ix2 b n)) (x12 (ix2 b n)) (x13 (ix2 b n)) 1 := by
  rw [moved_neg]
  exact (val_main_v98_apply (F := Ideal) x0 x1 x2 x3 x4 x5 x6 x7 x8 x9 x10 x12 x14 x16 x17 x18 x19 x20 x21 (ix2 b n)).trans
    (congrArg (Scalar.select (x12 (ix2 b n)) _) (zeros1_at (ix2 b n)))
/-- The second distance. -/
theorem moved2_at (b : Fin 128) (n : Fin 2048) :
    val_main_v100 (F := Ideal) x0 x1 x2 x3 x4 x5 x6 x7 x8 x9 x11 x13 x14 x16 x17 x18 x19 x20 x21 (ix2 b n) = Step.moved (val_main_v84 (F := Ideal) x0 x1 x2 x3 x4 x5 x6 x7 x8 x9 x14 x16 x17 x18 x19 x20 x21 (ix2 b n)) (x0 (ix2 b n))
          (val_main_v4 (F := Ideal) x3 x9 (ix2 b n)) (val_main_v9 (F := Ideal) x4 x9 (ix2 b n))
          (val_main_v17 (F := Ideal) x1 x3 x9 (ix2 b n)) (val_main_v25 (F := Ideal) x2 x4 x9 (ix2 b n))
          (x10 (ix2 b n)) (x11 (ix2 b n)) (x12 (ix2 b n)) (x13 (ix2 b n)) 2 := by
  rw [moved_neg]
  exact (val_main_v100_apply (F := Ideal) x0 x1 x2 x3 x4 x5 x6 x7 x8 x9 x11 x13 x14 x16 x17 x18 x19 x20 x21 (ix2 b n)).trans
    (congrArg (Scalar.select (x13 (ix2 b n)) _) (zeros2_at (ix2 b n)))
/-- The first moved slack. -/
theorem moved3_at (b : Fin 128) (n : Fin 2048) :
    val_main_v92 (F := Ideal) x0 x1 x2 x3 x4 x5 x6 x7 x8 x9 x14 x16 x17 x18 x19 x20 x21 (ix2 b n) = Step.moved (val_main_v84 (F := Ideal) x0 x1 x2 x3 x4 x5 x6 x7 x8 x9 x14 x16 x17 x18 x19 x20 x21 (ix2 b n)) (x0 (ix2 b n))
          (val_main_v4 (F := Ideal) x3 x9 (ix2 b n)) (val_main_v9 (F := Ideal) x4 x9 (ix2 b n))
          (val_main_v17 (F := Ideal) x1 x3 x9 (ix2 b n)) (val_main_v25 (F := Ideal) x2 x4 x9 (ix2 b n))
          (x10 (ix2 b n)) (x11 (ix2 b n)) (x12 (ix2 b n)) (x13 (ix2 b n)) 3 := by
  rw [moved_neg]
  rfl
/-- The second moved slack. -/
theorem moved4_at (b : Fin 128) (n : Fin 2048) :
    val_main_v96 (F := Ideal) x0 x1 x2 x3 x4 x5 x6 x7 x8 x9 x14 x16 x17 x18 x19 x20 x21 (ix2 b n) = Step.moved (val_main_v84 (F := Ideal) x0 x1 x2 x3 x4 x5 x6 x7 x8 x9 x14 x16 x17 x18 x19 x20 x21 (ix2 b n)) (x0 (ix2 b n))
          (val_main_v4 (F := Ideal) x3 x9 (ix2 b n)) (val_main_v9 (F := Ideal) x4 x9 (ix2 b n))
          (val_main_v17 (F := Ideal) x1 x3 x9 (ix2 b n)) (val_main_v25 (F := Ideal) x2 x4 x9 (ix2 b n))
          (x10 (ix2 b n)) (x11 (ix2 b n)) (x12 (ix2 b n)) (x13 (ix2 b n)) 4 := by
  rfl

end Cert.ReferenceIdeal.RefValue

end
-- ==== Proof.RefFlat.lean ====
/-
  The reference's result is the step's results laid side by side.

  The five [128, 2048] results are joined along the columns: column 2048 k + n of row b is result k at
  coordinate (b, n). Each result at a coordinate is the step's cell there: the feature row, the cell, the head,
  the moved values.
-/
import proofs.«131924_j12919261626992_1_alg».proof.Proof.Gen.ReferenceIdeal.Read
import proofs.«131924_j12919261626992_1_alg».proof.Proof.StepSpec
import proofs.«131924_j12919261626992_1_alg».proof.Proof.RefFeatures
import proofs.«131924_j12919261626992_1_alg».proof.Proof.RefHidden
import proofs.«131924_j12919261626992_1_alg».proof.Proof.RefStep
import proofs.«131924_j12919261626992_1_alg».proof.Proof.RefMoved
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

set_option quotPrecheck false in
/-- A [128, 2048] per-coordinate array. -/
local notation "Coords" => (⟨S128x2048, .f32⟩ : BufTy).Contents (Elt Ideal)

variable (x0 x1 x2 x3 x4 x5 x6 x7 x8 : Coords) (x9 : (⟨S128x1, .f32⟩ : BufTy).Contents (Elt Ideal)) (x10 x11 : Coords)
variable (x12 x13 : (⟨S128x2048, .i1⟩ : BufTy).Contents (Elt Ideal))
variable (x14 : (⟨S512x15, .f32⟩ : BufTy).Contents (Elt Ideal)) (x16 x17 : (⟨S512, .f32⟩ : BufTy).Contents (Elt Ideal))
variable (x18 : (⟨S128x128, .f32⟩ : BufTy).Contents (Elt Ideal)) (x19 : (⟨S128, .f32⟩ : BufTy).Contents (Elt Ideal))
    (x20 : (⟨S1x128, .f32⟩ : BufTy).Contents (Elt Ideal)) (x21 : (⟨S1, .f32⟩ : BufTy).Contents (Elt Ideal))

/-- The argument arrays as the step's record. -/
private abbrev theArgs : Step.Args :=
  { x := x0, x1 := x1, x2 := x2, z1 := x3, z2 := x4, x1E := x5, x2E := x6, z1E := x7, z2E := x8, mu := x9,
    lb := x10, ub := x11, hasLb := x12, hasUb := x13, Wih := x14, bih := x16, bhh := x17, W1 := x18, b1 := x19,
    W2 := x20, b2 := x21 }

/-! ### One coordinate: the step size, then the five results -/

/-- The step size at coordinate (b, n) is the step's, from the coordinate's fifteen features: row 2048 b + n of
    the feature matrix holds them, the cell and the head work on that row. -/
private theorem step_eq (b : Fin 128) (n : Fin 2048) :
    val_main_v84 (F := Ideal) x0 x1 x2 x3 x4 x5 x6 x7 x8 x9 x14 x16 x17 x18 x19 x20 x21 (ix2 b n)
      = Step.stepSize
          (Step.hidden (Step.feat (x0 (ix2 b n)) (x1 (ix2 b n)) (x2 (ix2 b n)) (x3 (ix2 b n)) (x4 (ix2 b n)) (x5 (ix2 b n))
              (x6 (ix2 b n)) (x7 (ix2 b n)) (x8 (ix2 b n)) (x9 (ix2 b (0 : Fin 1))))
            (Step.gateW x14 0 (by omega)) (Step.gateW x14 256 (by omega)) (Step.gateW x14 384 (by omega))
            (Step.gateB x16 x17 0 (by omega)) (Step.gateB x16 x17 256 (by omega)) (Step.gateB x16 x17 384 (by omega)))
          (fun j j' => x18 (ix2 j' j)) (fun j' => x19 (ix1 j')) (fun j' => x20 (ix2 (0 : Fin 1) j')) (x21 (ix1 (0 : Fin 1))) := by
  have hR : 2048 * b.val + n.val < 262144 := by
    have h1 := b.isLt
    have h2 := n.isLt
    omega
  refine (step_at x0 x1 x2 x3 x4 x5 x6 x7 x8 x9 x14 x16 x17 x18 x19 x20 x21 b n ⟨2048 * b.val + n.val, hR⟩ rfl).trans ?_
  refine congrArg (fun h => Step.stepSize h (fun j j' => x18 (ix2 j' j)) (fun j' => x19 (ix1 j')) (fun j' => x20 (ix2 (0 : Fin 1) j')) (x21 (ix1 (0 : Fin 1)))) ?_
  funext j
  refine (hidden_at x0 x1 x2 x3 x4 x5 x6 x7 x8 x9 x14 x16 x17 ⟨2048 * b.val + n.val, hR⟩ j).trans ?_
  refine congrArg (fun f => Step.hidden f (Step.gateW x14 0 (by omega)) (Step.gateW x14 256 (by omega)) (Step.gateW x14 384 (by omega))
            (Step.gateB x16 x17 0 (by omega)) (Step.gateB x16 x17 256 (by omega)) (Step.gateB x16 x17 384 (by omega)) j) ?_
  funext κ
  exact feat_at x0 x1 x2 x3 x4 x5 x6 x7 x8 x9 b n ⟨2048 * b.val + n.val, hR⟩ rfl κ

/-- The five results at coordinate (b, n), from the reference's own stages there, are the step's cell at the
    coordinate's scalars. -/
private theorem cell_at (b : Fin 128) (n : Fin 2048) :
    Step.moved (val_main_v84 (F := Ideal) x0 x1 x2 x3 x4 x5 x6 x7 x8 x9 x14 x16 x17 x18 x19 x20 x21 (ix2 b n)) (x0 (ix2 b n))
        (val_main_v4 (F := Ideal) x3 x9 (ix2 b n)) (val_main_v9 (F := Ideal) x4 x9 (ix2 b n))
        (val_main_v17 (F := Ideal) x1 x3 x9 (ix2 b n)) (val_main_v25 (F := Ideal) x2 x4 x9 (ix2 b n))
        (x10 (ix2 b n)) (x11 (ix2 b n)) (x12 (ix2 b n)) (x13 (ix2 b n))
      = Step.coord (theArgs x0 x1 x2 x3 x4 x5 x6 x7 x8 x9 x10 x11 x12 x13 x14 x16 x17 x18 x19 x20 x21) b n := by
  rw [step_eq x0 x1 x2 x3 x4 x5 x6 x7 x8 x9 x14 x16 x17 x18 x19 x20 x21 b n, slack1_at x3 x9 b n, slack2_at x4 x9 b n, ratio1_at x1 x3 x9 b n, ratio2_at x2 x4 x9 b n]
  rfl

/-! ### The five results, joined along the columns -/

/-- The reference's five results in the order they are joined: the moved x, the two distances, the two slacks. -/
private def pieces : Fin 5 → Coords :=
  ![val_main_v87 (F := Ideal) x0 x1 x2 x3 x4 x5 x6 x7 x8 x9 x14 x16 x17 x18 x19 x20 x21,
    val_main_v98 (F := Ideal) x0 x1 x2 x3 x4 x5 x6 x7 x8 x9 x10 x12 x14 x16 x17 x18 x19 x20 x21,
    val_main_v100 (F := Ideal) x0 x1 x2 x3 x4 x5 x6 x7 x8 x9 x11 x13 x14 x16 x17 x18 x19 x20 x21,
    val_main_v92 (F := Ideal) x0 x1 x2 x3 x4 x5 x6 x7 x8 x9 x14 x16 x17 x18 x19 x20 x21,
    val_main_v96 (F := Ideal) x0 x1 x2 x3 x4 x5 x6 x7 x8 x9 x14 x16 x17 x18 x19 x20 x21]

/-- The result array is the join of that family of five arrays of one shape. -/
private theorem v101_pieces :
    val_main_v101 (F := Ideal) x0 x1 x2 x3 x4 x5 x6 x7 x8 x9 x10 x11 x12 x13 x14 x16 x17 x18 x19 x20 x21
      = concatenate S128x10240 1 (List.ofFn fun k : Fin 5 => ⟨S128x2048, pieces x0 x1 x2 x3 x4 x5 x6 x7 x8 x9 x10 x11 x12 x13 x14 x16 x17 x18 x19 x20 x21 k⟩) concatenates_S128x2048_S128x2048_S128x2048_S128x2048_S128x2048_S128x10240_d1 := rfl

/-- Column 2048 k + n of row b of the join is result k at coordinate (b, n): each piece is 2048 columns wide. -/
private theorem v101_at (b : Fin 128) (k : Fin 5) (n : Fin 2048) (col : Fin 10240) (hc : col.val = 2048 * k.val + n.val) :
    val_main_v101 (F := Ideal) x0 x1 x2 x3 x4 x5 x6 x7 x8 x9 x10 x11 x12 x13 x14 x16 x17 x18 x19 x20 x21 (ix2 b col) = pieces x0 x1 x2 x3 x4 x5 x6 x7 x8 x9 x10 x11 x12 x13 x14 x16 x17 x18 x19 x20 x21 k (ix2 b n) := by
  refine (congrFun (v101_pieces x0 x1 x2 x3 x4 x5 x6 x7 x8 x9 x10 x11 x12 x13 x14 x16 x17 x18 x19 x20 x21) (ix2 b col)).trans ?_
  refine concatenate_ofFn_apply (t := S128x10240) (s₁ := S128x2048) (1 : Fin 2) (pieces x0 x1 x2 x3 x4 x5 x6 x7 x8 x9 x10 x11 x12 x13 x14 x16 x17 x18 x19 x20 x21) concatenates_S128x2048_S128x2048_S128x2048_S128x2048_S128x2048_S128x10240_d1 rfl 2048 rfl (ix2 b col) k ?_ (ix2 b n) ?_ ?_
  · show col.val / 2048 = k.val
    have h2 := n.isLt
    omega
  · show n.val = col.val % 2048
    have h2 := n.isLt
    omega
  · intro c hne
    match c, hne with
    | ⟨0, _⟩, _ => rfl
    | ⟨1, _⟩, h => exact absurd rfl h

/-- Result k at coordinate (b, n) is the step's k-th result there. -/
private theorem pieces_at (b : Fin 128) (n : Fin 2048) (k : Fin 5) :
    pieces x0 x1 x2 x3 x4 x5 x6 x7 x8 x9 x10 x11 x12 x13 x14 x16 x17 x18 x19 x20 x21 k (ix2 b n) = Step.coord (theArgs x0 x1 x2 x3 x4 x5 x6 x7 x8 x9 x10 x11 x12 x13 x14 x16 x17 x18 x19 x20 x21) b n k := by
  match k with
  | ⟨0, _⟩ => exact (moved0_at x0 x1 x2 x3 x4 x5 x6 x7 x8 x9 x10 x11 x12 x13 x14 x16 x17 x18 x19 x20 x21 b n).trans (congrFun (cell_at x0 x1 x2 x3 x4 x5 x6 x7 x8 x9 x10 x11 x12 x13 x14 x16 x17 x18 x19 x20 x21 b n) _)
  | ⟨1, _⟩ => exact (moved1_at x0 x1 x2 x3 x4 x5 x6 x7 x8 x9 x10 x11 x12 x13 x14 x16 x17 x18 x19 x20 x21 b n).trans (congrFun (cell_at x0 x1 x2 x3 x4 x5 x6 x7 x8 x9 x10 x11 x12 x13 x14 x16 x17 x18 x19 x20 x21 b n) _)
  | ⟨2, _⟩ => exact (moved2_at x0 x1 x2 x3 x4 x5 x6 x7 x8 x9 x10 x11 x12 x13 x14 x16 x17 x18 x19 x20 x21 b n).trans (congrFun (cell_at x0 x1 x2 x3 x4 x5 x6 x7 x8 x9 x10 x11 x12 x13 x14 x16 x17 x18 x19 x20 x21 b n) _)
  | ⟨3, _⟩ => exact (moved3_at x0 x1 x2 x3 x4 x5 x6 x7 x8 x9 x10 x11 x12 x13 x14 x16 x17 x18 x19 x20 x21 b n).trans (congrFun (cell_at x0 x1 x2 x3 x4 x5 x6 x7 x8 x9 x10 x11 x12 x13 x14 x16 x17 x18 x19 x20 x21 b n) _)
  | ⟨4, _⟩ => exact (moved4_at x0 x1 x2 x3 x4 x5 x6 x7 x8 x9 x10 x11 x12 x13 x14 x16 x17 x18 x19 x20 x21 b n).trans (congrFun (cell_at x0 x1 x2 x3 x4 x5 x6 x7 x8 x9 x10 x11 x12 x13 x14 x16 x17 x18 x19 x20 x21 b n) _)

/-- The reference's result array, as a function of the argument arrays. -/
theorem flat_eq :
    val_main_v101 (F := Ideal) x0 x1 x2 x3 x4 x5 x6 x7 x8 x9 x10 x11 x12 x13 x14 x16 x17 x18 x19 x20 x21
      = Step.flat { x := x0, x1 := x1, x2 := x2, z1 := x3, z2 := x4, x1E := x5, x2E := x6, z1E := x7, z2E := x8, mu := x9,
                    lb := x10, ub := x11, hasLb := x12, hasUb := x13, Wih := x14, bih := x16, bhh := x17, W1 := x18, b1 := x19,
                    W2 := x20, b2 := x21 } := by
  funext i
  obtain ⟨b, col, rfl⟩ : ∃ (b : Fin 128) (col : Fin 10240), i = ix2 b col := ⟨i 0, i 1, eq_ix2 i⟩
  have hcol := col.isLt
  have hk : col.val / 2048 < 5 := by omega
  have hn : col.val % 2048 < 2048 := Nat.mod_lt _ (by omega)
  have hc : col.val = 2048 * (⟨col.val / 2048, hk⟩ : Fin 5).val + (⟨col.val % 2048, hn⟩ : Fin 2048).val := by
    show col.val = 2048 * (col.val / 2048) + col.val % 2048
    omega
  exact ((v101_at x0 x1 x2 x3 x4 x5 x6 x7 x8 x9 x10 x11 x12 x13 x14 x16 x17 x18 x19 x20 x21 b ⟨col.val / 2048, hk⟩ ⟨col.val % 2048, hn⟩ col hc).trans
    (pieces_at x0 x1 x2 x3 x4 x5 x6 x7 x8 x9 x10 x11 x12 x13 x14 x16 x17 x18 x19 x20 x21 b ⟨col.val % 2048, hn⟩ ⟨col.val / 2048, hk⟩)).trans
    (Step.flat_ix (theArgs x0 x1 x2 x3 x4 x5 x6 x7 x8 x9 x10 x11 x12 x13 x14 x16 x17 x18 x19 x20 x21) b ⟨col.val / 2048, hk⟩ ⟨col.val % 2048, hn⟩ col hc).symm

end Cert.ReferenceIdeal.RefValue

end
-- ==== Proof.lean ====
/-
  A learned interior-point step: the kernel against its jnp reference, over the extended reals.

  Both programs take twelve per-coordinate arrays [128, 2048] (mu per row), two flag arrays and the weights of a
  single LSTM cell and a two-layer head, and return, for every coordinate, the moved x, the two recomputed bound
  distances and the two moved slacks, as [128, 5 * 2048]. The kernel tiles the coordinates 32 x 128 over a 4 x 16
  grid and computes a tile's 4096 coordinates as the rows of small matrix products; the reference computes all
  262144 coordinates as the rows of large ones. With exact operations the two agree entry by entry:

    * a product's entry is the sum over the contracted index whatever the tiling, and a change of float format is
      the identity;
    * the kernel adds the sum of the two biases, the reference adds them one after the other: addition is associative;
    * the kernel's logistic function is the reference's 1 / (1 + exp (-v));
    * the kernel subtracts the step size from zero, the reference negates it;
    * the kernel reads a flag widened to a word as "not zero", the reference reads the flag.

  The function both compute is Step.flat (Proof/StepSpec.lean); Proof/RegionValue.lean reads it off the kernel's
  run and Proof/RefFlat.lean off the reference's. No input needs to be finite for any of this, so the precondition
  is not opened.
-/
import proofs.«131924_j12919261626992_1_alg».proof.Defs
import proofs.«131924_j12919261626992_1_alg».proof.Proof.Gen.Kernel
import proofs.«131924_j12919261626992_1_alg».proof.Proof.Gen.Kernel.Skeleton
import proofs.«131924_j12919261626992_1_alg».proof.Proof.Gen.Kernel.Launch
import proofs.«131924_j12919261626992_1_alg».proof.Proof.Gen.Kernel.Points
import proofs.«131924_j12919261626992_1_alg».proof.Proof.Gen.Kernel.Frame
import proofs.«131924_j12919261626992_1_alg».proof.Proof.Gen.KernelIdeal
import proofs.«131924_j12919261626992_1_alg».proof.Proof.Gen.KernelIdeal.Skeleton
import proofs.«131924_j12919261626992_1_alg».proof.Proof.Gen.KernelIdeal.Launch
import proofs.«131924_j12919261626992_1_alg».proof.Proof.Gen.KernelIdeal.Points
import proofs.«131924_j12919261626992_1_alg».proof.Proof.Gen.KernelIdeal.Frame
import proofs.«131924_j12919261626992_1_alg».proof.Proof.Gen.ReferenceIdeal
import proofs.«131924_j12919261626992_1_alg».proof.Proof.Gen.ReferenceIdeal.Run
import proofs.«131924_j12919261626992_1_alg».proof.Proof.Gen.ReferenceIdeal.Read
import proofs.«131924_j12919261626992_1_alg».proof.Proof.Gen.Pre_finite_inputs
import proofs.«131924_j12919261626992_1_alg».proof.Proof.StepSpec
import proofs.«131924_j12919261626992_1_alg».proof.Proof.RegionValue
import proofs.«131924_j12919261626992_1_alg».proof.Proof.RefFlat
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- From memories that agree on the arguments both programs end with the step's results laid side by side. -/
theorem algebraic : Cert.algebraic_KernelIdeal_ReferenceIdeal := by
  intro m ρ m' ρ' _ hagree
  refine ⟨fun c => Step.flat (Cert.KernelIdeal.RegionValue.argsOf m c), Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21⟩ := hagree c
  rw [Cert.ReferenceIdeal.Read.val_main_v101_eq, Cert.ReferenceIdeal.RefValue.flat_eq, h0, h1, h2, h3, h4, h5, h6, h7, h8, h9, h10, h11, h12, h13, h14, h16, h17, h18, h19, h20, h21]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
